-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S101x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S101x512 : Shape := ⟨2, ![101, 512]⟩
abbrev S131072 : Shape := ⟨1, ![131072]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S101x512 : S_.BroadcastsInDim S101x512 (![] : Fin 0 → Fin S101x512.rank)
  reducesTo_S101x512_S_d0_1 : S101x512.ReducesTo [0, 1] S_
  bcast_S_S131072 : S_.BroadcastsInDim S131072 (![] : Fin 0 → Fin S131072.rank)
  reducesTo_S131072_S_d0 : S131072.ReducesTo [0] S_

variable [Facts]

def fn {F : FTy → Type} [FloatOps F] (main_arg0 : FVec F S131072x512 .f32) (main_arg1 : FVec F S101x512 .f32) (main_arg2 : IVec S131072 32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S101x512 .f32 := Host.absf main_arg1
  let main_cst_0 : FVec F S_ .f32 := constant S_ .f32 0x7F800000#32
  let main_v5 : FVec F S101x512 .f32 := broadcastInDim S101x512 ![] bcast_S_S101x512 main_cst_0
  let main_v6 : IVec S101x512 1 := cmpf .olt main_v4 main_v5
  let main_c_1 : IVec S_ 1 := constantI S_ 1 1#1
  let main_v7 : IVec S_ 1 := (fun x v => Host.reduce IntOp.andi x v reducesTo_S101x512_S_d0_1 h_S_) main_v6 main_c_1
  let main_v8 : IVec S_ 1 := andi main_v3 main_v7
  let main_c_2 : IVec S_ 32 := constantI S_ 32 0#32
  let main_v9 : IVec S131072 32 := broadcastInDim S131072 ![] bcast_S_S131072 main_c_2
  let main_v10 : IVec S131072 1 := cmpi .sge main_arg2 main_v9
  let main_c_3 : IVec S_ 1 := constantI S_ 1 1#1
  let main_v11 : IVec S_ 1 := (fun x v => Host.reduce IntOp.andi x v reducesTo_S131072_S_d0 h_S_) main_v10 main_c_3
  let main_v12 : IVec S_ 1 := andi main_v8 main_v11
  main_v12
-- ==== Kernel.lean ====
abbrev S131072x512 : Shape := ⟨2, ![131072, 512]⟩
abbrev S101x512 : Shape := ⟨2, ![101, 512]⟩
abbrev S131072 : Shape := ⟨1, ![131072]⟩
abbrev S_ : Shape := ⟨0, ![]⟩
abbrev S1x131072 : Shape := ⟨2, ![1, 131072]⟩
abbrev S16x128 : Shape := ⟨2, ![16, 128]⟩
abbrev S2x8x128 : Shape := ⟨3, ![2, 8, 128]⟩
abbrev S2x1x1 : Shape := ⟨3, ![2, 1, 1]⟩
abbrev S2 : Shape := ⟨1, ![2]⟩
abbrev S101 : Shape := ⟨1, ![101]⟩
abbrev S101x1 : Shape := ⟨2, ![101, 1]⟩
abbrev S512x101 : Shape := ⟨2, ![512, 101]⟩
abbrev S101x101 : Shape := ⟨2, ![101, 101]⟩
abbrev S1x101 : Shape := ⟨2, ![1, 101]⟩
abbrev S100 : Shape := ⟨1, ![100]⟩
abbrev S100x1 : Shape := ⟨2, ![100, 1]⟩
abbrev S100x2 : Shape := ⟨2, ![100, 2]⟩
abbrev S2048x512 : Shape := ⟨2, ![2048, 512]⟩
abbrev S1x2048 : Shape := ⟨2, ![1, 2048]⟩
abbrev S8x128 : Shape := ⟨2, ![8, 128]⟩
abbrev S1x1 : Shape := ⟨2, ![1, 1]⟩
abbrev S2048x1 : Shape := ⟨2, ![2048, 1]⟩
abbrev S2048x101 : Shape := ⟨2, ![2048, 101]⟩
abbrev S2048 : Shape := ⟨1, ![2048]⟩
abbrev S1 : Shape := ⟨1, ![1]⟩

abbrev nBuf : Space → Nat
  | .hbm => 132
  | .vmem => 8
  | .smem => 0
  | _ => 0

abbrev hbmTy0_0 (i : Nat) : BufTy := match i % 128 with
  | 0 => ⟨S131072x512, .f32⟩
  | 1 => ⟨S101x512, .f32⟩
  | 2 => ⟨S131072, .i32⟩
  | 3 => ⟨S_, .i32⟩
  | 4 => ⟨S_, .i32⟩
  | 5 => ⟨S_, .i32⟩
  | 6 => ⟨S131072, .i32⟩
  | 7 => ⟨S131072, .i32⟩
  | 8 => ⟨S_, .i32⟩
  | 9 => ⟨S131072, .i32⟩
  | 10 => ⟨S131072, .i32⟩
  | 11 => ⟨S1x131072, .i32⟩
  | 12 => ⟨S16x128, .f32⟩
  | 13 => ⟨S2x8x128, .f32⟩
  | 14 => ⟨S2x1x1, .f32⟩
  | 15 => ⟨S2, .f32⟩
  | 16 => ⟨S_, .f32⟩
  | 17 => ⟨S_, .f32⟩
  | 18 => ⟨S_, .f32⟩
  | 19 => ⟨S_, .f32⟩
  | 20 => ⟨S101x512, .f32⟩
  | 21 => ⟨S_, .f32⟩
  | 22 => ⟨S101, .f32⟩
  | 23 => ⟨S101x1, .f32⟩
  | 24 => ⟨S101x1, .f32⟩
  | 25 => ⟨S_, .f32⟩
  | 26 => ⟨S101x1, .f32⟩
  | 27 => ⟨S101x1, .f32⟩
  | 28 => ⟨S101x512, .f32⟩
  | 29 => ⟨S101x512, .f32⟩
  | 30 => ⟨S512x101, .f32⟩
  | 31 => ⟨S101x101, .f32⟩
  | 32 => ⟨S_, .f32⟩
  | 33 => ⟨S101x101, .f32⟩
  | 34 => ⟨S101x101, .f32⟩
  | 35 => ⟨S101, .i32⟩
  | 36 => ⟨S101x1, .i32⟩
  | 37 => ⟨S1x101, .i32⟩
  | 38 => ⟨S101x101, .i32⟩
  | 39 => ⟨S101x101, .i32⟩
  | 40 => ⟨S101x101, .i32⟩
  | 41 => ⟨S101x101, .i32⟩
  | 42 => ⟨S_, .i32⟩
  | 43 => ⟨S101x101, .i32⟩
  | 44 => ⟨S101x101, .i1⟩
  | 45 => ⟨S101x101, .f32⟩
  | 46 => ⟨S_, .f32⟩
  | 47 => ⟨S101x101, .f32⟩
  | 48 => ⟨S101x101, .f32⟩
  | 49 => ⟨S101x101, .f32⟩
  | 50 => ⟨S101x101, .f32⟩
  | 51 => ⟨S100, .i32⟩
  | 52 => ⟨S100, .i32⟩
  | 53 => ⟨S_, .i32⟩
  | 54 => ⟨S100, .i32⟩
  | 55 => ⟨S100, .i32⟩
  | 56 => ⟨S_, .i32⟩
  | 57 => ⟨S100, .i32⟩
  | 58 => ⟨S100, .i1⟩
  | 59 => ⟨S_, .i32⟩
  | 60 => ⟨S100, .i32⟩
  | 61 => ⟨S100, .i32⟩
  | 62 => ⟨S100, .i32⟩
  | 63 => ⟨S_, .i32⟩
  | 64 => ⟨S100, .i32⟩
  | 65 => ⟨S100, .i1⟩
  | 66 => ⟨S_, .i32⟩
  | 67 => ⟨S100, .i32⟩
  | 68 => ⟨S100, .i32⟩
  | 69 => ⟨S100, .i32⟩
  | 70 => ⟨S100x1, .i32⟩
  | 71 => ⟨S100x1, .i32⟩
  | 72 => ⟨S100x2, .i32⟩
  | 73 => ⟨S100, .f32⟩
  | 74 => ⟨S100, .i32⟩
  | 75 => ⟨S100, .i32⟩
  | 76 => ⟨S_, .i32⟩
  | 77 => ⟨S100, .i32⟩
  | 78 => ⟨S100, .i32⟩
  | 79 => ⟨S_, .i32⟩
  | 80 => ⟨S100, .i32⟩
  | 81 => ⟨S100, .i1⟩
  | 82 => ⟨S_, .i32⟩
  | 83 => ⟨S100, .i32⟩
  | 84 => ⟨S100, .i32⟩
  | 85 => ⟨S100, .i32⟩
  | 86 => ⟨S_, .i32⟩
  | 87 => ⟨S100, .i32⟩
  | 88 => ⟨S100, .i1⟩
  | 89 => ⟨S_, .i32⟩
  | 90 => ⟨S100, .i32⟩
  | 91 => ⟨S100, .i32⟩
  | 92 => ⟨S100, .i32⟩
  | 93 => ⟨S100x1, .i32⟩
  | 94 => ⟨S100x1, .i32⟩
  | 95 => ⟨S100x2, .i32⟩
  | 96 => ⟨S100, .f32⟩
  | 97 => ⟨S_, .i32⟩
  | 98 => ⟨S101x101, .i32⟩
  | 99 => ⟨S101x101, .i1⟩
  | 100 => ⟨S101x101, .f32⟩
  | 101 => ⟨S_, .f32⟩
  | 102 => ⟨S101x101, .f32⟩
  | 103 => ⟨S101x101, .f32⟩
  | 104 => ⟨S101x101, .f32⟩
  | 105 => ⟨S101x101, .f32⟩
  | 106 => ⟨S_, .f32⟩
  | 107 => ⟨S101, .f32⟩
  | 108 => ⟨S_, .f32⟩
  | 109 => ⟨S100, .f32⟩
  | 110 => ⟨S100, .f32⟩
  | 111 => ⟨S100, .f32⟩
  | 112 => ⟨S100, .f32⟩
  | 113 => ⟨S_, .f32⟩
  | 114 => ⟨S100, .f32⟩
  | 115 => ⟨S100, .f32⟩
  | 116 => ⟨S_, .f32⟩
  | 117 => ⟨S_, .f32⟩
  | 118 => ⟨S_, .f32⟩
  | 119 => ⟨S100, .f32⟩
  | 120 => ⟨S100, .f32⟩
  | 121 => ⟨S100, .f32⟩
  | 122 => ⟨S100, .f32⟩
  | 123 => ⟨S_, .f32⟩
  | 124 => ⟨S100, .f32⟩
  | 125 => ⟨S100, .f32⟩
  | 126 => ⟨S_, .f32⟩
  | 127 => ⟨S_, .f32⟩
  | _ => ⟨S131072x512, .f32⟩

abbrev hbmTy0_1 (i : Nat) : BufTy := match i % 128 with
  | 0 => ⟨S_, .f32⟩
  | 1 => ⟨S_, .f32⟩
  | 2 => ⟨S_, .f32⟩
  | 3 => ⟨S_, .f32⟩
  | _ => ⟨S131072x512, .f32⟩

abbrev hbmTy (i : Nat) : BufTy := match i / 128 with
  | 0 => hbmTy0_0 i
  | 1 => hbmTy0_1 i
  | _ => ⟨S131072x512, .f32⟩

abbrev bufTy : (tb : Table) → Fin (tcTables nBuf tb) → BufTy
  | .hbm, ⟨i, _⟩ => hbmTy i
  | .local _ .vmem, ⟨0, _⟩ => ⟨S2048x512, .f32⟩
  | .local _ .vmem, ⟨1, _⟩ => ⟨S2048x512, .f32⟩
  | .local _ .vmem, ⟨2, _⟩ => ⟨S1x2048, .i32⟩
  | .local _ .vmem, ⟨3, _⟩ => ⟨S1x2048, .i32⟩
  | .local _ .vmem, ⟨4, _⟩ => ⟨S101x512, .f32⟩
  | .local _ .vmem, ⟨5, _⟩ => ⟨S8x128, .f32⟩
  | .local _ .vmem, ⟨6, _⟩ => ⟨S8x128, .f32⟩
  | .local _ .vmem, ⟨7, _⟩ => ⟨S1x1, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_c_0 : Ref sig .tc := ⟨.hbm, 4, rfl⟩
abbrev main_call0_call0_v0 : Ref sig .tc := ⟨.hbm, 5, rfl⟩
abbrev main_call0_call0_v1 : Ref sig .tc := ⟨.hbm, 6, rfl⟩
abbrev main_call0_call0_v2 : Ref sig .tc := ⟨.hbm, 7, rfl⟩
abbrev main_call0_call0_v3 : Ref sig .tc := ⟨.hbm, 8, rfl⟩
abbrev main_call0_call0_v4 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_cst : Ref sig .tc := ⟨.hbm, 16, rfl⟩
abbrev main_call0_v6 : Ref sig .tc := ⟨.hbm, 17, rfl⟩
abbrev main_call0_cst_1 : Ref sig .tc := ⟨.hbm, 18, rfl⟩
abbrev main_call0_v7 : Ref sig .tc := ⟨.hbm, 19, rfl⟩
abbrev main_call0_v8 : Ref sig .tc := ⟨.hbm, 20, rfl⟩
abbrev main_call0_cst_2 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_cst_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_call0_v17 : Ref sig .tc := ⟨.hbm, 31, rfl⟩
abbrev main_call0_cst_4 : Ref sig .tc := ⟨.hbm, 32, rfl⟩
abbrev main_call0_v18 : Ref sig .tc := ⟨.hbm, 33, rfl⟩
abbrev main_call0_v19 : Ref sig .tc := ⟨.hbm, 34, rfl⟩
abbrev main_call0_v20 : Ref sig .tc := ⟨.hbm, 35, rfl⟩
abbrev main_call0_v21 : Ref sig .tc := ⟨.hbm, 36, rfl⟩
abbrev main_call0_v22 : Ref sig .tc := ⟨.hbm, 37, rfl⟩
abbrev main_call0_v23 : Ref sig .tc := ⟨.hbm, 38, rfl⟩
abbrev main_call0_v24 : Ref sig .tc := ⟨.hbm, 39, rfl⟩
abbrev main_call0_v25 : Ref sig .tc := ⟨.hbm, 40, rfl⟩
abbrev main_call0_v26 : Ref sig .tc := ⟨.hbm, 41, rfl⟩
abbrev main_call0_c_5 : Ref sig .tc := ⟨.hbm, 42, rfl⟩
abbrev main_call0_v27 : Ref sig .tc := ⟨.hbm, 43, rfl⟩
abbrev main_call0_v28 : Ref sig .tc := ⟨.hbm, 44, rfl⟩
abbrev main_call0_v29 : Ref sig .tc := ⟨.hbm, 45, rfl⟩
abbrev main_call0_cst_6 : Ref sig .tc := ⟨.hbm, 46, rfl⟩
abbrev main_call0_v30 : Ref sig .tc := ⟨.hbm, 47, rfl⟩
abbrev main_call0_v31 : Ref sig .tc := ⟨.hbm, 48, rfl⟩
abbrev main_call0_v32 : Ref sig .tc := ⟨.hbm, 49, rfl⟩
abbrev main_call0_v33 : Ref sig .tc := ⟨.hbm, 50, rfl⟩
abbrev main_call0_call1_v0 : Ref sig .tc := ⟨.hbm, 51, rfl⟩
abbrev main_call0_call1_v1 : Ref sig .tc := ⟨.hbm, 52, rfl⟩
abbrev main_call0_call1_c : Ref sig .tc := ⟨.hbm, 53, rfl⟩
abbrev main_call0_call1_v2 : Ref sig .tc := ⟨.hbm, 54, rfl⟩
abbrev main_call0_call1_v3 : Ref sig .tc := ⟨.hbm, 55, rfl⟩
abbrev main_call0_call1_c_0 : Ref sig .tc := ⟨.hbm, 56, rfl⟩
abbrev main_call0_call1_v4 : Ref sig .tc := ⟨.hbm, 57, rfl⟩
abbrev main_call0_call1_v5 : Ref sig .tc := ⟨.hbm, 58, rfl⟩
abbrev main_call0_call1_c_1 : Ref sig .tc := ⟨.hbm, 59, rfl⟩
abbrev main_call0_call1_v6 : Ref sig .tc := ⟨.hbm, 60, rfl⟩
abbrev main_call0_call1_v7 : Ref sig .tc := ⟨.hbm, 61, rfl⟩
abbrev main_call0_call1_v8 : Ref sig .tc := ⟨.hbm, 62, rfl⟩
abbrev main_call0_call1_c_2 : Ref sig .tc := ⟨.hbm, 63, rfl⟩
abbrev main_call0_call1_v9 : Ref sig .tc := ⟨.hbm, 64, rfl⟩
abbrev main_call0_call1_v10 : Ref sig .tc := ⟨.hbm, 65, rfl⟩
abbrev main_call0_call1_c_3 : Ref sig .tc := ⟨.hbm, 66, rfl⟩
abbrev main_call0_call1_v11 : Ref sig .tc := ⟨.hbm, 67, rfl⟩
abbrev main_call0_call1_v12 : Ref sig .tc := ⟨.hbm, 68, rfl⟩
abbrev main_call0_call1_v13 : Ref sig .tc := ⟨.hbm, 69, rfl⟩
abbrev main_call0_call1_v14 : Ref sig .tc := ⟨.hbm, 70, rfl⟩
abbrev main_call0_call1_v15 : Ref sig .tc := ⟨.hbm, 71, rfl⟩
abbrev main_call0_call1_v16 : Ref sig .tc := ⟨.hbm, 72, rfl⟩
abbrev main_call0_v34 : Ref sig .tc := ⟨.hbm, 73, rfl⟩
abbrev main_call0_call2_v0 : Ref sig .tc := ⟨.hbm, 74, rfl⟩
abbrev main_call0_call2_v1 : Ref sig .tc := ⟨.hbm, 75, rfl⟩
abbrev main_call0_call2_c : Ref sig .tc := ⟨.hbm, 76, rfl⟩
abbrev main_call0_call2_v2 : Ref sig .tc := ⟨.hbm, 77, rfl⟩
abbrev main_call0_call2_v3 : Ref sig .tc := ⟨.hbm, 78, rfl⟩
abbrev main_call0_call2_c_0 : Ref sig .tc := ⟨.hbm, 79, rfl⟩
abbrev main_call0_call2_v4 : Ref sig .tc := ⟨.hbm, 80, rfl⟩
abbrev main_call0_call2_v5 : Ref sig .tc := ⟨.hbm, 81, rfl⟩
abbrev main_call0_call2_c_1 : Ref sig .tc := ⟨.hbm, 82, rfl⟩
abbrev main_call0_call2_v6 : Ref sig .tc := ⟨.hbm, 83, rfl⟩
abbrev main_call0_call2_v7 : Ref sig .tc := ⟨.hbm, 84, rfl⟩
abbrev main_call0_call2_v8 : Ref sig .tc := ⟨.hbm, 85, rfl⟩
abbrev main_call0_call2_c_2 : Ref sig .tc := ⟨.hbm, 86, rfl⟩
abbrev main_call0_call2_v9 : Ref sig .tc := ⟨.hbm, 87, rfl⟩
abbrev main_call0_call2_v10 : Ref sig .tc := ⟨.hbm, 88, rfl⟩
abbrev main_call0_call2_c_3 : Ref sig .tc := ⟨.hbm, 89, rfl⟩
abbrev main_call0_call2_v11 : Ref sig .tc := ⟨.hbm, 90, rfl⟩
abbrev main_call0_call2_v12 : Ref sig .tc := ⟨.hbm, 91, rfl⟩
abbrev main_call0_call2_v13 : Ref sig .tc := ⟨.hbm, 92, rfl⟩
abbrev main_call0_call2_v14 : Ref sig .tc := ⟨.hbm, 93, rfl⟩
abbrev main_call0_call2_v15 : Ref sig .tc := ⟨.hbm, 94, rfl⟩
abbrev main_call0_call2_v16 : Ref sig .tc := ⟨.hbm, 95, rfl⟩
abbrev main_call0_v35 : Ref sig .tc := ⟨.hbm, 96, rfl⟩
abbrev main_call0_c_7 : Ref sig .tc := ⟨.hbm, 97, rfl⟩
abbrev main_call0_v36 : Ref sig .tc := ⟨.hbm, 98, rfl⟩
abbrev main_call0_v37 : Ref sig .tc := ⟨.hbm, 99, rfl⟩
abbrev main_call0_v38 : Ref sig .tc := ⟨.hbm, 100, rfl⟩
abbrev main_call0_cst_8 : Ref sig .tc := ⟨.hbm, 101, rfl⟩
abbrev main_call0_v39 : Ref sig .tc := ⟨.hbm, 102, rfl⟩
abbrev main_call0_v40 : Ref sig .tc := ⟨.hbm, 103, rfl⟩
abbrev main_call0_v41 : Ref sig .tc := ⟨.hbm, 104, rfl⟩
abbrev main_call0_v42 : Ref sig .tc := ⟨.hbm, 105, rfl⟩
abbrev main_call0_cst_9 : Ref sig .tc := ⟨.hbm, 106, rfl⟩
abbrev main_call0_v43 : Ref sig .tc := ⟨.hbm, 107, rfl⟩
abbrev main_call0_cst_10 : Ref sig .tc := ⟨.hbm, 108, rfl⟩
abbrev main_call0_v44 : Ref sig .tc := ⟨.hbm, 109, rfl⟩
abbrev main_call0_v45 : Ref sig .tc := ⟨.hbm, 110, rfl⟩
abbrev main_call0_v46 : Ref sig .tc := ⟨.hbm, 111, rfl⟩
abbrev main_call0_v47 : Ref sig .tc := ⟨.hbm, 112, rfl⟩
abbrev main_call0_call3_cst : Ref sig .tc := ⟨.hbm, 113, rfl⟩
abbrev main_call0_call3_v0 : Ref sig .tc := ⟨.hbm, 114, rfl⟩
abbrev main_call0_v48 : Ref sig .tc := ⟨.hbm, 115, rfl⟩
abbrev main_call0_cst_11 : Ref sig .tc := ⟨.hbm, 116, rfl⟩
abbrev main_call0_v49 : Ref sig .tc := ⟨.hbm, 117, rfl⟩
abbrev main_call0_cst_12 : Ref sig .tc := ⟨.hbm, 118, rfl⟩
abbrev main_call0_v50 : Ref sig .tc := ⟨.hbm, 119, rfl⟩
abbrev main_call0_v51 : Ref sig .tc := ⟨.hbm, 120, rfl⟩
abbrev main_call0_v52 : Ref sig .tc := ⟨.hbm, 121, rfl⟩
abbrev main_call0_v53 : Ref sig .tc := ⟨.hbm, 122, rfl⟩
abbrev main_call0_call4_cst : Ref sig .tc := ⟨.hbm, 123, rfl⟩
abbrev main_call0_call4_v0 : Ref sig .tc := ⟨.hbm, 124, rfl⟩
abbrev main_call0_v54 : Ref sig .tc := ⟨.hbm, 125, rfl⟩
abbrev main_call0_cst_13 : Ref sig .tc := ⟨.hbm, 126, rfl⟩
abbrev main_call0_v55 : Ref sig .tc := ⟨.hbm, 127, rfl⟩
abbrev main_call0_v56 : Ref sig .tc := ⟨.hbm, 128, rfl⟩
abbrev main_call0_cst_14 : Ref sig .tc := ⟨.hbm, 129, rfl⟩
abbrev main_call0_v57 : Ref sig .tc := ⟨.hbm, 130, rfl⟩
abbrev main_v0 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v32 : BitVec 1 := Scalar.cmpi .eq arg1 c31_i32
  let v33 : BitVec 32 := Scalar.extui v32
  let c0_i32_13 : BitVec 32 := 0#32
  let v34 : BitVec 1 := Scalar.cmpi .ne v33 c0_i32_13
  v34

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S101x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S131072 : S_.BroadcastsInDim S131072 (![] : Fin 0 → Fin S131072.rank)
  shapeCasts_S131072_S1x131072 : S131072.ShapeCasts S1x131072
  shapeCasts_S16x128_S2x8x128 : S16x128.ShapeCasts S2x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  reducesTo_S101x512_S101_d1 : S101x512.ReducesTo [1] S101
  bcast_S101_S101x1_0 : S101.BroadcastsInDim S101x1 (![0] : Fin 1 → Fin S101x1.rank)
  bcast_S_S101x1 : S_.BroadcastsInDim S101x1 (![] : Fin 0 → Fin S101x1.rank)
  bcast_S101x1_S101x512_0_1 : S101x1.BroadcastsInDim S101x512 (![0, 1] : Fin 2 → Fin S101x512.rank)
  transposes_S101x512_S512x101_1_0 : S101x512.Transposes [1, 0] S512x101
  bcast_S_S101x101 : S_.BroadcastsInDim S101x101 (![] : Fin 0 → Fin S101x101.rank)
  bcast_S101_S1x101_1 : S101.BroadcastsInDim S1x101 (![1] : Fin 1 → Fin S1x101.rank)
  bcast_S101x1_S101x101_0_1 : S101x1.BroadcastsInDim S101x101 (![0, 1] : Fin 2 → Fin S101x101.rank)
  bcast_S1x101_S101x101_0_1 : S1x101.BroadcastsInDim S101x101 (![0, 1] : Fin 2 → Fin S101x101.rank)
  bcast_S_S100 : S_.BroadcastsInDim S100 (![] : Fin 0 → Fin S100.rank)
  bcast_S100_S100x1_0 : S100.BroadcastsInDim S100x1 (![0] : Fin 1 → Fin S100x1.rank)
  concatenates_S100x1_S100x1_S100x2_d1 : Shape.Concatenates [S100x1, S100x1] S100x2 1
  reducesTo_S101x101_S101_d1 : S101x101.ReducesTo [1] S101
  slices_S101_S100_1 : S101.Slices ![1] S100
  reducesTo_S100_S_d0 : S100.ReducesTo [0] S_
  slices_S101_S100_0 : S101.Slices ![0] S100
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S101x512_S101x512_0_0 : ∀ a, (![0, 0] : Fin 2 → Nat) a + S101x512.size a ≤ S101x512.size a
  h_S101x512 : 0 < S101x512.numel
  bitsLt_bf16_f32 : FTy.bits .bf16 < FTy.bits .f32
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  transposes_S1x2048_p1_0_S2048x1 : S1x2048.Transposes [1, 0] S2048x1
  iota_S2048x101_d1_w32 : S2048x101.Iotas .tc 32 [1]
  broadcasts_S2048x1_S2048x101 : S2048x1.Broadcasts S2048x101
  natLt_1_32 : 1 < 32
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  reduces_S2048x1_S1 : S2048x1.Reduces [0] S1
  shapeCasts_S1_S1x1 : S1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  dot_S101x512_S512x101_S101x101_1_0_0_1_n_n_wf : DotDims.WF S101x512 S512x101 S101x101 [1] [0] [0] [1] [] []
  gather_S101x101_S100x2_S100_n_01_n_n_01_1_11_wf : GatherDims.WF S101x101 S100x2 S100 [] [0, 1] [] [0, 1] [] 1 ![1, 1]
  dot_S2048x101_S101x512_S2048x512_1_0_0_1_n_n_wf : DotDims.WF S2048x101 S101x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S131072x512.size a
  hwx0_0 : ∀ i : grid0.Coords, EltTy.bits .f32 = 32 ∨ (Rect.block (s := S131072x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x131072.size a
  hwx0_1 : ∀ i : grid0.Coords, EltTy.bits .i32 = 32 ∨ (Rect.block (s := S1x131072) S1x2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S101x512.size a ≤ S101x512.size a
  hwx0_2 : ∀ i : grid0.Coords, EltTy.bits .f32 = 32 ∨ (Rect.block (s := S101x512) S101x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)

variable [Facts₀]

def dot_S101x512_S512x101_S101x101_1_0_0_1_n_n : DotDims S101x512 S512x101 S101x101 where
  lhsContracting := [1]
  rhsContracting := [0]
  lhsNonContracting := [0]
  rhsNonContracting := [1]
  lhsBatch := []
  rhsBatch := []
  wf := dot_S101x512_S512x101_S101x101_1_0_0_1_n_n_wf
def gather_S101x101_S100x2_S100_n_01_n_n_01_1_11 : GatherDims S101x101 S100x2 S100 where
  offsetDims := []
  collapsedSliceDims := [0, 1]
  operandBatchingDims := []
  startIndicesBatchingDims := []
  startIndexMap := [0, 1]
  indexVectorDim := 1
  sliceSizes := ![1, 1]
  wf := gather_S101x101_S100x2_S100_n_01_n_n_01_1_11_wf
def dot_S2048x101_S101x512_S2048x512_1_0_0_1_n_n : DotDims S2048x101 S101x512 S2048x512 where
  lhsContracting := [1]
  rhsContracting := [0]
  lhsNonContracting := [0]
  rhsNonContracting := [1]
  lhsBatch := []
  rhsBatch := []
  wf := dot_S2048x101_S101x512_S2048x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S101x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S131072x512 : Shape := ⟨2, ![131072, 512]⟩
abbrev S101x512 : Shape := ⟨2, ![101, 512]⟩
abbrev S131072 : Shape := ⟨1, ![131072]⟩
abbrev S_ : Shape := ⟨0, ![]⟩
abbrev S131072x1 : Shape := ⟨2, ![131072, 1]⟩
abbrev S101 : Shape := ⟨1, ![101]⟩
abbrev S101x1 : Shape := ⟨2, ![101, 1]⟩
abbrev S512x101 : Shape := ⟨2, ![512, 101]⟩
abbrev S101x101 : Shape := ⟨2, ![101, 101]⟩
abbrev S1x101 : Shape := ⟨2, ![1, 101]⟩
abbrev S100 : Shape := ⟨1, ![100]⟩
abbrev S100x1 : Shape := ⟨2, ![100, 1]⟩
abbrev S100x2 : Shape := ⟨2, ![100, 2]⟩

abbrev nBuf : Space → Nat
  | .hbm => 132
  | .vmem => 0
  | .smem => 0
  | _ => 0

abbrev hbmTy0_0 (i : Nat) : BufTy := match i % 128 with
  | 0 => ⟨S131072x512, .f32⟩
  | 1 => ⟨S101x512, .f32⟩
  | 2 => ⟨S131072, .i32⟩
  | 3 => ⟨S_, .i32⟩
  | 4 => ⟨S131072, .i32⟩
  | 5 => ⟨S131072, .i1⟩
  | 6 => ⟨S_, .i32⟩
  | 7 => ⟨S131072, .i32⟩
  | 8 => ⟨S131072, .i32⟩
  | 9 => ⟨S131072, .i32⟩
  | 10 => ⟨S131072x1, .i32⟩
  | 11 => ⟨S131072x512, .f32⟩
  | 12 => ⟨S131072x512, .f32⟩
  | 13 => ⟨S131072x512, .f32⟩
  | 14 => ⟨S_, .f32⟩
  | 15 => ⟨S131072, .f32⟩
  | 16 => ⟨S101x512, .f32⟩
  | 17 => ⟨S_, .f32⟩
  | 18 => ⟨S101, .f32⟩
  | 19 => ⟨S101x1, .f32⟩
  | 20 => ⟨S101x1, .f32⟩
  | 21 => ⟨S_, .f32⟩
  | 22 => ⟨S101x1, .f32⟩
  | 23 => ⟨S101x1, .f32⟩
  | 24 => ⟨S101x512, .f32⟩
  | 25 => ⟨S101x512, .f32⟩
  | 26 => ⟨S512x101, .f32⟩
  | 27 => ⟨S101x101, .f32⟩
  | 28 => ⟨S_, .f32⟩
  | 29 => ⟨S101x101, .f32⟩
  | 30 => ⟨S101x101, .f32⟩
  | 31 => ⟨S101, .i32⟩
  | 32 => ⟨S101x1, .i32⟩
  | 33 => ⟨S1x101, .i32⟩
  | 34 => ⟨S101x101, .i32⟩
  | 35 => ⟨S101x101, .i32⟩
  | 36 => ⟨S101x101, .i32⟩
  | 37 => ⟨S101x101, .i32⟩
  | 38 => ⟨S_, .i32⟩
  | 39 => ⟨S101x101, .i32⟩
  | 40 => ⟨S101x101, .i1⟩
  | 41 => ⟨S101x101, .f32⟩
  | 42 => ⟨S_, .f32⟩
  | 43 => ⟨S101x101, .f32⟩
  | 44 => ⟨S101x101, .f32⟩
  | 45 => ⟨S101x101, .f32⟩
  | 46 => ⟨S101x101, .f32⟩
  | 47 => ⟨S100, .i32⟩
  | 48 => ⟨S100, .i32⟩
  | 49 => ⟨S_, .i32⟩
  | 50 => ⟨S100, .i32⟩
  | 51 => ⟨S100, .i32⟩
  | 52 => ⟨S_, .i32⟩
  | 53 => ⟨S100, .i32⟩
  | 54 => ⟨S100, .i1⟩
  | 55 => ⟨S_, .i32⟩
  | 56 => ⟨S100, .i32⟩
  | 57 => ⟨S100, .i32⟩
  | 58 => ⟨S100, .i32⟩
  | 59 => ⟨S_, .i32⟩
  | 60 => ⟨S100, .i32⟩
  | 61 => ⟨S100, .i1⟩
  | 62 => ⟨S_, .i32⟩
  | 63 => ⟨S100, .i32⟩
  | 64 => ⟨S100, .i32⟩
  | 65 => ⟨S100, .i32⟩
  | 66 => ⟨S100x1, .i32⟩
  | 67 => ⟨S100x1, .i32⟩
  | 68 => ⟨S100x2, .i32⟩
  | 69 => ⟨S100, .f32⟩
  | 70 => ⟨S100, .i32⟩
  | 71 => ⟨S100, .i32⟩
  | 72 => ⟨S_, .i32⟩
  | 73 => ⟨S100, .i32⟩
  | 74 => ⟨S100, .i32⟩
  | 75 => ⟨S_, .i32⟩
  | 76 => ⟨S100, .i32⟩
  | 77 => ⟨S100, .i1⟩
  | 78 => ⟨S_, .i32⟩
  | 79 => ⟨S100, .i32⟩
  | 80 => ⟨S100, .i32⟩
  | 81 => ⟨S100, .i32⟩
  | 82 => ⟨S_, .i32⟩
  | 83 => ⟨S100, .i32⟩
  | 84 => ⟨S100, .i1⟩
  | 85 => ⟨S_, .i32⟩
  | 86 => ⟨S100, .i32⟩
  | 87 => ⟨S100, .i32⟩
  | 88 => ⟨S100, .i32⟩
  | 89 => ⟨S100x1, .i32⟩
  | 90 => ⟨S100x1, .i32⟩
  | 91 => ⟨S100x2, .i32⟩
  | 92 => ⟨S100, .f32⟩
  | 93 => ⟨S_, .i32⟩
  | 94 => ⟨S101x101, .i32⟩
  | 95 => ⟨S101x101, .i1⟩
  | 96 => ⟨S101x101, .f32⟩
  | 97 => ⟨S_, .f32⟩
  | 98 => ⟨S101x101, .f32⟩
  | 99 => ⟨S101x101, .f32⟩
  | 100 => ⟨S101x101, .f32⟩
  | 101 => ⟨S101x101, .f32⟩
  | 102 => ⟨S_, .f32⟩
  | 103 => ⟨S101, .f32⟩
  | 104 => ⟨S_, .f32⟩
  | 105 => ⟨S100, .f32⟩
  | 106 => ⟨S100, .f32⟩
  | 107 => ⟨S100, .f32⟩
  | 108 => ⟨S100, .f32⟩
  | 109 => ⟨S_, .f32⟩
  | 110 => ⟨S100, .f32⟩
  | 111 => ⟨S100, .f32⟩
  | 112 => ⟨S_, .f32⟩
  | 113 => ⟨S_, .f32⟩
  | 114 => ⟨S_, .f32⟩
  | 115 => ⟨S100, .f32⟩
  | 116 => ⟨S100, .f32⟩
  | 117 => ⟨S100, .f32⟩
  | 118 => ⟨S100, .f32⟩
  | 119 => ⟨S_, .f32⟩
  | 120 => ⟨S100, .f32⟩
  | 121 => ⟨S100, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S131072x512, .f32⟩

abbrev hbmTy0_1 (i : Nat) : BufTy := match i % 128 with
  | 0 => ⟨S_, .f32⟩
  | 1 => ⟨S_, .f32⟩
  | 2 => ⟨S_, .f32⟩
  | 3 => ⟨S_, .f32⟩
  | _ => ⟨S131072x512, .f32⟩

abbrev hbmTy (i : Nat) : BufTy := match i / 128 with
  | 0 => hbmTy0_0 i
  | 1 => hbmTy0_1 i
  | _ => ⟨S131072x512, .f32⟩

abbrev bufTy : (tb : Table) → Fin (tcTables nBuf tb) → BufTy
  | .hbm, ⟨i, _⟩ => hbmTy i
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call0_v0 : Ref sig .tc := ⟨.hbm, 47, rfl⟩
abbrev main_call0_v1 : Ref sig .tc := ⟨.hbm, 48, rfl⟩
abbrev main_call0_c : Ref sig .tc := ⟨.hbm, 49, rfl⟩
abbrev main_call0_v2 : Ref sig .tc := ⟨.hbm, 50, rfl⟩
abbrev main_call0_v3 : Ref sig .tc := ⟨.hbm, 51, rfl⟩
abbrev main_call0_c_0 : Ref sig .tc := ⟨.hbm, 52, rfl⟩
abbrev main_call0_v4 : Ref sig .tc := ⟨.hbm, 53, rfl⟩
abbrev main_call0_v5 : Ref sig .tc := ⟨.hbm, 54, rfl⟩
abbrev main_call0_c_1 : Ref sig .tc := ⟨.hbm, 55, rfl⟩
abbrev main_call0_v6 : Ref sig .tc := ⟨.hbm, 56, rfl⟩
abbrev main_call0_v7 : Ref sig .tc := ⟨.hbm, 57, rfl⟩
abbrev main_call0_v8 : Ref sig .tc := ⟨.hbm, 58, rfl⟩
abbrev main_call0_c_2 : Ref sig .tc := ⟨.hbm, 59, rfl⟩
abbrev main_call0_v9 : Ref sig .tc := ⟨.hbm, 60, rfl⟩
abbrev main_call0_v10 : Ref sig .tc := ⟨.hbm, 61, rfl⟩
abbrev main_call0_c_3 : Ref sig .tc := ⟨.hbm, 62, rfl⟩
abbrev main_call0_v11 : Ref sig .tc := ⟨.hbm, 63, rfl⟩
abbrev main_call0_v12 : Ref sig .tc := ⟨.hbm, 64, rfl⟩
abbrev main_call0_v13 : Ref sig .tc := ⟨.hbm, 65, rfl⟩
abbrev main_call0_v14 : Ref sig .tc := ⟨.hbm, 66, rfl⟩
abbrev main_call0_v15 : Ref sig .tc := ⟨.hbm, 67, rfl⟩
abbrev main_call0_v16 : Ref sig .tc := ⟨.hbm, 68, rfl⟩
abbrev main_v36 : Ref sig .tc := ⟨.hbm, 69, rfl⟩
abbrev main_call1_v0 : Ref sig .tc := ⟨.hbm, 70, rfl⟩
abbrev main_call1_v1 : Ref sig .tc := ⟨.hbm, 71, rfl⟩
abbrev main_call1_c : Ref sig .tc := ⟨.hbm, 72, rfl⟩
abbrev main_call1_v2 : Ref sig .tc := ⟨.hbm, 73, rfl⟩
abbrev main_call1_v3 : Ref sig .tc := ⟨.hbm, 74, rfl⟩
abbrev main_call1_c_0 : Ref sig .tc := ⟨.hbm, 75, rfl⟩
abbrev main_call1_v4 : Ref sig .tc := ⟨.hbm, 76, rfl⟩
abbrev main_call1_v5 : Ref sig .tc := ⟨.hbm, 77, rfl⟩
abbrev main_call1_c_1 : Ref sig .tc := ⟨.hbm, 78, rfl⟩
abbrev main_call1_v6 : Ref sig .tc := ⟨.hbm, 79, rfl⟩
abbrev main_call1_v7 : Ref sig .tc := ⟨.hbm, 80, rfl⟩
abbrev main_call1_v8 : Ref sig .tc := ⟨.hbm, 81, rfl⟩
abbrev main_call1_c_2 : Ref sig .tc := ⟨.hbm, 82, rfl⟩
abbrev main_call1_v9 : Ref sig .tc := ⟨.hbm, 83, rfl⟩
abbrev main_call1_v10 : Ref sig .tc := ⟨.hbm, 84, rfl⟩
abbrev main_call1_c_3 : Ref sig .tc := ⟨.hbm, 85, rfl⟩
abbrev main_call1_v11 : Ref sig .tc := ⟨.hbm, 86, rfl⟩
abbrev main_call1_v12 : Ref sig .tc := ⟨.hbm, 87, rfl⟩
abbrev main_call1_v13 : Ref sig .tc := ⟨.hbm, 88, rfl⟩
abbrev main_call1_v14 : Ref sig .tc := ⟨.hbm, 89, rfl⟩
abbrev main_call1_v15 : Ref sig .tc := ⟨.hbm, 90, rfl⟩
abbrev main_call1_v16 : Ref sig .tc := ⟨.hbm, 91, rfl⟩
abbrev main_v37 : Ref sig .tc := ⟨.hbm, 92, rfl⟩
abbrev main_c_6 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_cst_7 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_cst_8 : Ref sig .tc := ⟨.hbm, 102, rfl⟩
abbrev main_v45 : Ref sig .tc := ⟨.hbm, 103, rfl⟩
abbrev main_cst_9 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_call2_cst : Ref sig .tc := ⟨.hbm, 109, rfl⟩
abbrev main_call2_v0 : Ref sig .tc := ⟨.hbm, 110, rfl⟩
abbrev main_v50 : Ref sig .tc := ⟨.hbm, 111, rfl⟩
abbrev main_cst_10 : Ref sig .tc := ⟨.hbm, 112, rfl⟩
abbrev main_v51 : Ref sig .tc := ⟨.hbm, 113, rfl⟩
abbrev main_cst_11 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_call3_cst : Ref sig .tc := ⟨.hbm, 119, rfl⟩
abbrev main_call3_v0 : Ref sig .tc := ⟨.hbm, 120, rfl⟩
abbrev main_v56 : Ref sig .tc := ⟨.hbm, 121, rfl⟩
abbrev main_cst_12 : Ref sig .tc := ⟨.hbm, 122, rfl⟩
abbrev main_v57 : Ref sig .tc := ⟨.hbm, 123, rfl⟩
abbrev main_v58 : Ref sig .tc := ⟨.hbm, 124, rfl⟩
abbrev main_cst_13 : Ref sig .tc := ⟨.hbm, 125, rfl⟩
abbrev main_v59 : Ref sig .tc := ⟨.hbm, 126, rfl⟩
abbrev main_cst_14 : Ref sig .tc := ⟨.hbm, 127, rfl⟩
abbrev main_v60 : Ref sig .tc := ⟨.hbm, 128, rfl⟩
abbrev main_cst_15 : Ref sig .tc := ⟨.hbm, 129, rfl⟩
abbrev main_v61 : Ref sig .tc := ⟨.hbm, 130, rfl⟩
abbrev main_v62 : Ref sig .tc := ⟨.hbm, 131, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  reducesTo_S131072x512_S131072_d1 : S131072x512.ReducesTo [1] S131072
  h_S_ : 0 < S_.numel
  reducesTo_S101x512_S101_d1 : S101x512.ReducesTo [1] S101
  bcast_S101_S101x1_0 : S101.BroadcastsInDim S101x1 (![0] : Fin 1 → Fin S101x1.rank)
  bcast_S_S101x1 : S_.BroadcastsInDim S101x1 (![] : Fin 0 → Fin S101x1.rank)
  bcast_S101x1_S101x512_0_1 : S101x1.BroadcastsInDim S101x512 (![0, 1] : Fin 2 → Fin S101x512.rank)
  transposes_S101x512_S512x101_1_0 : S101x512.Transposes [1, 0] S512x101
  bcast_S_S101x101 : S_.BroadcastsInDim S101x101 (![] : Fin 0 → Fin S101x101.rank)
  bcast_S101_S1x101_1 : S101.BroadcastsInDim S1x101 (![1] : Fin 1 → Fin S1x101.rank)
  bcast_S101x1_S101x101_0_1 : S101x1.BroadcastsInDim S101x101 (![0, 1] : Fin 2 → Fin S101x101.rank)
  bcast_S1x101_S101x101_0_1 : S1x101.BroadcastsInDim S101x101 (![0, 1] : Fin 2 → Fin S101x101.rank)
  bcast_S_S100 : S_.BroadcastsInDim S100 (![] : Fin 0 → Fin S100.rank)
  bcast_S100_S100x1_0 : S100.BroadcastsInDim S100x1 (![0] : Fin 1 → Fin S100x1.rank)
  concatenates_S100x1_S100x1_S100x2_d1 : Shape.Concatenates [S100x1, S100x1] S100x2 1
  reducesTo_S101x101_S101_d1 : S101x101.ReducesTo [1] S101
  slices_S101_S100_1 : S101.Slices ![1] S100
  reducesTo_S100_S_d0 : S100.ReducesTo [0] S_
  slices_S101_S100_0 : S101.Slices ![0] S100
  reducesTo_S131072_S_d0 : S131072.ReducesTo [0] S_
  gather_S101x512_S131072x1_S131072x512_1_0_n_n_0_1_1512_wf : GatherDims.WF S101x512 S131072x1 S131072x512 [1] [0] [] [0] [] 1 ![1, 512]
  dot_S101x512_S512x101_S101x101_1_0_0_1_n_n_wf : DotDims.WF S101x512 S512x101 S101x101 [1] [0] [0] [1] [] []
  gather_S101x101_S100x2_S100_n_01_n_n_01_1_11_wf : GatherDims.WF S101x101 S100x2 S100 [] [0, 1] [] [0, 1] [] 1 ![1, 1]

variable [Facts₀]

def gather_S101x512_S131072x1_S131072x512_1_0_n_n_0_1_1512 : GatherDims S101x512 S131072x1 S131072x512 where
  offsetDims := [1]
  collapsedSliceDims := [0]
  operandBatchingDims := []
  startIndicesBatchingDims := []
  startIndexMap := [0]
  indexVectorDim := 1
  sliceSizes := ![1, 512]
  wf := gather_S101x512_S131072x1_S131072x512_1_0_n_n_0_1_1512_wf
def dot_S101x512_S512x101_S101x101_1_0_0_1_n_n : DotDims S101x512 S512x101 S101x101 where
  lhsContracting := [1]
  rhsContracting := [0]
  lhsNonContracting := [0]
  rhsNonContracting := [1]
  lhsBatch := []
  rhsBatch := []
  wf := dot_S101x512_S512x101_S101x101_1_0_0_1_n_n_wf
def gather_S101x101_S100x2_S100_n_01_n_n_01_1_11 : GatherDims S101x101 S100x2 S100 where
  offsetDims := []
  collapsedSliceDims := [0, 1]
  operandBatchingDims := []
  startIndicesBatchingDims := []
  startIndexMap := [0, 1]
  indexVectorDim := 1
  sliceSizes := ![1, 1]
  wf := gather_S101x101_S100x2_S100_n_01_n_n_01_1_11_wf

class Facts : Prop extends Facts₀ where

variable [Facts]
-- ==== Proof.K.Runs.lean ====
/-
  The launch side of the word-level kernel's frame: the program around its one pipelined region, what the region's
  arrays hold when it is entered, each window's block at a grid point, the frame claim read off a run of the whole
  program, the two conditions of the kernel body decided over the 64 grid points (the running sum is restarted at the
  points 0 and 32 and the output block is written at the points 31 and 63), and the scratch cell as the body sees it.
  After the region come 119 host operations; none of them writes an array of the region or an argument.
-/
import proofs.«429582_j39891656245569_3_alg».proof.Proof.Gen.Kernel.Launch
import proofs.«429582_j39891656245569_3_alg».proof.Proof.Gen.Kernel.Skeleton
import proofs.«429582_j39891656245569_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- What core `c`'s buffers hold when the region is entered: the launch memory after the nine host operations that
    clip and reshape the labels. -/
abbrev V0 (c : Dev nD) : Valuation τ sig (Elt F) := StableHlo.after (List.flatten [hostOps0]) (fun b => m (c, b))
/-- The same at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor

/-- The program is: the host operations before the region, the region, the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

set_option maxHeartbeats 40000000 in
/-- Each of the 119 operations after the region writes its own result buffer, and that is none of the region's four arrays. -/
theorem hostOps1_keeps : (hostOps1 : List (HloOp τ sig (Elt F))).Forall fun op =>
    ∀ w, Proc.devRef .tc (Pipeline.arrRef spec0 w) ∉ op.writes := by
  simp only [hostOps1, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-- No host operation before the region writes an argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 40000000 in
/-- No host operation after the region writes the labels: they end as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the whole program -/

/-- A run that ends with every array of the region at what the proof data compute, and every other unscoped buffer as
    the later operations leave it, ends with the three arguments as launched: the embeddings and the centers are
    inputs of the region, never written back; the labels are touched by nothing. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats 0 c).arrAt_in 0 rfl _).trans ((hA c 0).trans (V_main_arg0 m c))),
     ((h c).1 2).trans (((dats 0 c).arrAt_in 2 rfl _).trans ((hA c 2).trans (V_main_arg1 m c))),
     ((h c).2 main_arg2 (Pipeline.mem_restRefs_of main_arg2 (by decide) (by decide))).trans (W_main_arg2 m dats c)⟩) h

/-! ## The body's two conditions, decided over the grid -/

/-- The first condition: the second grid coordinate is 0 (the running sum is restarted). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)

/-- The second condition: the second grid coordinate is 31 (the output block is written). -/
abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the second condition fails the body stores nothing into the output block, and the block is not written back. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
/-- Where it holds the body stores the block. -/
theorem liveAt0_3_C : ∀ t : Fin cfg0.N, ¬cond0_0 (grid0.coords t) → cond0_1 (grid0.coords t) → cfg0.idle 3 (grid0.coords t) = false := by decide +kernel

/-! ## The staging memrefs and the scratch cell -/

/-- One staging buffer of the output window, through which its contents are stated. -/
abbrev VO0_3 : View sig .tc .vmem S8x128 .f32 := (Memref.whole cc0_stg3_0 : Memref sig .tc .vmem S8x128 .f32).view
abbrev ms0_0 (t : Fin cfg0.N) : Memref sig .tc .vmem S2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S101x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x128 .f32 := win0_3.stage (cfg0.slots t 3)
abbrev hs0_3 (t : Fin cfg0.N) : (ms0_3 t).IsWhole := hstage0_3 ((cfg0.slots t 3).cast nbuf0_3)
/-- The scratch cell that carries the running sum between grid points. -/
abbrev scM0_0 : Memref sig .tc .vmem S1x1 .f32 := Memref.whole cc0_scratch0
abbrev VS0_0 : View sig .tc .vmem S1x1 .f32 := scM0_0.view

/-- What the region's invariant holds besides the windows: the scratch cell at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.K.RunA.lean ====
/-
  The word-level kernel's body run once, at a grid point where the running sum is restarted (second coordinate 0) and the output block is not written.
  The body's loads and stores are stepped symbolically; what the run finds is the list of pieces each buffer ends with.
-/
import proofs.«429582_j39891656245569_3_alg».proof.Proof.K.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A: the first condition holds, the second fails. The scratch cell comes in at anything; the output buffer is
    handed back untouched. -/
noncomputable def kernelRun0_A (c : Dev nD) (i : grid0.Coords) (arg2 : Memref sig .tc .vmem S2048x512 .f32) (harg2 : arg2.IsWhole) (arg3 : Memref sig .tc .vmem S1x2048 .i32) (harg3 : arg3.IsWhole) (arg4 : Memref sig .tc .vmem S101x512 .f32) (harg4 : arg4.IsWhole) (arg5 : Memref sig .tc .vmem S8x128 .f32) (harg5 : arg5.IsWhole) (arg6 : Memref sig .tc .vmem S1x1 .f32) (harg6 : arg6.IsWhole) (hc0 : cond0_0 i) (hc1 : ¬cond0_1 i)
    (x0 : Vec F S2048x512 .f32) (x1 : Vec F S1x2048 .i32) (x2 : Vec F S101x512 .f32) :
    Σ' (L3 : List (View.Piece (Elt F) S8x128 .f32)), { LS0 : List (View.Piece (Elt F) S1x1 .f32) //
      ∀ (xi3 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__center_loss_kernel i arg2 harg2 arg3 harg3 arg4 harg4 arg5 harg5 arg6 harg6) K } := by
  refine ⟨[], ?_, fun xi3 E K => ?run⟩
  case run =>
    simp only [cc0__center_loss_kernel_eq_skeleton]; unfold cc0__center_loss_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.K.RunB.lean ====
/-
  The word-level kernel's body run once, at a grid point where neither condition holds: the block's sum is added to the running sum.
  The body's loads and stores are stepped symbolically; what the run finds is the list of pieces each buffer ends with.
-/
import proofs.«429582_j39891656245569_3_alg».proof.Proof.K.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B: both conditions fail. The scratch cell comes in at what the point before left; the output buffer is handed
    back untouched. -/
noncomputable def kernelRun0_B (c : Dev nD) (i : grid0.Coords) (arg2 : Memref sig .tc .vmem S2048x512 .f32) (harg2 : arg2.IsWhole) (arg3 : Memref sig .tc .vmem S1x2048 .i32) (harg3 : arg3.IsWhole) (arg4 : Memref sig .tc .vmem S101x512 .f32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : ¬cond0_1 i)
    (x0 : Vec F S2048x512 .f32) (x1 : Vec F S1x2048 .i32) (x2 : Vec F S101x512 .f32) (xs0 : Vec F S1x1 .f32) :
    Σ' (L3 : List (View.Piece (Elt F) S8x128 .f32)), { LS0 : List (View.Piece (Elt F) S1x1 .f32) //
      ∀ (xi3 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__center_loss_kernel i arg2 harg2 arg3 harg3 arg4 harg4 arg5 harg5 arg6 harg6) K } := by
  refine ⟨[], ?_, fun xi3 E K => ?run⟩
  case run =>
    simp only [cc0__center_loss_kernel_eq_skeleton]; unfold cc0__center_loss_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.K.RunC.lean ====
/-
  The word-level kernel's body run once, at a grid point where the second condition holds (second coordinate 31): the block's sum is added and the running sum is broadcast into the output block.
  The body's loads and stores are stepped symbolically; what the run finds is the list of pieces each buffer ends with.
-/
import proofs.«429582_j39891656245569_3_alg».proof.Proof.K.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C: the first condition fails, the second holds. The scratch cell comes in at what the point before left; the
    output buffer comes in at anything and ends with its pieces written. -/
noncomputable def kernelRun0_C (c : Dev nD) (i : grid0.Coords) (arg2 : Memref sig .tc .vmem S2048x512 .f32) (harg2 : arg2.IsWhole) (arg3 : Memref sig .tc .vmem S1x2048 .i32) (harg3 : arg3.IsWhole) (arg4 : Memref sig .tc .vmem S101x512 .f32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : cond0_1 i)
    (x0 : Vec F S2048x512 .f32) (x1 : Vec F S1x2048 .i32) (x2 : Vec F S101x512 .f32) (xs0 : Vec F S1x1 .f32) :
    Σ' (L3 : List (View.Piece (Elt F) S8x128 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__center_loss_kernel i arg2 harg2 arg3 harg3 arg4 harg4 arg5 harg5 arg6 harg6) K } := by
  refine ⟨?_, ?_, fun E K => ?run⟩
  case run =>
    simp only [cc0__center_loss_kernel_eq_skeleton]; unfold cc0__center_loss_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.K.Frame.lean ====
/-
  The word-level kernel's frame: what the output block and the scratch cell hold after each of the 64 grid points, the
  region's invariant (the scratch cell carries the running sum from a point to the next), the body's obligation at a
  generic point by the three cases of its two conditions, the run of the whole program and the frame claim.
-/
import proofs.«429582_j39891656245569_3_alg».proof.Proof.K.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Case A stores nothing into the output block: a placeholder that nothing consults (the block is neither written
    back at these points nor read at the next). -/
def out0_A_3 (c : Dev nD) (i : grid0.Coords) (arg2 : Memref sig .tc .vmem S2048x512 .f32) (harg2 : arg2.IsWhole) (arg3 : Memref sig .tc .vmem S1x2048 .i32) (harg3 : arg3.IsWhole) (arg4 : Memref sig .tc .vmem S101x512 .f32) (harg4 : arg4.IsWhole) (arg5 : Memref sig .tc .vmem S8x128 .f32) (harg5 : arg5.IsWhole) (arg6 : Memref sig .tc .vmem S1x1 .f32) (harg6 : arg6.IsWhole) (hc0 : cond0_0 i) (hc1 : ¬cond0_1 i)
    (x0 : Vec F S2048x512 .f32) (x1 : Vec F S1x2048 .i32) (x2 : Vec F S101x512 .f32) : Vec F S8x128 .f32 :=
  VO0_3.read (Elt F) (VO0_3.writes (Elt F) VO0_3.junk (kernelRun0_A c i arg2 harg2 arg3 harg3 arg4 harg4 arg5 harg5 arg6 harg6 hc0 hc1 x0 x1 x2).1)

/-- Case A's pieces for the scratch cell cover it. -/
theorem scover0_A_0 (c : Dev nD) (i : grid0.Coords) (arg2 : Memref sig .tc .vmem S2048x512 .f32) (harg2 : arg2.IsWhole) (arg3 : Memref sig .tc .vmem S1x2048 .i32) (harg3 : arg3.IsWhole) (arg4 : Memref sig .tc .vmem S101x512 .f32) (harg4 : arg4.IsWhole) (arg5 : Memref sig .tc .vmem S8x128 .f32) (harg5 : arg5.IsWhole) (arg6 : Memref sig .tc .vmem S1x1 .f32) (harg6 : arg6.IsWhole) (hc0 : cond0_0 i) (hc1 : ¬cond0_1 i)
    (x0 : Vec F S2048x512 .f32) (x1 : Vec F S1x2048 .i32) (x2 : Vec F S101x512 .f32) (y : S1x1.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1x1.size (by sl_kernel_rfl) y

/-- What case A leaves in the scratch cell: its pieces read back. -/
def sout0_A_0 (c : Dev nD) (i : grid0.Coords) (arg2 : Memref sig .tc .vmem S2048x512 .f32) (harg2 : arg2.IsWhole) (arg3 : Memref sig .tc .vmem S1x2048 .i32) (harg3 : arg3.IsWhole) (arg4 : Memref sig .tc .vmem S101x512 .f32) (harg4 : arg4.IsWhole) (arg5 : Memref sig .tc .vmem S8x128 .f32) (harg5 : arg5.IsWhole) (arg6 : Memref sig .tc .vmem S1x1 .f32) (harg6 : arg6.IsWhole) (hc0 : cond0_0 i) (hc1 : ¬cond0_1 i)
    (x0 : Vec F S2048x512 .f32) (x1 : Vec F S1x2048 .i32) (x2 : Vec F S101x512 .f32) : Vec F S1x1 .f32 :=
  VS0_0.read (Elt F) (VS0_0.writes (Elt F) VS0_0.junk (kernelRun0_A c i arg2 harg2 arg3 harg3 arg4 harg4 arg5 harg5 arg6 harg6 hc0 hc1 x0 x1 x2).2.1)

/-- Case B stores nothing into the output block: a placeholder that nothing consults (the block is neither written
    back at these points nor read at the next). -/
def out0_B_3 (c : Dev nD) (i : grid0.Coords) (arg2 : Memref sig .tc .vmem S2048x512 .f32) (harg2 : arg2.IsWhole) (arg3 : Memref sig .tc .vmem S1x2048 .i32) (harg3 : arg3.IsWhole) (arg4 : Memref sig .tc .vmem S101x512 .f32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : ¬cond0_1 i)
    (x0 : Vec F S2048x512 .f32) (x1 : Vec F S1x2048 .i32) (x2 : Vec F S101x512 .f32) (xs0 : Vec F S1x1 .f32) : Vec F S8x128 .f32 :=
  VO0_3.read (Elt F) (VO0_3.writes (Elt F) VO0_3.junk (kernelRun0_B c i arg2 harg2 arg3 harg3 arg4 harg4 arg5 harg5 arg6 harg6 hc0 hc1 x0 x1 x2 xs0).1)

/-- Case B's pieces for the scratch cell cover it. -/
theorem scover0_B_0 (c : Dev nD) (i : grid0.Coords) (arg2 : Memref sig .tc .vmem S2048x512 .f32) (harg2 : arg2.IsWhole) (arg3 : Memref sig .tc .vmem S1x2048 .i32) (harg3 : arg3.IsWhole) (arg4 : Memref sig .tc .vmem S101x512 .f32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : ¬cond0_1 i)
    (x0 : Vec F S2048x512 .f32) (x1 : Vec F S1x2048 .i32) (x2 : Vec F S101x512 .f32) (xs0 : Vec F S1x1 .f32) (y : S1x1.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S1x1.size (by sl_kernel_rfl) y

/-- What case B leaves in the scratch cell: its pieces read back. -/
def sout0_B_0 (c : Dev nD) (i : grid0.Coords) (arg2 : Memref sig .tc .vmem S2048x512 .f32) (harg2 : arg2.IsWhole) (arg3 : Memref sig .tc .vmem S1x2048 .i32) (harg3 : arg3.IsWhole) (arg4 : Memref sig .tc .vmem S101x512 .f32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : ¬cond0_1 i)
    (x0 : Vec F S2048x512 .f32) (x1 : Vec F S1x2048 .i32) (x2 : Vec F S101x512 .f32) (xs0 : Vec F S1x1 .f32) : Vec F S1x1 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- Case C's one store into the output block covers it. -/
theorem cover0_C_3 (c : Dev nD) (i : grid0.Coords) (arg2 : Memref sig .tc .vmem S2048x512 .f32) (harg2 : arg2.IsWhole) (arg3 : Memref sig .tc .vmem S1x2048 .i32) (harg3 : arg3.IsWhole) (arg4 : Memref sig .tc .vmem S101x512 .f32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : cond0_1 i)
    (x0 : Vec F S2048x512 .f32) (x1 : Vec F S1x2048 .i32) (x2 : Vec F S101x512 .f32) (xs0 : Vec F S1x1 .f32) (y : S8x128.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S8x128.size (by sl_kernel_rfl) y

/-- What case C leaves in the output block: its pieces read back. -/
def out0_C_3 (c : Dev nD) (i : grid0.Coords) (arg2 : Memref sig .tc .vmem S2048x512 .f32) (harg2 : arg2.IsWhole) (arg3 : Memref sig .tc .vmem S1x2048 .i32) (harg3 : arg3.IsWhole) (arg4 : Memref sig .tc .vmem S101x512 .f32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : cond0_1 i)
    (x0 : Vec F S2048x512 .f32) (x1 : Vec F S1x2048 .i32) (x2 : Vec F S101x512 .f32) (xs0 : Vec F S1x1 .f32) : Vec F S8x128 .f32 :=
  VO0_3.read (Elt F) (VO0_3.writes (Elt F) VO0_3.junk (kernelRun0_C c i arg2 harg2 arg3 harg3 arg4 harg4 arg5 harg5 arg6 harg6 hc0 hc1 x0 x1 x2 xs0).1)

/-- Case C's pieces for the scratch cell cover it. -/
theorem scover0_C_0 (c : Dev nD) (i : grid0.Coords) (arg2 : Memref sig .tc .vmem S2048x512 .f32) (harg2 : arg2.IsWhole) (arg3 : Memref sig .tc .vmem S1x2048 .i32) (harg3 : arg3.IsWhole) (arg4 : Memref sig .tc .vmem S101x512 .f32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : cond0_1 i)
    (x0 : Vec F S2048x512 .f32) (x1 : Vec F S1x2048 .i32) (x2 : Vec F S101x512 .f32) (xs0 : Vec F S1x1 .f32) (y : S1x1.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1x1.size (by sl_kernel_rfl) y

/-- What case C leaves in the scratch cell: its pieces read back. -/
def sout0_C_0 (c : Dev nD) (i : grid0.Coords) (arg2 : Memref sig .tc .vmem S2048x512 .f32) (harg2 : arg2.IsWhole) (arg3 : Memref sig .tc .vmem S1x2048 .i32) (harg3 : arg3.IsWhole) (arg4 : Memref sig .tc .vmem S101x512 .f32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : cond0_1 i)
    (x0 : Vec F S2048x512 .f32) (x1 : Vec F S1x2048 .i32) (x2 : Vec F S101x512 .f32) (xs0 : Vec F S1x1 .f32) : Vec F S1x1 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## What the output block and the scratch cell hold after each point -/

/-- After the body at position `n`: the case the point is in, run on the point's blocks, over what the point before
    left in the scratch cell. -/
def outsAt0 (c : Dev nD) : (n : ℕ) → n < cfg0.N → Vec F S8x128 .f32 × Vec F S1x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 32 = 0 then
      if h1 : (n + 1) % 32 = 31 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 32 = 31 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2)

theorem outsAt0_A (c : Dev nD) (t : Fin cfg0.N) (h0 : t.val % 32 = 0) (h1 : ¬t.val % 32 = 31) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 32 = 0) (h1 : ¬t.val % 32 = 31) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 32 = 0) (h1 : t.val % 32 = 31) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the scratch cell at anything; afterwards at what
    the point before left in it; the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The arrays as the region finds them; after the body each input's buffer at its block and the output's at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]; try rfl
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]; try rfl
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]; try rfl

set_option maxHeartbeats 8000000 in
/-- The body at any point: the inputs' buffers hold their blocks; the closed forms of the two conditions say which
    case the point is in; the invariant hands the body the scratch cell at what the point before left (at anything
    before the first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2]
  have hN : t.val < 64 := lt_of_lt_of_eq t.isLt (show cfg0.N = 64 from N_0)
  by_cases h0 : t.val % 32 = 0
  · by_cases h1 : t.val % 32 = 31
    · exfalso; omega
    · rw [Dat.leavesExact_idle (dats m 0 c) 3 t (idleAt0_3_A t ((hcond0_0 t).mpr h0) (fun h => h1 ((hcond0_1 t).mp h))) (noFlush0_3_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 32 = 31
    · rw [show (dats m 0 c).leavesExact 3 t = owns (c : Thread nD τ) (ms0_3 t) fullShare ((dats m 0 c).after 3 t) from by
        unfold Dat.leavesExact; rw [liveAt0_3_C t (fun h => h0 ((hcond0_0 t).mp h)) ((hcond0_1 t).mpr h1)], after0_3]
      rw [outsAt0_C m c t h0 h1]
      unfold out0_C_3 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk m c 0 t) (iblk m c 1 t) (iblk m c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _)
    · rw [Dat.leavesExact_idle (dats m 0 c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk m c 0 t) (iblk m c 1 t) (iblk m c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of the program terminates; at the end every array of the region holds what the proof
    data compute, and every other unscoped buffer what the 119 later operations leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, nothing faults, the three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Fr

end
-- ==== Proof.KI.Runs.lean ====
/-
  The launch side of the idealized kernel's frame: the program around its one pipelined region, what the region's
  arrays hold when it is entered, each window's block at a grid point, the frame claim read off a run of the whole
  program, the two conditions of the kernel body decided over the 64 grid points (the running sum is restarted at the
  points 0 and 32 and the output block is written at the points 31 and 63), and the scratch cell as the body sees it.
  After the region come 119 host operations; none of them writes an array of the region or an argument.
-/
import proofs.«429582_j39891656245569_3_alg».proof.Proof.Gen.KernelIdeal.Launch
import proofs.«429582_j39891656245569_3_alg».proof.Proof.Gen.KernelIdeal.Skeleton
import proofs.«429582_j39891656245569_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- What core `c`'s buffers hold when the region is entered: the launch memory after the nine host operations that
    clip and reshape the labels. -/
abbrev V0 (c : Dev nD) : Valuation τ sig (Elt F) := StableHlo.after (List.flatten [hostOps0]) (fun b => m (c, b))
/-- The same at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor

/-- The program is: the host operations before the region, the region, the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

set_option maxHeartbeats 40000000 in
/-- Each of the 119 operations after the region writes its own result buffer, and that is none of the region's four arrays. -/
theorem hostOps1_keeps : (hostOps1 : List (HloOp τ sig (Elt F))).Forall fun op =>
    ∀ w, Proc.devRef .tc (Pipeline.arrRef spec0 w) ∉ op.writes := by
  simp only [hostOps1, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-- No host operation before the region writes an argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 40000000 in
/-- No host operation after the region writes the labels: they end as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the whole program -/

/-- A run that ends with every array of the region at what the proof data compute, and every other unscoped buffer as
    the later operations leave it, ends with the three arguments as launched: the embeddings and the centers are
    inputs of the region, never written back; the labels are touched by nothing. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats 0 c).arrAt_in 0 rfl _).trans ((hA c 0).trans (V_main_arg0 m c))),
     ((h c).1 2).trans (((dats 0 c).arrAt_in 2 rfl _).trans ((hA c 2).trans (V_main_arg1 m c))),
     ((h c).2 main_arg2 (Pipeline.mem_restRefs_of main_arg2 (by decide) (by decide))).trans (W_main_arg2 m dats c)⟩) h

/-! ## The body's two conditions, decided over the grid -/

/-- The first condition: the second grid coordinate is 0 (the running sum is restarted). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)

/-- The second condition: the second grid coordinate is 31 (the output block is written). -/
abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the second condition fails the body stores nothing into the output block, and the block is not written back. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
/-- Where it holds the body stores the block. -/
theorem liveAt0_3_C : ∀ t : Fin cfg0.N, ¬cond0_0 (grid0.coords t) → cond0_1 (grid0.coords t) → cfg0.idle 3 (grid0.coords t) = false := by decide +kernel

/-! ## The staging memrefs and the scratch cell -/

/-- One staging buffer of the output window, through which its contents are stated. -/
abbrev VO0_3 : View sig .tc .vmem S8x128 .f32 := (Memref.whole cc0_stg3_0 : Memref sig .tc .vmem S8x128 .f32).view
abbrev ms0_0 (t : Fin cfg0.N) : Memref sig .tc .vmem S2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S101x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x128 .f32 := win0_3.stage (cfg0.slots t 3)
abbrev hs0_3 (t : Fin cfg0.N) : (ms0_3 t).IsWhole := hstage0_3 ((cfg0.slots t 3).cast nbuf0_3)
/-- The scratch cell that carries the running sum between grid points. -/
abbrev scM0_0 : Memref sig .tc .vmem S1x1 .f32 := Memref.whole cc0_scratch0
abbrev VS0_0 : View sig .tc .vmem S1x1 .f32 := scM0_0.view

/-- What the region's invariant holds besides the windows: the scratch cell at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KI.RunA.lean ====
/-
  The idealized kernel's body run once, at a grid point where the running sum is restarted (second coordinate 0) and the output block is not written.
  The body's loads and stores are stepped symbolically; what the run finds is the list of pieces each buffer ends with.
-/
import proofs.«429582_j39891656245569_3_alg».proof.Proof.KI.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A: the first condition holds, the second fails. The scratch cell comes in at anything; the output buffer is
    handed back untouched. -/
noncomputable def kernelRun0_A (c : Dev nD) (i : grid0.Coords) (arg2 : Memref sig .tc .vmem S2048x512 .f32) (harg2 : arg2.IsWhole) (arg3 : Memref sig .tc .vmem S1x2048 .i32) (harg3 : arg3.IsWhole) (arg4 : Memref sig .tc .vmem S101x512 .f32) (harg4 : arg4.IsWhole) (arg5 : Memref sig .tc .vmem S8x128 .f32) (harg5 : arg5.IsWhole) (arg6 : Memref sig .tc .vmem S1x1 .f32) (harg6 : arg6.IsWhole) (hc0 : cond0_0 i) (hc1 : ¬cond0_1 i)
    (x0 : Vec F S2048x512 .f32) (x1 : Vec F S1x2048 .i32) (x2 : Vec F S101x512 .f32) :
    Σ' (L3 : List (View.Piece (Elt F) S8x128 .f32)), { LS0 : List (View.Piece (Elt F) S1x1 .f32) //
      ∀ (xi3 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__center_loss_kernel i arg2 harg2 arg3 harg3 arg4 harg4 arg5 harg5 arg6 harg6) K } := by
  refine ⟨[], ?_, fun xi3 E K => ?run⟩
  case run =>
    simp only [cc0__center_loss_kernel_eq_skeleton]; unfold cc0__center_loss_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KI.RunB.lean ====
/-
  The idealized kernel's body run once, at a grid point where neither condition holds: the block's sum is added to the running sum.
  The body's loads and stores are stepped symbolically; what the run finds is the list of pieces each buffer ends with.
-/
import proofs.«429582_j39891656245569_3_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B: both conditions fail. The scratch cell comes in at what the point before left; the output buffer is handed
    back untouched. -/
noncomputable def kernelRun0_B (c : Dev nD) (i : grid0.Coords) (arg2 : Memref sig .tc .vmem S2048x512 .f32) (harg2 : arg2.IsWhole) (arg3 : Memref sig .tc .vmem S1x2048 .i32) (harg3 : arg3.IsWhole) (arg4 : Memref sig .tc .vmem S101x512 .f32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : ¬cond0_1 i)
    (x0 : Vec F S2048x512 .f32) (x1 : Vec F S1x2048 .i32) (x2 : Vec F S101x512 .f32) (xs0 : Vec F S1x1 .f32) :
    Σ' (L3 : List (View.Piece (Elt F) S8x128 .f32)), { LS0 : List (View.Piece (Elt F) S1x1 .f32) //
      ∀ (xi3 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__center_loss_kernel i arg2 harg2 arg3 harg3 arg4 harg4 arg5 harg5 arg6 harg6) K } := by
  refine ⟨[], ?_, fun xi3 E K => ?run⟩
  case run =>
    simp only [cc0__center_loss_kernel_eq_skeleton]; unfold cc0__center_loss_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KI.RunC.lean ====
/-
  The idealized kernel's body run once, at a grid point where the second condition holds (second coordinate 31): the block's sum is added and the running sum is broadcast into the output block.
  The body's loads and stores are stepped symbolically; what the run finds is the list of pieces each buffer ends with.
-/
import proofs.«429582_j39891656245569_3_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C: the first condition fails, the second holds. The scratch cell comes in at what the point before left; the
    output buffer comes in at anything and ends with its pieces written. -/
noncomputable def kernelRun0_C (c : Dev nD) (i : grid0.Coords) (arg2 : Memref sig .tc .vmem S2048x512 .f32) (harg2 : arg2.IsWhole) (arg3 : Memref sig .tc .vmem S1x2048 .i32) (harg3 : arg3.IsWhole) (arg4 : Memref sig .tc .vmem S101x512 .f32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : cond0_1 i)
    (x0 : Vec F S2048x512 .f32) (x1 : Vec F S1x2048 .i32) (x2 : Vec F S101x512 .f32) (xs0 : Vec F S1x1 .f32) :
    Σ' (L3 : List (View.Piece (Elt F) S8x128 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__center_loss_kernel i arg2 harg2 arg3 harg3 arg4 harg4 arg5 harg5 arg6 harg6) K } := by
  refine ⟨?_, ?_, fun E K => ?run⟩
  case run =>
    simp only [cc0__center_loss_kernel_eq_skeleton]; unfold cc0__center_loss_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.KI.Frame.lean ====
/-
  The idealized kernel's frame: what the output block and the scratch cell hold after each of the 64 grid points, the
  region's invariant (the scratch cell carries the running sum from a point to the next), the body's obligation at a
  generic point by the three cases of its two conditions, the run of the whole program and the frame claim.
-/
import proofs.«429582_j39891656245569_3_alg».proof.Proof.KI.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Case A stores nothing into the output block: a placeholder that nothing consults (the block is neither written
    back at these points nor read at the next). -/
def out0_A_3 (c : Dev nD) (i : grid0.Coords) (arg2 : Memref sig .tc .vmem S2048x512 .f32) (harg2 : arg2.IsWhole) (arg3 : Memref sig .tc .vmem S1x2048 .i32) (harg3 : arg3.IsWhole) (arg4 : Memref sig .tc .vmem S101x512 .f32) (harg4 : arg4.IsWhole) (arg5 : Memref sig .tc .vmem S8x128 .f32) (harg5 : arg5.IsWhole) (arg6 : Memref sig .tc .vmem S1x1 .f32) (harg6 : arg6.IsWhole) (hc0 : cond0_0 i) (hc1 : ¬cond0_1 i)
    (x0 : Vec F S2048x512 .f32) (x1 : Vec F S1x2048 .i32) (x2 : Vec F S101x512 .f32) : Vec F S8x128 .f32 :=
  VO0_3.read (Elt F) (VO0_3.writes (Elt F) VO0_3.junk (kernelRun0_A c i arg2 harg2 arg3 harg3 arg4 harg4 arg5 harg5 arg6 harg6 hc0 hc1 x0 x1 x2).1)

/-- Case A's pieces for the scratch cell cover it. -/
theorem scover0_A_0 (c : Dev nD) (i : grid0.Coords) (arg2 : Memref sig .tc .vmem S2048x512 .f32) (harg2 : arg2.IsWhole) (arg3 : Memref sig .tc .vmem S1x2048 .i32) (harg3 : arg3.IsWhole) (arg4 : Memref sig .tc .vmem S101x512 .f32) (harg4 : arg4.IsWhole) (arg5 : Memref sig .tc .vmem S8x128 .f32) (harg5 : arg5.IsWhole) (arg6 : Memref sig .tc .vmem S1x1 .f32) (harg6 : arg6.IsWhole) (hc0 : cond0_0 i) (hc1 : ¬cond0_1 i)
    (x0 : Vec F S2048x512 .f32) (x1 : Vec F S1x2048 .i32) (x2 : Vec F S101x512 .f32) (y : S1x1.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1x1.size (by sl_kernel_rfl) y

/-- What case A leaves in the scratch cell: its pieces read back. -/
def sout0_A_0 (c : Dev nD) (i : grid0.Coords) (arg2 : Memref sig .tc .vmem S2048x512 .f32) (harg2 : arg2.IsWhole) (arg3 : Memref sig .tc .vmem S1x2048 .i32) (harg3 : arg3.IsWhole) (arg4 : Memref sig .tc .vmem S101x512 .f32) (harg4 : arg4.IsWhole) (arg5 : Memref sig .tc .vmem S8x128 .f32) (harg5 : arg5.IsWhole) (arg6 : Memref sig .tc .vmem S1x1 .f32) (harg6 : arg6.IsWhole) (hc0 : cond0_0 i) (hc1 : ¬cond0_1 i)
    (x0 : Vec F S2048x512 .f32) (x1 : Vec F S1x2048 .i32) (x2 : Vec F S101x512 .f32) : Vec F S1x1 .f32 :=
  VS0_0.read (Elt F) (VS0_0.writes (Elt F) VS0_0.junk (kernelRun0_A c i arg2 harg2 arg3 harg3 arg4 harg4 arg5 harg5 arg6 harg6 hc0 hc1 x0 x1 x2).2.1)

/-- Case B stores nothing into the output block: a placeholder that nothing consults (the block is neither written
    back at these points nor read at the next). -/
def out0_B_3 (c : Dev nD) (i : grid0.Coords) (arg2 : Memref sig .tc .vmem S2048x512 .f32) (harg2 : arg2.IsWhole) (arg3 : Memref sig .tc .vmem S1x2048 .i32) (harg3 : arg3.IsWhole) (arg4 : Memref sig .tc .vmem S101x512 .f32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : ¬cond0_1 i)
    (x0 : Vec F S2048x512 .f32) (x1 : Vec F S1x2048 .i32) (x2 : Vec F S101x512 .f32) (xs0 : Vec F S1x1 .f32) : Vec F S8x128 .f32 :=
  VO0_3.read (Elt F) (VO0_3.writes (Elt F) VO0_3.junk (kernelRun0_B c i arg2 harg2 arg3 harg3 arg4 harg4 arg5 harg5 arg6 harg6 hc0 hc1 x0 x1 x2 xs0).1)

/-- Case B's pieces for the scratch cell cover it. -/
theorem scover0_B_0 (c : Dev nD) (i : grid0.Coords) (arg2 : Memref sig .tc .vmem S2048x512 .f32) (harg2 : arg2.IsWhole) (arg3 : Memref sig .tc .vmem S1x2048 .i32) (harg3 : arg3.IsWhole) (arg4 : Memref sig .tc .vmem S101x512 .f32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : ¬cond0_1 i)
    (x0 : Vec F S2048x512 .f32) (x1 : Vec F S1x2048 .i32) (x2 : Vec F S101x512 .f32) (xs0 : Vec F S1x1 .f32) (y : S1x1.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S1x1.size (by sl_kernel_rfl) y

/-- What case B leaves in the scratch cell: its pieces read back. -/
def sout0_B_0 (c : Dev nD) (i : grid0.Coords) (arg2 : Memref sig .tc .vmem S2048x512 .f32) (harg2 : arg2.IsWhole) (arg3 : Memref sig .tc .vmem S1x2048 .i32) (harg3 : arg3.IsWhole) (arg4 : Memref sig .tc .vmem S101x512 .f32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : ¬cond0_1 i)
    (x0 : Vec F S2048x512 .f32) (x1 : Vec F S1x2048 .i32) (x2 : Vec F S101x512 .f32) (xs0 : Vec F S1x1 .f32) : Vec F S1x1 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- Case C's one store into the output block covers it. -/
theorem cover0_C_3 (c : Dev nD) (i : grid0.Coords) (arg2 : Memref sig .tc .vmem S2048x512 .f32) (harg2 : arg2.IsWhole) (arg3 : Memref sig .tc .vmem S1x2048 .i32) (harg3 : arg3.IsWhole) (arg4 : Memref sig .tc .vmem S101x512 .f32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : cond0_1 i)
    (x0 : Vec F S2048x512 .f32) (x1 : Vec F S1x2048 .i32) (x2 : Vec F S101x512 .f32) (xs0 : Vec F S1x1 .f32) (y : S8x128.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S8x128.size (by sl_kernel_rfl) y

/-- What case C leaves in the output block: its pieces read back. -/
def out0_C_3 (c : Dev nD) (i : grid0.Coords) (arg2 : Memref sig .tc .vmem S2048x512 .f32) (harg2 : arg2.IsWhole) (arg3 : Memref sig .tc .vmem S1x2048 .i32) (harg3 : arg3.IsWhole) (arg4 : Memref sig .tc .vmem S101x512 .f32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : cond0_1 i)
    (x0 : Vec F S2048x512 .f32) (x1 : Vec F S1x2048 .i32) (x2 : Vec F S101x512 .f32) (xs0 : Vec F S1x1 .f32) : Vec F S8x128 .f32 :=
  VO0_3.read (Elt F) (VO0_3.writes (Elt F) VO0_3.junk (kernelRun0_C c i arg2 harg2 arg3 harg3 arg4 harg4 arg5 harg5 arg6 harg6 hc0 hc1 x0 x1 x2 xs0).1)

/-- Case C's pieces for the scratch cell cover it. -/
theorem scover0_C_0 (c : Dev nD) (i : grid0.Coords) (arg2 : Memref sig .tc .vmem S2048x512 .f32) (harg2 : arg2.IsWhole) (arg3 : Memref sig .tc .vmem S1x2048 .i32) (harg3 : arg3.IsWhole) (arg4 : Memref sig .tc .vmem S101x512 .f32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : cond0_1 i)
    (x0 : Vec F S2048x512 .f32) (x1 : Vec F S1x2048 .i32) (x2 : Vec F S101x512 .f32) (xs0 : Vec F S1x1 .f32) (y : S1x1.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1x1.size (by sl_kernel_rfl) y

/-- What case C leaves in the scratch cell: its pieces read back. -/
def sout0_C_0 (c : Dev nD) (i : grid0.Coords) (arg2 : Memref sig .tc .vmem S2048x512 .f32) (harg2 : arg2.IsWhole) (arg3 : Memref sig .tc .vmem S1x2048 .i32) (harg3 : arg3.IsWhole) (arg4 : Memref sig .tc .vmem S101x512 .f32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : cond0_1 i)
    (x0 : Vec F S2048x512 .f32) (x1 : Vec F S1x2048 .i32) (x2 : Vec F S101x512 .f32) (xs0 : Vec F S1x1 .f32) : Vec F S1x1 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## What the output block and the scratch cell hold after each point -/

/-- After the body at position `n`: the case the point is in, run on the point's blocks, over what the point before
    left in the scratch cell. -/
def outsAt0 (c : Dev nD) : (n : ℕ) → n < cfg0.N → Vec F S8x128 .f32 × Vec F S1x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 32 = 0 then
      if h1 : (n + 1) % 32 = 31 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 32 = 31 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2)

theorem outsAt0_A (c : Dev nD) (t : Fin cfg0.N) (h0 : t.val % 32 = 0) (h1 : ¬t.val % 32 = 31) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 32 = 0) (h1 : ¬t.val % 32 = 31) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 32 = 0) (h1 : t.val % 32 = 31) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the scratch cell at anything; afterwards at what
    the point before left in it; the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The arrays as the region finds them; after the body each input's buffer at its block and the output's at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]; try rfl
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]; try rfl
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]; try rfl

set_option maxHeartbeats 8000000 in
/-- The body at any point: the inputs' buffers hold their blocks; the closed forms of the two conditions say which
    case the point is in; the invariant hands the body the scratch cell at what the point before left (at anything
    before the first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2]
  have hN : t.val < 64 := lt_of_lt_of_eq t.isLt (show cfg0.N = 64 from N_0)
  by_cases h0 : t.val % 32 = 0
  · by_cases h1 : t.val % 32 = 31
    · exfalso; omega
    · rw [Dat.leavesExact_idle (dats m 0 c) 3 t (idleAt0_3_A t ((hcond0_0 t).mpr h0) (fun h => h1 ((hcond0_1 t).mp h))) (noFlush0_3_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 32 = 31
    · rw [show (dats m 0 c).leavesExact 3 t = owns (c : Thread nD τ) (ms0_3 t) fullShare ((dats m 0 c).after 3 t) from by
        unfold Dat.leavesExact; rw [liveAt0_3_C t (fun h => h0 ((hcond0_0 t).mp h)) ((hcond0_1 t).mpr h1)], after0_3]
      rw [outsAt0_C m c t h0 h1]
      unfold out0_C_3 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk m c 0 t) (iblk m c 1 t) (iblk m c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _)
    · rw [Dat.leavesExact_idle (dats m 0 c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk m c 0 t) (iblk m c 1 t) (iblk m c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of the program terminates; at the end every array of the region holds what the proof
    data compute, and every other unscoped buffer what the 119 later operations leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, nothing faults, the three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Fr

end
-- ==== Proof.KI.Pieces.lean ====
/-
  What the kernel body leaves, as values. In every case the scratch cell ends at the body's sum payload of the three
  input blocks and of what the cell held when the sum was taken: the reset value where the running sum restarts, the
  previous contents elsewhere. Where the output block is written it ends at the broadcast of that new cell.
-/
import proofs.«429582_j39891656245569_3_alg».proof.Proof.KI.Frame
import Idealize.ShloMosaic.Lib.Pipeline.Value

set_option maxRecDepth 16384

noncomputable section

namespace Cert.KernelIdeal.Pieces

open Cert.KernelIdeal Cert.KernelIdeal.Gen Cert.KernelIdeal.Fr
open Idealize.ShloMosaic Idealize.ShloMosaic.TcCoe Idealize.SL.Sem

variable {F : FTy → Type} [FloatOps F]

theorem hz2 : (![0, 0] : Fin 2 → Nat) = fun _ => 0 := funext fun a => by fin_cases a <;> rfl

/-- Where neither condition holds: the cell ends at the sum payload over its previous contents. -/
theorem sout_B (c : Dev nD) (i : grid0.Coords) (arg2 : Memref sig .tc .vmem S2048x512 .f32) (harg2 : arg2.IsWhole) (arg3 : Memref sig .tc .vmem S1x2048 .i32) (harg3 : arg3.IsWhole) (arg4 : Memref sig .tc .vmem S101x512 .f32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : ¬cond0_1 i)
    (x0 : Vec F S2048x512 .f32) (x1 : Vec F S1x2048 .i32) (x2 : Vec F S101x512 .f32) (xs0 : Vec F S1x1 .f32) :
    sout0_B_0 c i arg2 harg2 arg3 harg3 arg4 harg4 arg5 harg5 arg6 harg6 hc0 hc1 x0 x1 x2 xs0 = k0_pay2 x2 x1 x0 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  rw [View.canon_unit_zero hz2]
  simp only [View.readAt_eq_ld, harg2.read_unread, harg3.read_unread, harg4.read_unread, harg6.read_unread, View.ld_unit_zero (S := S2048x512) hz2, View.ld_unit_zero (S := S1x2048) hz2, View.ld_unit_zero (S := S101x512) hz2, View.ld_unit_zero (S := S1x1) hz2]

/-- Where the running sum restarts: the cell ends at the sum payload over the reset value. -/
theorem sout_A (c : Dev nD) (i : grid0.Coords) (arg2 : Memref sig .tc .vmem S2048x512 .f32) (harg2 : arg2.IsWhole) (arg3 : Memref sig .tc .vmem S1x2048 .i32) (harg3 : arg3.IsWhole) (arg4 : Memref sig .tc .vmem S101x512 .f32) (harg4 : arg4.IsWhole) (arg5 : Memref sig .tc .vmem S8x128 .f32) (harg5 : arg5.IsWhole) (arg6 : Memref sig .tc .vmem S1x1 .f32) (harg6 : arg6.IsWhole) (hc0 : cond0_0 i) (hc1 : ¬cond0_1 i)
    (x0 : Vec F S2048x512 .f32) (x1 : Vec F S1x2048 .i32) (x2 : Vec F S101x512 .f32) :
    sout0_A_0 c i arg2 harg2 arg3 harg3 arg4 harg4 arg5 harg5 arg6 harg6 hc0 hc1 x0 x1 x2 = k0_pay2 x2 x1 x0 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg6.read_unread, View.ld_unit_zero (S := S2048x512) hz2, View.ld_unit_zero (S := S1x2048) hz2, View.ld_unit_zero (S := S101x512) hz2, View.ld_unit_zero (S := S1x1) hz2]

/-- Where the output block is written: the cell as in the middle case, -/
theorem sout_C (c : Dev nD) (i : grid0.Coords) (arg2 : Memref sig .tc .vmem S2048x512 .f32) (harg2 : arg2.IsWhole) (arg3 : Memref sig .tc .vmem S1x2048 .i32) (harg3 : arg3.IsWhole) (arg4 : Memref sig .tc .vmem S101x512 .f32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : cond0_1 i)
    (x0 : Vec F S2048x512 .f32) (x1 : Vec F S1x2048 .i32) (x2 : Vec F S101x512 .f32) (xs0 : Vec F S1x1 .f32) :
    sout0_C_0 c i arg2 harg2 arg3 harg3 arg4 harg4 arg5 harg5 arg6 harg6 hc0 hc1 x0 x1 x2 xs0 = k0_pay2 x2 x1 x0 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg4.read_unread, harg6.read_unread, View.ld_unit_zero (S := S2048x512) hz2, View.ld_unit_zero (S := S1x2048) hz2, View.ld_unit_zero (S := S101x512) hz2, View.ld_unit_zero (S := S1x1) hz2]

/-- and the output block at the broadcast of the new cell. -/
theorem out_C (c : Dev nD) (i : grid0.Coords) (arg2 : Memref sig .tc .vmem S2048x512 .f32) (harg2 : arg2.IsWhole) (arg3 : Memref sig .tc .vmem S1x2048 .i32) (harg3 : arg3.IsWhole) (arg4 : Memref sig .tc .vmem S101x512 .f32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : cond0_1 i)
    (x0 : Vec F S2048x512 .f32) (x1 : Vec F S1x2048 .i32) (x2 : Vec F S101x512 .f32) (xs0 : Vec F S1x1 .f32) :
    out0_C_3 c i arg2 harg2 arg3 harg3 arg4 harg4 arg5 harg5 arg6 harg6 hc0 hc1 x0 x1 x2 xs0 = k0_pay3 (k0_pay2 x2 x1 x0 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz2]
  simp only [View.readCov_unit_zero (S := S1x1) _ hz2, View.readAt_eq_ld, harg2.read_unread, harg3.read_unread, harg4.read_unread, harg6.read_unread, View.ld_unit_zero (S := S2048x512) hz2, View.ld_unit_zero (S := S1x2048) hz2, View.ld_unit_zero (S := S101x512) hz2, View.ld_unit_zero (S := S1x1) hz2]

end Cert.KernelIdeal.Pieces

end
-- ==== Proof.LibSums.lean ====
/-
  Sums regrouped.

  A sum over a range cut into equal blocks is the double sum over blocks and places inside a block; a sum over a range
  whose tail terms vanish is the sum over the head; a sum over the indices of a rank-1, rank-2 or rank-3 array is the
  iterated sum over the coordinates. All of it holds in any additive commutative monoid, so also for the extended reals,
  whose addition is commutative and associative even at the infinities. The last part is about the extended reals alone:
  negation passes through a sum of non-negative terms, the embedding of the reals passes through a sum, and a few facts
  on the sign and the finiteness of sums and squares.
-/
import Mathlib.Algebra.BigOperators.Fin
import Mathlib.Algebra.BigOperators.Group.Finset.Basic
import Mathlib.Algebra.Order.BigOperators.Group.Finset
import Mathlib.Logic.Equiv.Fin.Basic
import Mathlib.Data.EReal.Operations
import Idealize.ShloMosaic.PureOps.Ideal
import Idealize.ShloMosaic.Lib.ValueIdx

open scoped BigOperators

namespace Cert.LibSums

open Idealize.ShloMosaic

section Monoid

variable {M : Type*} [AddCommMonoid M]

/-! ## Blocks and tails -/

/-- `B` blocks of `R` consecutive places: the double sum over (block, place in the block) is the sum over all `B * R` places. -/
theorem sum_blocks (B R : ℕ) (f : ℕ → M) :
    ∑ t : Fin B, ∑ r : Fin R, f (t.val * R + r.val) = ∑ i : Fin (B * R), f i.val := by
  rw [← Equiv.sum_comp (finProdFinEquiv (m := B) (n := R)) (fun i => f i.val), Fintype.sum_prod_type]
  refine Finset.sum_congr rfl fun t _ => Finset.sum_congr rfl fun r _ => ?_
  show f (t.val * R + r.val) = f (r.val + R * t.val)
  rw [Nat.mul_comm, Nat.add_comm]

/-- Five blocks of 3000. -/
theorem sum_blocks_5_3000 (f : ℕ → M) :
    ∑ t : Fin 5, ∑ r : Fin 3000, f (t.val * 3000 + r.val) = ∑ i : Fin 15000, f i.val := sum_blocks 5 3000 f

/-- Twenty-five blocks of 4000. -/
theorem sum_blocks_25_4000 (f : ℕ → M) :
    ∑ t : Fin 25, ∑ r : Fin 4000, f (t.val * 4000 + r.val) = ∑ i : Fin 100000, f i.val := sum_blocks 25 4000 f

/-- A hundred and fifty-eight blocks of 64. -/
theorem sum_blocks_158_64 (f : ℕ → M) :
    ∑ t : Fin 158, ∑ r : Fin 64, f (t.val * 64 + r.val) = ∑ i : Fin 10112, f i.val := sum_blocks 158 64 f

/-- A sum over the first `N` naturals whose terms from `n` on vanish is the sum over the first `n`. -/
theorem sum_fin_le (n N : ℕ) (h : n ≤ N) (f : ℕ → M) (hf : ∀ i, n ≤ i → i < N → f i = 0) :
    ∑ i : Fin N, f i.val = ∑ i : Fin n, f i.val := by
  rw [Fin.sum_univ_eq_sum_range f N, Fin.sum_univ_eq_sum_range f n]
  refine (Finset.sum_subset (Finset.range_subset_range.2 h) fun i hi hni => ?_).symm
  exact hf i (Nat.le_of_not_lt fun hlt => hni (Finset.mem_range.2 hlt)) (Finset.mem_range.1 hi)

/-- Two indices at once: rows in `B` blocks of `R`, columns up to `C`, the function vanishing as soon as the row
    reaches `n` or the column reaches `m`: the triple sum is the double sum over `n` rows and `m` columns. -/
theorem sum_blocks_tail2 (B R C n m : ℕ) (hn : n ≤ B * R) (hm : m ≤ C) (f : ℕ → ℕ → M)
    (hf : ∀ r c, n ≤ r ∨ m ≤ c → f r c = 0) :
    ∑ t : Fin B, ∑ r : Fin R, ∑ c : Fin C, f (t.val * R + r.val) c.val = ∑ r : Fin n, ∑ c : Fin m, f r.val c.val := by
  rw [sum_blocks B R (fun i => ∑ c : Fin C, f i c.val)]
  rw [sum_fin_le n (B * R) hn (fun i => ∑ c : Fin C, f i c.val)
    (fun i hi _ => Finset.sum_eq_zero fun c _ => hf i c.val (Or.inl hi))]
  refine Finset.sum_congr rfl fun r _ => ?_
  exact sum_fin_le m C hm (f r.val) (fun c hc _ => hf r.val c (Or.inr hc))

/-- Rows in 158 blocks of 64 against 10112 columns, of which the first 10000 rows and columns count. -/
theorem sum_158_64_10112 (f : ℕ → ℕ → M) (hf : ∀ r c, 10000 ≤ r ∨ 10000 ≤ c → f r c = 0) :
    ∑ t : Fin 158, ∑ r : Fin 64, ∑ c : Fin 10112, f (t.val * 64 + r.val) c.val
      = ∑ r : Fin 10000, ∑ c : Fin 10000, f r.val c.val :=
  sum_blocks_tail2 158 64 10112 10000 10000 (by decide) (by decide) f hf

end Monoid

section Idx

variable {M : Type*} [AddCommMonoid M]

open Idealize.ShloMosaic.ValueIdx

/-! ## Sums over an array's indices, by coordinates (rank 2 is the library's `ValueIdx.sum_idx2`) -/

/-- A rank-1 index set is its one coordinate's range. -/
def idxEquiv1 {n : ℕ} : (⟨1, ![n]⟩ : Shape).Idx ≃ Fin n where
  toFun i := i 0
  invFun a := ix1 a
  left_inv i := (eq_ix1 i).symm
  right_inv _ := rfl

/-- A sum over the indices of a rank-1 array is the sum over its one coordinate. -/
theorem sum_idx1 {n : ℕ} (g : (⟨1, ![n]⟩ : Shape).Idx → M) : ∑ j, g j = ∑ p : Fin n, g (ix1 p) := by
  rw [← Equiv.sum_comp (idxEquiv1 (n := n)).symm g]
  rfl

/-- A rank-3 index set is the product of its three coordinate ranges. -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a rank-3 array is the triple sum over the coordinates. -/
theorem sum_idx3 {n0 n1 n2 : ℕ} (g : (⟨3, ![n0, n1, n2]⟩ : Shape).Idx → M) :
    ∑ j, g j = ∑ p : Fin n0, ∑ q : Fin n1, ∑ r : Fin n2, g (ix3 p q r) := by
  rw [← Equiv.sum_comp (idxEquiv3 (n0 := n0) (n1 := n1) (n2 := n2)).symm g, Fintype.sum_prod_type]
  refine Finset.sum_congr rfl fun p _ => ?_
  rw [Fintype.sum_prod_type]
  rfl

/-- A sum over the indices of a rank-2 array is the double sum over the coordinates (the library's `sum_idx2`, restated
    with the index type written out). -/
theorem sum_idx2' {a b : ℕ} (g : (⟨2, ![a, b]⟩ : Shape).Idx → M) :
    ∑ j : (⟨2, ![a, b]⟩ : Shape).Idx, g j = ∑ p : Fin a, ∑ q : Fin b, g (ix2 p q) := sum_idx2 g

end Idx

/-! ## The extended reals -/

section EReal

variable {ι : Type*}

/-- The embedding of the reals passes through a finite sum. -/
theorem sum_coe (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- A sum none of whose terms is `⊥` is not `⊥`. -/
theorem sum_ne_bot (s : Finset ι) (a : ι → EReal) (h : ∀ i ∈ s, a i ≠ ⊥) : ∑ i ∈ s, a i ≠ ⊥ := by
  classical
  induction s using Finset.induction_on with
  | empty => simp
  | insert i s hi ih =>
    rw [Finset.sum_insert hi]
    exact EReal.add_ne_bot_iff.2 ⟨h i (Finset.mem_insert_self i s), ih fun j hj => h j (Finset.mem_insert_of_mem hj)⟩

/-- A sum none of whose terms is `⊤` is not `⊤` (whatever the other terms: `⊤ + ⊥ = ⊥`). -/
theorem sum_ne_top (s : Finset ι) (a : ι → EReal) (h : ∀ i ∈ s, a i ≠ ⊤) : ∑ i ∈ s, a i ≠ ⊤ := by
  classical
  induction s using Finset.induction_on with
  | empty => simp
  | insert i s hi ih =>
    rw [Finset.sum_insert hi]
    exact EReal.add_ne_top (h i (Finset.mem_insert_self i s)) (ih fun j hj => h j (Finset.mem_insert_of_mem hj))

/-- A sum of reals is not `⊥`. -/
theorem sum_coe_ne_bot (s : Finset ι) (f : ι → ℝ) : ∑ i ∈ s, ((f i : ℝ) : EReal) ≠ ⊥ :=
  sum_ne_bot s _ fun i _ => EReal.coe_ne_bot (f i)

/-- A sum of reals is not `⊤`. -/
theorem sum_coe_ne_top (s : Finset ι) (f : ι → ℝ) : ∑ i ∈ s, ((f i : ℝ) : EReal) ≠ ⊤ :=
  sum_ne_top s _ fun i _ => EReal.coe_ne_top (f i)

/-- A sum of non-negative terms is non-negative. -/
theorem sum_nonneg (s : Finset ι) (a : ι → EReal) (h : ∀ i ∈ s, 0 ≤ a i) : 0 ≤ ∑ i ∈ s, a i :=
  Finset.sum_nonneg h

/-- Each term of a sum of non-negative terms is at most the sum. -/
theorem le_sum_of_nonneg (s : Finset ι) (a : ι → EReal) (h : ∀ i ∈ s, 0 ≤ a i) {i : ι} (hi : i ∈ s) :
    a i ≤ ∑ j ∈ s, a j :=
  Finset.single_le_sum h hi

/-- A sum of non-negative terms one of which is positive is positive. -/
theorem sum_pos (s : Finset ι) (a : ι → EReal) (h : ∀ i ∈ s, 0 ≤ a i) {i : ι} (hi : i ∈ s) (hpos : 0 < a i) :
    0 < ∑ j ∈ s, a j :=
  lt_of_lt_of_le hpos (le_sum_of_nonneg s a h hi)

/-- If a sum of non-negative terms is below `⊤`, so is every term. -/
theorem lt_top_of_sum_lt_top (s : Finset ι) (a : ι → EReal) (h : ∀ i ∈ s, 0 ≤ a i) (hs : ∑ i ∈ s, a i < ⊤) :
    ∀ i ∈ s, a i < ⊤ :=
  fun _ hi => lt_of_le_of_lt (le_sum_of_nonneg s a h hi) hs

/-- Negation passes through a sum of non-negative terms: no partial sum is `⊥`, so no `⊤ + ⊥` is met. -/
theorem neg_sum_of_nonneg (s : Finset ι) (a : ι → EReal) (h : ∀ i ∈ s, 0 ≤ a i) :
    ∑ i ∈ s, -(a i) = -(∑ i ∈ s, a i) := by
  classical
  induction s using Finset.induction_on with
  | empty => simp
  | insert i s hi ih =>
    have hs : ∀ j ∈ s, 0 ≤ a j := fun j hj => h j (Finset.mem_insert_of_mem hj)
    have h1 : a i ≠ ⊥ := ne_of_gt (lt_of_lt_of_le EReal.bot_lt_zero (h i (Finset.mem_insert_self i s)))
    have h2 : ∑ j ∈ s, a j ≠ ⊥ := ne_of_gt (lt_of_lt_of_le EReal.bot_lt_zero (sum_nonneg s a hs))
    rw [Finset.sum_insert hi, Finset.sum_insert hi, ih hs, EReal.neg_add (Or.inl h1) (Or.inr h2), sub_eq_add_neg]

/-- A square is non-negative, also at the infinities (`⊥ * ⊥ = ⊤`). -/
theorem ereal_mul_self_nonneg (x : EReal) : 0 ≤ x * x := by
  induction x with
  | bot => rw [EReal.bot_mul_bot]; exact le_top
  | coe r => rw [← EReal.coe_mul]; exact EReal.coe_nonneg.2 (_root_.mul_self_nonneg r)
  | top => rw [EReal.top_mul_top]; exact le_top

/-- The square of a non-zero extended real is positive. -/
theorem ereal_mul_self_pos (x : EReal) (hx : x ≠ 0) : 0 < x * x := by
  induction x with
  | bot => rw [EReal.bot_mul_bot]; exact EReal.zero_lt_top
  | coe r =>
    rw [← EReal.coe_mul]
    exact EReal.coe_pos.2 (_root_.mul_self_pos.2 fun hr => hx (by rw [hr, EReal.coe_zero]))
  | top => rw [EReal.top_mul_top]; exact EReal.zero_lt_top

/-- A square below `⊤` is the square of a real. -/
theorem ereal_of_mul_self_lt_top (x : EReal) (h : x * x < ⊤) : x ≠ ⊥ ∧ x ≠ ⊤ := by
  refine ⟨fun hx => ?_, fun hx => ?_⟩
  · rw [hx, EReal.bot_mul_bot] at h; exact lt_irrefl _ h
  · rw [hx, EReal.top_mul_top] at h; exact lt_irrefl _ h

end EReal

end Cert.LibSums
-- ==== Proof.Spec.lean ====
/-
  The mathematics of the center-loss term, over the extended reals.

  Sample `t` (of 131072) has an embedding row and an integer label; the label, read as a signed integer and clamped
  into [0, 100], selects a row of the 101 centers (`rowOf`). `rowSq t` is the squared distance of sample `t` to its
  center, `total` the sum of these over all samples. The kernel walks the samples in 64 blocks of 2048 rows
  (`part p`), adding block after block into a running sum that is restarted at blocks 0 and 32 (`accN`): the two
  running sums after blocks 31 and 63 add up to `total`, because addition of extended reals is commutative and
  associative (also at the infinities).
-/
import Idealize.ShloMosaic.PureOps.Ideal
import Idealize.ShloMosaic.Lib.ValueIdx
import proofs.«429582_j39891656245569_3_alg».proof.Proof.LibSums

open scoped BigOperators

noncomputable section

namespace Cert.Spec

open Idealize.ShloMosaic Idealize.ShloMosaic.ValueIdx

/-- The embeddings' shape. -/
abbrev SE : Shape := ⟨2, ![131072, 512]⟩
/-- The centers' shape. -/
abbrev SC : Shape := ⟨2, ![101, 512]⟩
/-- The labels' shape. -/
abbrev SLab : Shape := ⟨1, ![131072]⟩

/-- The row of the centers a label word selects: the word read as a signed integer, clamped into [0, 100]. -/
def rowOf (l : BitVec 32) : Fin 101 := ⟨min l.toInt.toNat 100, by omega⟩

variable (emb : SE.Idx → EReal) (cen : SC.Idx → EReal) (lab : SLab.Idx → BitVec 32)

/-- The squared distance of sample `t` to the center its label selects. -/
def rowSq (t : Fin 131072) : EReal :=
  ∑ d : Fin 512, (emb (ix2 t d) - cen (ix2 (rowOf (lab (ix1 t))) d)) * (emb (ix2 t d) - cen (ix2 (rowOf (lab (ix1 t))) d))

/-- The sum of the squared distances over all samples. -/
def total : EReal := ∑ t : Fin 131072, rowSq emb cen lab t

/-- Row `r` of block `p` is sample `p * 2048 + r`. -/
def rowAt (p : Fin 64) (r : Fin 2048) : Fin 131072 := ⟨p.val * 2048 + r.val, by omega⟩

/-- The sum of the squared distances over the 2048 samples of block `p`. -/
def part (p : Fin 64) : EReal := ∑ r : Fin 2048, rowSq emb cen lab (rowAt p r)

/-- The running sum after block `n`: restarted at blocks 0 and 32, otherwise the previous running sum plus the block's. -/
def accN : (n : ℕ) → n < 64 → EReal
  | 0, h => part emb cen lab ⟨0, h⟩
  | n + 1, h => if (n + 1) % 32 = 0 then part emb cen lab ⟨n + 1, h⟩
      else accN n (Nat.lt_of_succ_lt h) + part emb cen lab ⟨n + 1, h⟩

theorem accN_zero (h : 0 < 64) : accN emb cen lab 0 h = part emb cen lab ⟨0, h⟩ := rfl

/-- At a block where the running sum restarts. -/
theorem accN_reset (n : ℕ) (h : n < 64) (hn : n % 32 = 0) : accN emb cen lab n h = part emb cen lab ⟨n, h⟩ := by
  cases n with
  | zero => rfl
  | succ m => rw [accN, if_pos hn]

/-- At any other block. -/
theorem accN_step (n : ℕ) (h : n < 64) (hn : ¬ n % 32 = 0) :
    accN emb cen lab n h = accN emb cen lab (n - 1) (by omega) + part emb cen lab ⟨n, h⟩ := by
  cases n with
  | zero => exact absurd rfl hn
  | succ m =>
    rw [accN, if_neg hn]
    rfl

/-- The samples regrouped by blocks. -/
theorem total_eq_parts : total emb cen lab = ∑ p : Fin 64, part emb cen lab p := by
  -- the samples as a function on the naturals, zero past the last sample
  let f : ℕ → EReal := fun i => if h : i < 131072 then rowSq emb cen lab ⟨i, h⟩ else 0
  have hb : ∑ t : Fin 64, ∑ r : Fin 2048, f (t.val * 2048 + r.val) = ∑ i : Fin 131072, f i.val :=
    Cert.LibSums.sum_blocks 64 2048 f
  calc total emb cen lab = ∑ i : Fin 131072, f i.val := by
        unfold total
        refine Finset.sum_congr rfl fun i _ => ?_
        simp only [f, dif_pos i.isLt]
    _ = ∑ t : Fin 64, ∑ r : Fin 2048, f (t.val * 2048 + r.val) := hb.symm
    _ = ∑ p : Fin 64, part emb cen lab p := by
        unfold part
        refine Finset.sum_congr rfl fun p _ => Finset.sum_congr rfl fun r _ => ?_
        have hlt : p.val * 2048 + r.val < 131072 := by omega
        simp only [f, dif_pos hlt]
        rfl

/-- Inside one of the two halves, the running sum after `k + 1` blocks is the sum of these blocks. -/
theorem accN_closed (c : ℕ) (hc : c < 2) (k : ℕ) (hk : k < 32) :
    accN emb cen lab (32 * c + k) (by omega)
      = ∑ j : Fin (k + 1), part emb cen lab ⟨32 * c + j.val, by omega⟩ := by
  induction k with
  | zero =>
    rw [accN_reset emb cen lab (32 * c + 0) (by omega) (by omega), Fin.sum_univ_one]
    rfl
  | succ k ih =>
    have h1 := ih (by omega)
    rw [accN_step emb cen lab (32 * c + (k + 1)) (by omega) (by omega), Fin.sum_univ_castSucc]
    exact congrArg₂ (· + ·) h1 rfl

/-- The two running sums after blocks 31 and 63 add up to the whole. -/
theorem total_eq_acc : total emb cen lab = accN emb cen lab 31 (by omega) + accN emb cen lab 63 (by omega) := by
  -- the blocks as a function on the naturals, zero past the last block
  let g : ℕ → EReal := fun i => if h : i < 64 then part emb cen lab ⟨i, h⟩ else 0
  have hb : ∑ c : Fin 2, ∑ k : Fin 32, g (c.val * 32 + k.val) = ∑ i : Fin 64, g i.val :=
    Cert.LibSums.sum_blocks 2 32 g
  have h0 : accN emb cen lab 31 (by omega) = ∑ k : Fin 32, g ((0 : Fin 2).val * 32 + k.val) := by
    rw [show accN emb cen lab 31 (by omega) = accN emb cen lab (32 * 0 + 31) (by omega) from rfl,
      accN_closed emb cen lab 0 (by omega) 31 (by omega)]
    refine Finset.sum_congr rfl fun k _ => ?_
    have hlt : (0 : Fin 2).val * 32 + k.val < 64 := by simp; omega
    simp only [g, dif_pos hlt]
    exact congrArg (part emb cen lab) (Fin.ext (by simp))
  have h1 : accN emb cen lab 63 (by omega) = ∑ k : Fin 32, g ((1 : Fin 2).val * 32 + k.val) := by
    rw [show accN emb cen lab 63 (by omega) = accN emb cen lab (32 * 1 + 31) (by omega) from rfl,
      accN_closed emb cen lab 1 (by omega) 31 (by omega)]
    refine Finset.sum_congr rfl fun k _ => ?_
    have hlt : (1 : Fin 2).val * 32 + k.val < 64 := by simp; omega
    simp only [g, dif_pos hlt]
    exact congrArg (part emb cen lab) (Fin.ext (by simp))
  rw [total_eq_parts, h0, h1, ← Fin.sum_univ_two (f := fun c : Fin 2 => ∑ k : Fin 32, g (c.val * 32 + k.val)), hb]
  refine Finset.sum_congr rfl fun p _ => ?_
  simp only [g, dif_pos p.isLt]

/-- The scalar shape. -/
abbrev S0 : Shape := ⟨0, ![]⟩

/-- The program's result from its margin term and the sum of the squared distances: the margin plus the mean over
    the 131072 samples (the divisor is the word of 131072.0). -/
def finalOf (mg : FVec Ideal S0 .f32) (tot : EReal) : FVec Ideal S0 .f32 :=
  addf (F := Ideal) mg (Host.divf (F := Ideal) (fun _ => tot) (constant (F := Ideal) S0 .f32 0x48000000#32))

end Cert.Spec

end
-- ==== Proof.KI.Blocks.lean ====
/-
  The blocks of the three input windows, read where their index maps say.

  At grid point t (of 64) the embeddings' block is rows t * 2048 … t * 2048 + 2047 of the embeddings, the centers'
  block is the whole array of centers, and the labels' block is entries t * 2048 … t * 2048 + 2047 of the labels
  after they were clipped into [0, 100] (a signed maximum with 0, then a signed minimum with 100) and laid out as one
  row: entry r of it is the word of the row of the centers that label t * 2048 + r selects.
-/
import proofs.«429582_j39891656245569_3_alg».proof.Proof.KI.Runs
import proofs.«429582_j39891656245569_3_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.FrV

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ)

/-- The embeddings as launched. -/
abbrev embA (c : Dev nD) : FVec Ideal S131072x512 .f32 := m ((c : Thread nD τ).loc main_arg0)
/-- The centers as launched. -/
abbrev cenA (c : Dev nD) : FVec Ideal S101x512 .f32 := m ((c : Thread nD τ).loc main_arg1)
/-- The labels as launched. -/
abbrev labA (c : Dev nD) : IVec S131072 32 := m ((c : Thread nD τ).loc main_arg2)

/-- A grid point's number is below 64. -/
theorem pt_lt (t : Fin cfg0.N) : t.val < 64 := lt_of_lt_of_eq t.isLt N_0

/-- Row r of block t is a row of the embeddings. -/
theorem rowAt_lt (t : Fin cfg0.N) (r : Fin 2048) : t.val * 2048 + r.val < 131072 := by
  have ht := pt_lt t
  have hr := r.isLt
  omega

/-! ## The index maps, decided over the grid -/

/-- The embeddings' block at point t is block (t, 0). -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The labels' block at point t is block (0, t). -/
theorem idx1 : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)

/-- The centers' block is block (0, 0) at every point. -/
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-! ## The embeddings' block -/

theorem iblk0_apply (c : Dev nD) (t : Fin cfg0.N) (r : Fin 2048) (d : Fin 512) :
    (iblk m c 0 t : Vec Ideal S2048x512 .f32) (ix2 r d) = embA m c (ix2 ⟨t.val * 2048 + r.val, rowAt_lt t r⟩ d) := by
  obtain ⟨e0, e1⟩ := idx0 t
  show V m c main_arg0 (((cfg0.win 0).blk t).view.emb (ix2 r d)) = _
  rw [V_main_arg0]
  refine congrArg _ ?_
  funext a; apply Fin.ext
  match a with
  | ⟨0, _⟩ => show win0_0.index t (0 : Fin 2) * 2048 + 1 * r.val = t.val * 2048 + r.val; omega
  | ⟨1, _⟩ => show win0_0.index t (1 : Fin 2) * 512 + 1 * d.val = d.val; omega

/-! ## The centers' block -/

theorem iblk2_eq (c : Dev nD) (t : Fin cfg0.N) : (iblk m c 2 t : Vec Ideal S101x512 .f32) = cenA m c := by
  obtain ⟨e0, e1⟩ := idx2 t
  funext j
  show V m c main_arg1 (((cfg0.win 2).blk t).view.emb j) = _
  rw [V_main_arg1]
  refine congrArg _ ?_
  funext a; apply Fin.ext
  match a with
  | ⟨0, _⟩ => show win0_2.index t (0 : Fin 2) * 101 + 1 * (j 0).val = (j 0).val; omega
  | ⟨1, _⟩ => show win0_2.index t (1 : Fin 2) * 512 + 1 * (j 1).val = (j 1).val; omega

/-! ## The labels' block -/

/-- Clipping a 32-bit word into [0, 100], a signed maximum with 0 and then a signed minimum with 100, gives the
    word of its signed value clamped into [0, 100]: a negative word goes to 0, a word above 100 to 100, and any
    other word is its own signed value. -/
theorem clip_word (l : BitVec 32) :
    IntOp.minsi 100#32 (IntOp.maxsi 0#32 l) = BitVec.ofNat 32 (min l.toInt.toNat 100) := by
  have h0 : (0#32 : BitVec 32).toInt = 0 := by decide
  have h100 : (100#32 : BitVec 32).toInt = 100 := by decide
  have hl := l.isLt
  have hc := BitVec.toInt_eq_toNat_cond l
  by_cases hneg : l.toInt < 0
  · have e1 : IntOp.maxsi 0#32 l = 0#32 := by
      unfold IntOp.maxsi; rw [if_pos (by simpa [BitVec.slt, h0] using hneg)]
    have e2 : IntOp.minsi 100#32 0#32 = 0#32 := by decide
    have e3 : l.toInt.toNat = 0 := by omega
    rw [e1, e2, e3]; rfl
  · have e1 : IntOp.maxsi 0#32 l = l := by
      unfold IntOp.maxsi; rw [if_neg (by simpa [BitVec.slt, h0] using hneg)]
    rw [e1]
    by_cases hbig : (100 : Int) < l.toInt
    · have e2 : IntOp.minsi 100#32 l = 100#32 := by
        unfold IntOp.minsi; rw [if_pos (by simpa [BitVec.slt, h100] using hbig)]
      have e3 : min l.toInt.toNat 100 = 100 := by omega
      rw [e2, e3]
    · have e2 : IntOp.minsi 100#32 l = l := by
        unfold IntOp.minsi; rw [if_neg (by simpa [BitVec.slt, h100] using hbig)]
      have e3 : min l.toInt.toNat 100 = l.toNat := by
        split at hc <;> omega
      rw [e2, e3, BitVec.ofNat_toNat, BitVec.setWidth_eq]

/-- The clipped labels laid out as one row, as the host operations before the region compute them from the labels. -/
theorem V_labels (c : Dev nD) :
    (V m c main_call0_v1 : S1x131072.Idx → BitVec 32)
      = shapeCast S1x131072
          (minsi (broadcastInDim S131072 ![] bcast_S_S131072 (id (constantI S_ 32 100#32)))
            (maxsi (broadcastInDim S131072 ![] bcast_S_S131072 (id (constantI S_ 32 0#32))) (labA m c)))
          shapeCasts_S131072_S1x131072 := by
  dsimp only [V, V0]
  simp only [hostOps0, List.flatten_cons, List.flatten_nil, List.append_nil]
  after_results
  rfl

/-- A vector laid out as one row: entry (0, k) of the row is entry k of the vector. -/
theorem row_apply {α : Type} (x : S131072.Idx → α) (h : S131072.ShapeCasts S1x131072) (k : Fin 131072) :
    shapeCast S1x131072 x h (ix2 (0 : Fin 1) k) = x (ix1 k) := by
  refine shapeCast_apply x h _ _ ?_
  rw [Shape.rowMajor_val_one, Shape.rowMajor_val_two]
  show k.val = (0 : Fin 1).val * 131072 + k.val
  simp

theorem iblk1_apply (c : Dev nD) (t : Fin cfg0.N) (r : Fin 2048) :
    (iblk m c 1 t : Vec Ideal S1x2048 .i32) (ix2 0 r)
      = BitVec.ofNat 32 (Cert.Spec.rowOf (labA m c (ix1 ⟨t.val * 2048 + r.val, rowAt_lt t r⟩))).val := by
  obtain ⟨e0, e1⟩ := idx1 t
  show V m c main_call0_v1 (((cfg0.win 1).blk t).view.emb (ix2 0 r)) = _
  have hemb : ((cfg0.win 1).blk t).view.emb (ix2 0 r) = ix2 (0 : Fin 1) ⟨t.val * 2048 + r.val, rowAt_lt t r⟩ := by
    funext a; apply Fin.ext
    match a with
    | ⟨0, _⟩ => show win0_1.index t (0 : Fin 2) * 1 + 1 * (0 : Fin 1).val = (0 : Fin 1).val; rw [e0]; simp
    | ⟨1, _⟩ => show win0_1.index t (1 : Fin 2) * 2048 + 1 * r.val = t.val * 2048 + r.val; omega
  rw [hemb, V_labels, row_apply]
  show IntOp.minsi 100#32 (IntOp.maxsi 0#32 (labA m c (ix1 ⟨t.val * 2048 + r.val, rowAt_lt t r⟩))) = _
  rw [clip_word]
  rfl

end Cert.KernelIdeal.FrV

end
-- ==== Proof.KI.PayValue.lean ====
/-
  The three values the center-loss kernel stores, read at an index over the extended reals.

  The first is the zero that restarts the running sum. The third copies the running sum's one cell into every cell
  of an 8 × 128 block. The second is one block's step: the running sum plus, over the block's 2048 rows and 512
  columns, the square of the embedding minus the row of the centers that the row's label selects. The kernel selects
  that row by a product with a matrix of zeros and ones (entry (r, n) is one exactly when row r's label is n), and
  adds a second such product with the centers minus themselves, which is zero because the centers are finite.
-/
import proofs.«429582_j39891656245569_3_alg».proof.Proof.Gen.KernelIdeal.Skeleton
import proofs.«429582_j39891656245569_3_alg».proof.Proof.Spec
import Idealize.ShloMosaic.PureOps.Ideal.Laws
import Idealize.ShloMosaic.Lib.ValueIdx
import Idealize.ShloMosaic.Lib.ValueLayout
import Idealize.ShloMosaic.Lib.Pipeline.Value

open scoped BigOperators

noncomputable section

namespace Cert.KernelIdeal.PayValue

open Cert.KernelIdeal Cert.KernelIdeal.Gen Idealize.ShloMosaic Idealize.ShloMosaic.ValueIdx

/-! ## The restart value and the copied cell -/

/-- The restart value is zero everywhere. -/
theorem pay1_apply (j : S1x1.Idx) : k0_pay1 (F := Ideal) j = 0 := by
  unfold k0_pay1
  rw [shapeCast_self]
  exact Ideal.ofBits_zero_f32

/-- The one cell of a 1 × 1 array copied over an 8 × 128 block. -/
theorem bcast_cell (x : S1x1.Idx → EReal) (h : S1x1.Broadcasts S8x128) (j : S8x128.Idx) :
    broadcastTo S8x128 x h j = x (ix2 0 0) :=
  broadcastTo_apply x h j (ix2 0 0) fun a => match a with
    | ⟨0, _⟩ => rfl
    | ⟨1, _⟩ => rfl

/-- The stored block reads the running sum's cell at every index. -/
theorem pay3_apply (v35 : Vec Ideal S1x1 .f32) (j : S8x128.Idx) : k0_pay3 (F := Ideal) v35 j = v35 (ix2 0 0) := by
  unfold k0_pay3
  rw [shapeCast_self]
  exact bcast_cell v35 _ j

/-! ## The label of a row, as the kernel lays it out -/

/-- The labels, a 1 × 2048 row, turned into a column and copied along 101 columns: entry (r, n) is row r's label. -/
theorem labels_apply (v8 : IVec S1x2048 32) (h1 : S1x2048.ShapeCasts S1x2048) (h2 : S1x2048.Transposes [1, 0] S2048x1)
    (h3 : S2048x1.Broadcasts S2048x101) (r : Fin 2048) (n : Fin 101) :
    broadcastTo S2048x101 (transpose S2048x1 [1, 0] (shapeCast S1x2048 v8 h1) h2) h3 (ix2 r n) = v8 (ix2 0 r) := by
  rw [shapeCast_self]
  refine (broadcastTo_apply _ h3 (ix2 r n) (ix2 r (0 : Fin 1)) fun a => ?_).trans ?_
  · match a with
    | ⟨0, _⟩ => rfl
    | ⟨1, _⟩ => rfl
  · exact transpose_ix2_apply v8 h2 r (0 : Fin 1)

/-- The column counter: entry (r, n) is the word of n. -/
theorem iota_apply (h : S2048x101.Iotas .tc 32 [1]) (r : Fin 2048) (n : Fin 101) :
    iota .tc S2048x101 32 [1] h (ix2 r n) = BitVec.ofNat 32 n.val :=
  iota_single_apply .tc S2048x101 32 1 h (ix2 r n)

/-- The indicator of two equal words, converted to an extended real: one when they are equal, zero otherwise. -/
theorem indicator_val (l m : BitVec 32) :
    (FloatOps.sitofp (F := Ideal) .f32 ((IntOp.cmpi .eq l m).setWidth 32) : EReal) = if l = m then 1 else 0 := by
  by_cases h : l = m
  · subst h
    rw [if_pos rfl]
    have : (IntOp.cmpi .eq l l).setWidth 32 = 1#32 := by simp [IntOp.cmpi]
    rw [this]
    show (((1#32 : BitVec 32).toInt : ℝ) : EReal) = 1
    norm_num
  · rw [if_neg h]
    have hb : (l == m) = false := by simpa using h
    have : (IntOp.cmpi .eq l m).setWidth 32 = 0#32 := by simp [IntOp.cmpi, hb]
    rw [this]
    show (((0#32 : BitVec 32).toInt : ℝ) : EReal) = 0
    norm_num

/-! ## The product of a 2048 × 101 matrix with a 101 × 512 matrix, read at an entry -/

theorem lhs_mm_0 (i : S2048x512.Idx) (q : dot_S2048x101_S101x512_S2048x512_1_0_0_1_n_n.contr.Idx) :
    (dot_S2048x101_S101x512_S2048x512_1_0_0_1_n_n.lhsIdx i q 0).val = (i 0).val := by
  unfold DotDims.lhsIdx
  rw [dif_neg (show ¬(0 : Fin S2048x101.rank) ∈ dot_S2048x101_S101x512_S2048x512_1_0_0_1_n_n.lhsBatch by decide), dif_pos (show (0 : Fin S2048x101.rank) ∈ dot_S2048x101_S101x512_S2048x512_1_0_0_1_n_n.lhsNonContracting by decide)]
  rfl
theorem lhs_mm_1 (i : S2048x512.Idx) (q : dot_S2048x101_S101x512_S2048x512_1_0_0_1_n_n.contr.Idx) :
    (dot_S2048x101_S101x512_S2048x512_1_0_0_1_n_n.lhsIdx i q 1).val = (q ⟨0, by decide⟩).val :=
  dot_S2048x101_S101x512_S2048x512_1_0_0_1_n_n.lhsIdx_val_of_single rfl i q
theorem rhs_mm_0 (i : S2048x512.Idx) (q : dot_S2048x101_S101x512_S2048x512_1_0_0_1_n_n.contr.Idx) :
    (dot_S2048x101_S101x512_S2048x512_1_0_0_1_n_n.rhsIdx i q 0).val = (q ⟨0, by decide⟩).val :=
  dot_S2048x101_S101x512_S2048x512_1_0_0_1_n_n.rhsIdx_val_of_single rfl i q
theorem rhs_mm_1 (i : S2048x512.Idx) (q : dot_S2048x101_S101x512_S2048x512_1_0_0_1_n_n.contr.Idx) :
    (dot_S2048x101_S101x512_S2048x512_1_0_0_1_n_n.rhsIdx i q 1).val = (i 1).val := by
  unfold DotDims.rhsIdx
  rw [dif_neg (show ¬(1 : Fin S101x512.rank) ∈ dot_S2048x101_S101x512_S2048x512_1_0_0_1_n_n.rhsBatch by decide), dif_pos (show (1 : Fin S101x512.rank) ∈ dot_S2048x101_S101x512_S2048x512_1_0_0_1_n_n.rhsNonContracting by decide)]
  rfl

/-- Entry (r, d) of the product, accumulated into zero, is the sum over the 101 inner coordinates of the products
    of the entries. -/
theorem mm_apply (lhs : FVec Ideal S2048x101 .bf16) (rhs : FVec Ideal S101x512 .bf16) (r : Fin 2048) (d : Fin 512) :
    matmul dot_S2048x101_S101x512_S2048x512_1_0_0_1_n_n none lhs rhs (constant (F := Ideal) S2048x512 .f32 0x00000000#32) (ix2 r d)
      = ∑ n : Fin 101, lhs (ix2 r n) * rhs (ix2 n d) := by
  simp only [matmul]
  rw [Ideal.matmul_constant_zero_apply, ← Equiv.sum_comp (contrEquiv1 dot_S2048x101_S101x512_S2048x512_1_0_0_1_n_n 101 rfl rfl).symm]
  refine Finset.sum_congr rfl fun k _ => ?_
  have hk := contrEquiv1_symm_val dot_S2048x101_S101x512_S2048x512_1_0_0_1_n_n 101 rfl rfl k
  have el : dot_S2048x101_S101x512_S2048x512_1_0_0_1_n_n.lhsIdx (ix2 r d) ((contrEquiv1 dot_S2048x101_S101x512_S2048x512_1_0_0_1_n_n 101 rfl rfl).symm k) = ix2 r k := funext fun a => Fin.ext (by
    match a with
    | ⟨0, _⟩ => exact lhs_mm_0 _ _
    | ⟨1, _⟩ => exact (lhs_mm_1 _ _).trans hk)
  have er : dot_S2048x101_S101x512_S2048x512_1_0_0_1_n_n.rhsIdx (ix2 r d) ((contrEquiv1 dot_S2048x101_S101x512_S2048x512_1_0_0_1_n_n 101 rfl rfl).symm k) = ix2 k d := funext fun a => Fin.ext (by
    match a with
    | ⟨0, _⟩ => exact (rhs_mm_0 _ _).trans hk
    | ⟨1, _⟩ => exact rhs_mm_1 _ _)
  rw [el, er]

/-! ## Selecting a row of the centers by a product with the zero-one matrix -/

/-- Entry (r, n) of the zero-one matrix: one exactly when row r's label is the word of n. -/
theorem onehot_apply (v8 : IVec S1x2048 32) (h1 : S1x2048.ShapeCasts S1x2048) (h2 : S1x2048.Transposes [1, 0] S2048x1)
    (h3 : S2048x1.Broadcasts S2048x101) (h4 : S2048x101.Iotas .tc 32 [1]) (h5 : 1 < 32) (h6 : FTy.bits .bf16 < FTy.bits .f32)
    (r : Fin 2048) (n : Fin 101) :
    (truncf (F := Ideal) .bf16 (sitofp .f32 (extui 32 (cmpi .eq
        (broadcastTo S2048x101 (transpose S2048x1 [1, 0] (shapeCast S1x2048 v8 h1) h2) h3)
        (iota .tc S2048x101 32 [1] h4)) h5)) h6 : FVec Ideal S2048x101 .bf16) (ix2 r n)
      = if v8 (ix2 0 r) = BitVec.ofNat 32 n.val then 1 else 0 := by
  show (FloatOps.sitofp (F := Ideal) .f32 ((IntOp.cmpi .eq
      (broadcastTo S2048x101 (transpose S2048x1 [1, 0] (shapeCast S1x2048 v8 h1) h2) h3 (ix2 r n))
      (iota .tc S2048x101 32 [1] h4 (ix2 r n))).setWidth 32) : EReal) = _
  rw [labels_apply, iota_apply, indicator_val]

/-- A sum against the indicator of one coordinate is that coordinate's term: zero times any extended real is zero and
    one times it is itself. -/
theorem sum_indicator (l : BitVec 32) (hl : l.toNat < 101) (w : Fin 101 → EReal) :
    ∑ n : Fin 101, (if l = BitVec.ofNat 32 n.val then (1 : EReal) else 0) * w n = w ⟨l.toNat, hl⟩ := by
  rw [Finset.sum_eq_single (⟨l.toNat, hl⟩ : Fin 101)]
  · rw [if_pos (by simp), one_mul]
  · intro n _ hn
    rw [if_neg, zero_mul]
    intro h
    apply hn
    apply Fin.ext
    have h' := congrArg BitVec.toNat h
    rw [BitVec.toNat_ofNat] at h'
    have := n.isLt
    show n.val = l.toNat
    omega
  · intro h; exact absurd (Finset.mem_univ _) h

/-- The product of a zero-one matrix whose row r marks the coordinate of the word l with a 101 × 512 matrix reads,
    at (r, d), the second matrix at (l, d). -/
theorem select_apply (oh : FVec Ideal S2048x101 .bf16) (w : FVec Ideal S101x512 .bf16) (l : BitVec 32) (hl : l.toNat < 101)
    (r : Fin 2048) (d : Fin 512) (hoh : ∀ n : Fin 101, oh (ix2 r n) = if l = BitVec.ofNat 32 n.val then 1 else 0) :
    matmul dot_S2048x101_S101x512_S2048x512_1_0_0_1_n_n none oh w (constant (F := Ideal) S2048x512 .f32 0x00000000#32) (ix2 r d)
      = w (ix2 ⟨l.toNat, hl⟩ d) := by
  rw [mm_apply]
  rw [Finset.sum_congr rfl fun n _ => by rw [hoh n]]
  exact sum_indicator l hl fun n => w (ix2 n d)

/-! ## The sums: along the 512 columns of each row, then over the 2048 rows -/

/-- The two reductions and the casts between them read, at the one cell, the double sum over rows and columns. -/
theorem total_apply (v : FVec Ideal S2048x512 .f32) (h1 : S2048x512.Reduces [1] S2048) (hφ1 : FKind.Formats .f32)
    (hacc1 : (0x00000000#32 : BitVec 32) = FKind.add.neutral .f32 hφ1) (h2 : S2048.ShapeCasts S2048x1)
    (h3 : S2048x1.Reduces [0] S1) (hφ3 : FKind.Formats .f32) (hacc3 : (0x00000000#32 : BitVec 32) = FKind.add.neutral .f32 hφ3)
    (h4 : S1.ShapeCasts S1x1) :
    shapeCast S1x1 (multiReduction (F := Ideal) .add [0] S1
        (shapeCast S2048x1 (multiReduction (F := Ideal) .add [1] S2048 v 0x00000000#32 h1 hφ1 hacc1) h2)
        0x00000000#32 h3 hφ3 hacc3) h4 (ix2 0 0)
      = ∑ r : Fin 2048, ∑ d : Fin 512, v (ix2 r d) := by
  refine (shapeCast_a_1a_apply _ h4 (0 : Fin 1) (0 : Fin 1)).trans ?_
  refine (Ideal.multiReduction_add_single _ 0x00000000#32 h3 hφ3 hacc3 (ix1 (0 : Fin 1))).trans ?_
  refine Finset.sum_congr rfl fun r _ => ?_
  have e : h3.lift (ix1 (0 : Fin 1)) r = ix2 r (0 : Fin 1) := funext fun a => Fin.ext (by
    match a with
    | ⟨0, _⟩ => rfl
    | ⟨1, _⟩ => rfl)
  rw [e]
  refine (shapeCast_apply _ h2 (ix2 r (0 : Fin 1)) (ix1 r) (by
    rw [Shape.rowMajor_val_two, Shape.rowMajor_val_one]
    show r.val = r.val * 1 + 0
    omega)).trans ?_
  refine (Ideal.multiReduction_add_single v 0x00000000#32 h1 hφ1 hacc1 (ix1 r)).trans ?_
  refine Finset.sum_congr rfl fun d _ => congrArg v (funext fun a => Fin.ext (by
    match a with
    | ⟨0, _⟩ => rfl
    | ⟨1, _⟩ => rfl))

/-! ## One block's step -/

/-- A 1 × 1 array has one index. -/
theorem cell_eq (j : S1x1.Idx) : j = ix2 (0 : Fin 1) (0 : Fin 1) :=
  funext fun a => Fin.ext (by
    match a with
    | ⟨0, _⟩ => have := idx2_lt0 j; show (j 0).val = 0; omega
    | ⟨1, _⟩ => have := idx2_lt1 j; show (j 1).val = 0; omega)

/-- The two products added: at (r, d) the row of the centers that the word l selects, at column d. The second product
    is against the centers minus themselves, zero at every entry because every center is a real number. -/
theorem gathered_apply (v3 : FVec Ideal S101x512 .f32) (oh : FVec Ideal S2048x101 .bf16) (h6 : FTy.bits .bf16 < FTy.bits .f32)
    (hfin : ∀ i, v3 i ≠ ⊥ ∧ v3 i ≠ ⊤) (l : BitVec 32) (hl : l.toNat < 101) (r : Fin 2048) (d : Fin 512)
    (hoh : ∀ n : Fin 101, oh (ix2 r n) = if l = BitVec.ofNat 32 n.val then 1 else 0) :
    addf (matmul dot_S2048x101_S101x512_S2048x512_1_0_0_1_n_n none oh (truncf (F := Ideal) .bf16 v3 h6) (constant (F := Ideal) S2048x512 .f32 0x00000000#32))
        (matmul dot_S2048x101_S101x512_S2048x512_1_0_0_1_n_n none oh (truncf (F := Ideal) .bf16 (subf v3 v3) h6) (constant (F := Ideal) S2048x512 .f32 0x00000000#32))
        (ix2 r d)
      = v3 (ix2 ⟨l.toNat, hl⟩ d) := by
  rw [addf_apply, select_apply oh _ l hl r d hoh, select_apply oh _ l hl r d hoh, truncf_apply, truncf_apply, subf_apply,
    EReal.sub_self (hfin _).2 (hfin _).1, add_zero]

/-- The stored cell after one block: the running sum plus, over the block's rows and columns, the squared difference
    of the embedding and the center its row's label selects. -/
theorem pay2_apply (v3 : Vec Ideal S101x512 .f32) (v8 : Vec Ideal S1x2048 .i32) (v20 : Vec Ideal S2048x512 .f32) (v27 : Vec Ideal S1x1 .f32)
    (hfin : ∀ i, v3 i ≠ ⊥ ∧ v3 i ≠ ⊤) (hlab : ∀ r : Fin 2048, (v8 (ix2 0 r)).toNat < 101) (j : S1x1.Idx) :
    k0_pay2 (F := Ideal) v3 v8 v20 v27 j
      = v27 (ix2 0 0) + ∑ r : Fin 2048, ∑ d : Fin 512,
          (v20 (ix2 r d) - v3 (ix2 ⟨(v8 (ix2 0 r)).toNat, hlab r⟩ d)) * (v20 (ix2 r d) - v3 (ix2 ⟨(v8 (ix2 0 r)).toNat, hlab r⟩ d)) := by
  rw [cell_eq j]
  unfold k0_pay2
  rw [shapeCast_self (s := S1x1)]
  refine (addf_apply _ _ _).trans ?_
  refine congrArg (v27 (ix2 0 0) + ·) ?_
  refine (total_apply _ _ _ _ _ _ _ _ _).trans ?_
  refine Finset.sum_congr rfl fun r _ => Finset.sum_congr rfl fun d _ => ?_
  rw [mulf_apply, subf_apply,
    gathered_apply v3 _ _ hfin (v8 (ix2 0 r)) (hlab r) r d (fun n => onehot_apply v8 _ _ _ _ _ _ r n)]

end Cert.KernelIdeal.PayValue

end
-- ==== Proof.Step.lean ====
/-
  One block, and the running sum.

  A block of 2048 rows holds the samples `p * 2048 + r`; the label word of a row is the word of the center row its
  label selects, so reading the centers at that word's unsigned value reads the selected center, and the block's double
  sum over rows and coordinates of the squared differences is the block's part of the whole. A sequence that starts
  again at the blocks 0 and 32 from zero plus the block's part, and elsewhere adds the block's part to its previous
  value, is the running sum.
-/
import proofs.«429582_j39891656245569_3_alg».proof.Proof.Spec
import Idealize.ShloMosaic.Lib.ValueIdx
import Idealize.ShloMosaic.PureOps.Ideal

open scoped BigOperators

namespace Cert.Step

open Idealize.ShloMosaic Idealize.ShloMosaic.ValueIdx Cert.Spec

variable (emb : SE.Idx → EReal) (cen : SC.Idx → EReal) (lab : SLab.Idx → BitVec 32)

/-- The word of a row of the centers, read unsigned, is the row. -/
theorem toNat_row (c : Fin 101) : (BitVec.ofNat 32 c.val).toNat = c.val := by
  rw [BitVec.toNat_ofNat]
  exact Nat.mod_eq_of_lt (by have := c.isLt; omega)

/-- The label words of a block are below 101. -/
theorem lab_lt (p : Fin 64) (x1 : (⟨2, ![1, 2048]⟩ : Shape).Idx → BitVec 32)
    (h1 : ∀ r : Fin 2048, x1 (ix2 0 r) = BitVec.ofNat 32 (rowOf (lab (ix1 (rowAt p r)))).val) :
    ∀ r : Fin 2048, (x1 (ix2 0 r)).toNat < 101 := by
  intro r
  rw [h1 r, toNat_row]
  exact (rowOf (lab (ix1 (rowAt p r)))).isLt

/-- One block's double sum is the block's part: the block's rows are the samples p*2048 + r, its label words are the clamped rows as 32-bit words. -/
theorem block_sum_eq (p : Fin 64)
    (x0 : (⟨2, ![2048, 512]⟩ : Shape).Idx → EReal) (x1 : (⟨2, ![1, 2048]⟩ : Shape).Idx → BitVec 32) (x2 : SC.Idx → EReal)
    (h0 : ∀ (r : Fin 2048) (d : Fin 512), x0 (ix2 r d) = emb (ix2 (rowAt p r) d))
    (h1 : ∀ r : Fin 2048, x1 (ix2 0 r) = BitVec.ofNat 32 (rowOf (lab (ix1 (rowAt p r)))).val)
    (h2 : x2 = cen) (hlab : ∀ r : Fin 2048, (x1 (ix2 0 r)).toNat < 101) :
    (∑ r : Fin 2048, ∑ d : Fin 512, (x0 (ix2 r d) - x2 (ix2 ⟨(x1 (ix2 0 r)).toNat, hlab r⟩ d)) * (x0 (ix2 r d) - x2 (ix2 ⟨(x1 (ix2 0 r)).toNat, hlab r⟩ d)))
      = part emb cen lab p := by
  unfold part rowSq
  refine Finset.sum_congr rfl fun r _ => Finset.sum_congr rfl fun d _ => ?_
  -- the row the label word selects
  have hrow : (⟨(x1 (ix2 0 r)).toNat, hlab r⟩ : Fin 101) = rowOf (lab (ix1 (rowAt p r))) := by
    apply Fin.ext
    show (x1 (ix2 0 r)).toNat = _
    rw [h1 r, toNat_row]
  rw [hrow, h0 r d, h2]

/-- A sequence that restarts at the multiples of 32 with zero plus the block's part, and otherwise adds the block's part to its previous value, is the running sum. -/
theorem acc_of_steps (s : (n : ℕ) → n < 64 → EReal)
    (hA : ∀ n (h : n < 64), n % 32 = 0 → s n h = 0 + part emb cen lab ⟨n, h⟩)
    (hB : ∀ n (h : n < 64), ¬ n % 32 = 0 → s n h = s (n - 1) (by omega) + part emb cen lab ⟨n, h⟩) :
    ∀ n (h : n < 64), s n h = accN emb cen lab n h := by
  intro n
  induction n with
  | zero =>
    intro h
    rw [hA 0 h rfl, zero_add, accN_reset emb cen lab 0 h rfl]
  | succ m ih =>
    intro h
    by_cases hm : (m + 1) % 32 = 0
    · rw [hA (m + 1) h hm, zero_add, accN_reset emb cen lab (m + 1) h hm]
    · rw [hB (m + 1) h hm, accN_step emb cen lab (m + 1) h hm]
      exact congrArg (· + part emb cen lab ⟨m + 1, h⟩) (ih (by omega))

end Cert.Step
-- ==== Proof.KI.Invariant.lean ====
/-
  The running sum, point by point. On the blocks of grid point `t` the body's sum payload is the cell's value when
  the sum is taken plus the squared distances of block `t`'s 2048 samples (`part t`): the one-hot product picks, for
  each row, the center its clamped label names, and the second product (the centers minus themselves) vanishes
  because the centers are finite. So the scratch cell after point `n` holds the running sum `accN n`, which restarts
  at the points 0 and 32, and the output block written at the points 31 and 63 holds it too.
-/
import proofs.«429582_j39891656245569_3_alg».proof.Proof.KI.Pieces
import proofs.«429582_j39891656245569_3_alg».proof.Proof.KI.Blocks
import proofs.«429582_j39891656245569_3_alg».proof.Proof.KI.PayValue
import proofs.«429582_j39891656245569_3_alg».proof.Proof.Step

set_option maxRecDepth 16384

noncomputable section

namespace Cert.KernelIdeal.Inv

open Cert.KernelIdeal Cert.KernelIdeal.Gen Cert.KernelIdeal.Fr Cert.KernelIdeal.FrV
open Idealize.ShloMosaic Idealize.ShloMosaic.TcCoe Idealize.ShloMosaic.ValueIdx Idealize.SL.Sem

variable (m : (ℓ : Loc nD τ sig) → Buf (Elt Ideal) ℓ)

theorem lt64 {n : ℕ} (h : n < cfg0.N) : n < 64 := lt_of_lt_of_eq h N_0
theorem ltN {n : ℕ} (h : n < 64) : n < cfg0.N := lt_of_lt_of_eq h N_0.symm

/-- The running sum of the launch's arrays on core `c`. -/
abbrev acc (c : Dev nD) (n : ℕ) (h : n < 64) : EReal := Cert.Spec.accN (embA m c) (cenA m c) (labA m c) n h
/-- Block `n`'s part. -/
abbrev prt (c : Dev nD) (n : ℕ) (h : n < 64) : EReal := Cert.Spec.part (embA m c) (cenA m c) (labA m c) ⟨n, h⟩

/-- The three input blocks of point `t`, at their literal types. -/
abbrev blk0 (c : Dev nD) (t : Fin cfg0.N) : Vec Ideal S2048x512 .f32 := iblk m c 0 t
abbrev blk1 (c : Dev nD) (t : Fin cfg0.N) : Vec Ideal S1x2048 .i32 := iblk m c 1 t
abbrev blk2 (c : Dev nD) (t : Fin cfg0.N) : Vec Ideal S101x512 .f32 := iblk m c 2 t

/-- The sum payload on the blocks of point `t`, over a cell holding `xs`. -/
theorem pay2_at (c : Dev nD) (hfin : ∀ i, cenA m c i ≠ ⊥ ∧ cenA m c i ≠ ⊤) (t : Fin cfg0.N) (xs : Vec Ideal S1x1 .f32) :
    k0_pay2 (F := Ideal) (iblk m c 2 t) (iblk m c 1 t) (iblk m c 0 t) xs
      = fun _ => xs (ix2 0 0) + prt m c t.val (lt64 t.isLt) := by
  funext j
  show k0_pay2 (F := Ideal) (blk2 m c t) (blk1 m c t) (blk0 m c t) xs j = _
  have h1 : ∀ r : Fin 2048, blk1 m c t (ix2 0 r)
      = BitVec.ofNat 32 (Cert.Spec.rowOf (labA m c (ix1 (Cert.Spec.rowAt ⟨t.val, lt64 t.isLt⟩ r)))).val :=
    fun r => iblk1_apply m c t r
  have hlab := Cert.Step.lab_lt (labA m c) ⟨t.val, lt64 t.isLt⟩ (blk1 m c t) h1
  have e2 : blk2 m c t = cenA m c := iblk2_eq m c t
  have hf : ∀ i, blk2 m c t i ≠ ⊥ ∧ blk2 m c t i ≠ ⊤ := fun i => by rw [e2]; exact hfin i
  refine (Cert.KernelIdeal.PayValue.pay2_apply (blk2 m c t) (blk1 m c t) (blk0 m c t) xs hf hlab j).trans ?_
  refine congrArg (fun z => xs (ix2 0 0) + z) ?_
  exact Cert.Step.block_sum_eq (embA m c) (cenA m c) (labA m c) ⟨t.val, lt64 t.isLt⟩ (blk0 m c t) (blk1 m c t) (blk2 m c t)
    (fun r d => iblk0_apply m c t r d) h1 e2 hlab

/-- The cell after a point where the running sum restarts. -/
theorem cell_A (c : Dev nD) (hfin : ∀ i, cenA m c i ≠ ⊥ ∧ cenA m c i ≠ ⊤) (t : Fin cfg0.N) (h0 : t.val % 32 = 0) :
    (outsAt0 m c t.val t.isLt).2 = fun _ => 0 + prt m c t.val (lt64 t.isLt) := by
  have h1 : ¬t.val % 32 = 31 := by omega
  rw [outsAt0_A m c t h0 h1]
  dsimp only
  rw [Cert.KernelIdeal.Pieces.sout_A, pay2_at m c hfin t]
  funext j
  rw [Cert.KernelIdeal.PayValue.pay1_apply]

/-- The cell after any other point. -/
theorem cell_BC (c : Dev nD) (hfin : ∀ i, cenA m c i ≠ ⊥ ∧ cenA m c i ≠ ⊤) (t : Fin cfg0.N) (h0 : ¬t.val % 32 = 0) :
    (outsAt0 m c t.val t.isLt).2
      = fun _ => (outsAt0 m c (t.val - 1) (Nat.lt_of_le_of_lt (Nat.sub_le _ _) t.isLt)).2 (ix2 0 0) + prt m c t.val (lt64 t.isLt) := by
  by_cases h1 : t.val % 32 = 31
  · rw [outsAt0_C m c t h0 h1]
    dsimp only
    rw [Cert.KernelIdeal.Pieces.sout_C, pay2_at m c hfin t]
  · rw [outsAt0_B m c t h0 h1]
    dsimp only
    rw [Cert.KernelIdeal.Pieces.sout_B, pay2_at m c hfin t]

/-- The scratch cell after point `n` holds the running sum. -/
theorem cell_eq (c : Dev nD) (hfin : ∀ i, cenA m c i ≠ ⊥ ∧ cenA m c i ≠ ⊤) (n : ℕ) (h : n < 64) :
    (outsAt0 m c n (ltN h)).2 (ix2 0 0) = acc m c n h :=
  Cert.Step.acc_of_steps (embA m c) (cenA m c) (labA m c) (fun n h => (outsAt0 m c n (ltN h)).2 (ix2 0 0))
    (fun n h hn => congrFun (cell_A m c hfin ⟨n, ltN h⟩ hn) (ix2 0 0))
    (fun n h hn => congrFun (cell_BC m c hfin ⟨n, ltN h⟩ hn) (ix2 0 0)) n h

/-- The output block written at a point with second coordinate 31 holds the running sum there. -/
theorem out_eq (c : Dev nD) (hfin : ∀ i, cenA m c i ≠ ⊥ ∧ cenA m c i ≠ ⊤) (t : Fin cfg0.N) (h1 : t.val % 32 = 31) :
    (outsAt0 m c t.val t.isLt).1 = fun _ => acc m c t.val (lt64 t.isLt) := by
  have h0 : ¬t.val % 32 = 0 := by omega
  have hc := cell_eq m c hfin t.val (lt64 t.isLt)
  rw [cell_BC m c hfin t h0] at hc
  rw [outsAt0_C m c t h0 h1]
  dsimp only
  rw [Cert.KernelIdeal.Pieces.out_C, pay2_at m c hfin t]
  funext j
  rw [Cert.KernelIdeal.PayValue.pay3_apply]
  exact hc

end Cert.KernelIdeal.Inv

end
-- ==== Proof.KI.Final.lean ====
/-
  The end of the idealized kernel's run. The output array has 16 rows of 128 lanes in two blocks of 8 rows; block 0
  is written back once, after grid point 31, and block 1 once, after grid point 63, each holding one number in every
  place (the running sum of its half of the samples). So the array ends with the first number in rows 0 to 7 and the
  second in rows 8 to 15. The operations after the region read the centers (an input, unchanged) and the places
  (0, 0) and (8, 0) of the output array; their result is the margin term plus the mean of the two numbers' sum.
-/
import proofs.«429582_j39891656245569_3_alg».proof.Proof.KI.Frame
import proofs.«429582_j39891656245569_3_alg».proof.Proof.Gen.KernelIdeal.Points
import proofs.«429582_j39891656245569_3_alg».proof.Proof.Spec
import Idealize.ShloMosaic.Lib.Pipeline.Value
import Idealize.ShloMosaic.Lib.Pipeline.FrameSuffix
import Idealize.ShloMosaic.Lib.Pipeline.Frame
import Idealize.ShloMosaic.Lib.ValueIdx

set_option maxRecDepth 16384

noncomputable section

namespace Cert.KernelIdeal.Final

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The output array after the region -/

/-- An array of 16 rows holding one number in rows 0 to 7 and another in rows 8 to 15. -/
abbrev halves (g31 g63 : EReal) : FVec Ideal S16x128 .f32 := fun i => if (i 0).val < 8 then g31 else g63

theorem halves_0 (g31 g63 : EReal) : halves g31 g63 (ix2 0 0) = g31 := if_pos (by decide)
theorem halves_8 (g31 g63 : EReal) : halves g31 g63 (ix2 8 0) = g63 := if_neg (by decide)

/-- The grid has 64 points. -/
theorem N64 : cfg0.N = 64 := N_0

/-- The last point of the first half of the grid. -/
abbrev t31 : Fin cfg0.N := ⟨31, by rw [N64]; decide⟩
/-- The last point of the grid. -/
abbrev t63 : Fin cfg0.N := ⟨63, by rw [N64]; decide⟩

/-- Where the output's block lies at each grid point: rows `8 * (t / 32)` to `8 * (t / 32) + 7`, all 128 lanes. -/
theorem blk3_facts : ∀ t : Fin cfg0.N,
    win0_3.index t 0 * win0_3.size 0 = 8 * (t.val / 32) ∧ win0_3.xsize (grid0.coords t) 0 = 8
      ∧ win0_3.index t 1 * win0_3.size 1 = 0 ∧ win0_3.xsize (grid0.coords t) 1 = 128 :=
  (by decide +kernel : ∀ t : Fin grid0.N,
    win0_3.index t 0 * win0_3.size 0 = 8 * (t.val / 32) ∧ win0_3.xsize (grid0.coords t) 0 = 8
      ∧ win0_3.index t 1 * win0_3.size 1 = 0 ∧ win0_3.xsize (grid0.coords t) 1 = 128)

/-- A place of the array is in the block of point `t` exactly when its row is one of the block's eight. -/
theorem mem_blk3 (t : Fin cfg0.N) (i : S16x128.Idx) :
    i ∈ ((View.whole main_call0_v2).slice (win0_3.rect t)).set
      ↔ 8 * (t.val / 32) ≤ (i 0).val ∧ (i 0).val < 8 * (t.val / 32) + 8 := by
  rw [View.set_slice_whole, Rect.mem_set_unit]
  obtain ⟨e0, e1, e2, e3⟩ := blk3_facts t
  have h1 : (i 1 : Nat) < 128 := (i 1).isLt
  constructor
  · intro h
    have h0 : win0_3.index t 0 * win0_3.size 0 ≤ (i 0 : Nat)
        ∧ (i 0 : Nat) < win0_3.index t 0 * win0_3.size 0 + win0_3.xsize (grid0.coords t) 0 := h 0
    rw [e0, e1] at h0
    exact h0
  · intro h a
    match a with
    | ⟨0, _⟩ =>
      show win0_3.index t 0 * win0_3.size 0 ≤ (i 0 : Nat)
        ∧ (i 0 : Nat) < win0_3.index t 0 * win0_3.size 0 + win0_3.xsize (grid0.coords t) 0
      rw [e0, e1]; exact h
    | ⟨1, _⟩ =>
      show win0_3.index t 1 * win0_3.size 1 ≤ (i 1 : Nat)
        ∧ (i 1 : Nat) < win0_3.index t 1 * win0_3.size 1 + win0_3.xsize (grid0.coords t) 1
      rw [e2, e3]; omega

/-- What a point that writes the block back writes is its block of the two-halves array. -/
theorem flushed3_eq (c : Dev nD) (g31 g63 : EReal)
    (h31 : ∀ (t : Fin cfg0.N), t.val = 31 → (outsAt0 m c t.val t.isLt).1 = fun _ => g31)
    (h63 : ∀ (t : Fin cfg0.N), t.val = 63 → (outsAt0 m c t.val t.isLt).1 = fun _ => g63)
    (t : Fin cfg0.N) (hf : (cfg0.win 3).flush t = true) :
    (dats m 0 c).flushed 3 t = ((cfg0.win 3).blk t).view.read (Elt Ideal) (halves g31 g63) := by
  have hN : cfg0.N = 64 := N64
  have hm : t.val % 32 = 31 := (flush0_3 t).mp hf
  have hlt : t.val < 64 := lt_of_lt_of_eq t.isLt hN
  show (cfg0.win 3).cut (grid0.coords t) ((dats m 0 c).after 3 t) = _
  rw [after0_3]
  funext x
  have hmem : ((cfg0.win 3).blk t).view.emb x ∈ ((View.whole main_call0_v2).slice (win0_3.rect t)).set :=
    ((cfg0.win 3).blk t).view.emb_mem_set x
  rw [mem_blk3] at hmem
  rcases (by omega : t.val = 31 ∨ t.val = 63) with h | h
  · rw [h31 t h]
    show g31 = halves g31 g63 (((cfg0.win 3).blk t).view.emb x)
    exact (if_pos (by rw [h] at hmem; omega)).symm
  · rw [h63 t h]
    show g63 = halves g31 g63 (((cfg0.win 3).blk t).view.emb x)
    exact (if_neg (by rw [h] at hmem; omega)).symm

/-- Every place of the array is in the block of point 31 or of point 63, and both are written back. -/
theorem cover3 (i : S16x128.Idx) :
    ∃ t : Fin cfg0.N, (cfg0.win 3).flush t = true ∧ i ∈ ((cfg0.win 3).blk t).view.set := by
  have h0 : (i 0 : Nat) < 16 := (i 0).isLt
  by_cases h : (i 0).val < 8
  · refine ⟨t31, (flush0_3 t31).mpr (by decide), ?_⟩
    show i ∈ ((View.whole main_call0_v2).slice (win0_3.rect t31)).set
    rw [mem_blk3]
    show 8 * (31 / 32) ≤ (i 0).val ∧ (i 0).val < 8 * (31 / 32) + 8
    omega
  · refine ⟨t63, (flush0_3 t63).mpr (by decide), ?_⟩
    show i ∈ ((View.whole main_call0_v2).slice (win0_3.rect t63)).set
    rw [mem_blk3]
    show 8 * (63 / 32) ≤ (i 0).val ∧ (i 0).val < 8 * (63 / 32) + 8
    omega

/-- The output array after the region: what point 31 left in rows 0 to 7, what point 63 left in rows 8 to 15. -/
theorem final3 (c : Dev nD) (g31 g63 : EReal)
    (h31 : ∀ (t : Fin cfg0.N), t.val = 31 → (outsAt0 m c t.val t.isLt).1 = fun _ => g31)
    (h63 : ∀ (t : Fin cfg0.N), t.val = 63 → (outsAt0 m c t.val t.isLt).1 = fun _ => g63) :
    (dats m 0 c).arrAt 3 cfg0.N = (fun i => if (i 0).val < 8 then g31 else g63 : FVec Ideal S16x128 .f32) :=
  (dats m 0 c).arrAt_eq_of_cover 3 (halves g31 g63) (flushed3_eq m c g31 g63 h31 h63) cover3

/-! ## What the operations after the region read -/

/-- The centers, an input of the region, are as launched. -/
theorem tailInput_arg1 (c : Dev nD) :
    Pipeline.withArrays spec0 c (V0 m c) (fun w => (dats m 0 c).arrAt w cfg0.N) (Proc.devRef .tc main_arg1)
      = m ((c : Thread nD τ).loc main_arg1) :=
  (Pipeline.withArrays_arr spec0 launch0.win.arr_inj c (V0 m c) (fun w => (dats m 0 c).arrAt w cfg0.N) 2).trans
    (((dats m 0 c).arrAt_in 2 rfl _).trans ((A_eq m c 2).trans (V_main_arg1 m c)))

/-- The output array is as the region left it. -/
theorem tailInput_out (c : Dev nD) :
    Pipeline.withArrays spec0 c (V0 m c) (fun w => (dats m 0 c).arrAt w cfg0.N) (Proc.devRef .tc main_call0_v2)
      = (dats m 0 c).arrAt 3 cfg0.N :=
  Pipeline.withArrays_arr spec0 launch0.win.arr_inj c (V0 m c) (fun w => (dats m 0 c).arrAt w cfg0.N) 3

/-- A list of one list, flattened, is that list. -/
theorem flatten_one {α : Type} (l : List α) : List.flatten [l] = l := by
  simp only [List.flatten_cons, List.flatten_nil, List.append_nil]

/-! ## The run -/

/-- The result buffer after the operations that follow the region. -/
theorem tail_v0 (MK : FVec Ideal S101x512 .f32 → FVec Ideal S_ .f32) (c : Dev nD) (g31 g63 : EReal)
    (h31 : ∀ (t : Fin cfg0.N), t.val = 31 → (outsAt0 m c t.val t.isLt).1 = fun _ => g31)
    (h63 : ∀ (t : Fin cfg0.N), t.val = 63 → (outsAt0 m c t.val t.isLt).1 = fun _ => g63)
    (htail : ∀ W : Valuation τ sig (Elt Ideal), StableHlo.after (hostOps1 (F := Ideal)) W (Proc.devRef .tc main_v0)
      = Cert.Spec.finalOf (MK (W (Proc.devRef .tc main_arg1)))
          ((id (α := FVec Ideal S16x128 .f32) (W (Proc.devRef .tc main_call0_v2))) (ix2 0 0)
            + (id (α := FVec Ideal S16x128 .f32) (W (Proc.devRef .tc main_call0_v2))) (ix2 8 0))) :
    Pipeline.afterTail₀ cfgs (dats m) 0 (V0 m) [hostOps1] c main_v0
      = Cert.Spec.finalOf (MK (m ((c.tc : Thread nD τ).loc main_arg1))) (g31 + g63) := by
  show StableHlo.after (List.flatten [hostOps1 (F := Ideal)])
      (Pipeline.withArrays spec0 c (V0 m c) (fun w => (dats m 0 c).arrAt w cfg0.N)) (Proc.devRef .tc main_v0) = _
  rw [flatten_one, htail, tailInput_arg1 m c, tailInput_out m c, final3 m c g31 g63 h31 h63]
  show Cert.Spec.finalOf (MK (m ((c.tc : Thread nD τ).loc main_arg1))) (halves g31 g63 (ix2 0 0) + halves g31 g63 (ix2 8 0)) = _
  rw [halves_0, halves_8]

/-- The program's run: the result is the margin term of the centers plus the mean of the two halves' sums, and the
    three arguments end as launched. -/
theorem result_of_run (MK : FVec Ideal S101x512 .f32 → FVec Ideal S_ .f32) (g31 g63 : Dev nD → EReal)
    (h31 : ∀ c (t : Fin cfg0.N), t.val = 31 → (outsAt0 m c t.val t.isLt).1 = fun _ => g31 c)
    (h63 : ∀ c (t : Fin cfg0.N), t.val = 63 → (outsAt0 m c t.val t.isLt).1 = fun _ => g63 c)
    (htail : ∀ W : Valuation τ sig (Elt Ideal), StableHlo.after (hostOps1 (F := Ideal)) W (Proc.devRef .tc main_v0)
      = Cert.Spec.finalOf (MK (W (Proc.devRef .tc main_arg1)))
          ((id (α := FVec Ideal S16x128 .f32) (W (Proc.devRef .tc main_call0_v2))) (ix2 0 0)
            + (id (α := FVec Ideal S16x128 .f32) (W (Proc.devRef .tc main_call0_v2))) (ix2 8 0))) :
    θ_run (defs (F := Ideal)) (onTc (τ := τ) (main (F := Ideal))) ⟨m, fun _ => 0, ρ⟩ (fun r => ∀ c : Dev nD,
      r.2.mem ((c.tc : Thread nD τ).loc main_v0)
          = Cert.Spec.finalOf (MK (m ((c.tc : Thread nD τ).loc main_arg1))) (g31 c + g63 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun _ h c =>
    ⟨((h c).2 main_v0 (Pipeline.mem_restRefs_of main_v0 (by decide) (by decide))).trans
        (tail_v0 m MK c (g31 c) (g63 c) (h31 c) (h63 c) htail),
     ((h c).1 0).trans (((dats m 0 c).arrAt_in 0 rfl _).trans ((A_eq m c 0).trans (V_main_arg0 m c))),
     ((h c).1 2).trans (((dats m 0 c).arrAt_in 2 rfl _).trans ((A_eq m c 2).trans (V_main_arg1 m c))),
     ((h c).2 main_arg2 (Pipeline.mem_restRefs_of main_arg2 (by decide) (by decide))).trans (W_main_arg2 m (dats m) c)⟩)
    (run_main m ρ)

end Cert.KernelIdeal.Final

end
-- ==== Proof.KI.Tail.lean ====
/-
  The host operations after the kernel's region, read as pure terms.

  The 119 operations fall into six stretches: the mean's numerator and divisor (the two running sums read off the
  output array, added, divided by 131072), the Gram matrix of the normalized centers with its masked diagonal, two
  gathers of an off-diagonal (each through a concatenated index table), the margin's reductions, and the final sum.
  Each stretch is read from arbitrary buffer contents as the composed term of its operations over the buffers it
  reads; the stretches are then chained. The margin term is the composition of the four middle stretches, a
  function of the centers only. At the extended reals the first stretch is the sum of the two entries divided by
  the constant 131072.
-/
import proofs.«429582_j39891656245569_3_alg».proof.Proof.Gen.KernelIdeal.Launch
import proofs.«429582_j39891656245569_3_alg».proof.Proof.Spec
import Idealize.ShloMosaic.Lib.StableHlo.Run
import Idealize.ShloMosaic.Lib.Pipeline.Frame
import Idealize.ShloMosaic.Lib.Pipeline.Value
import Idealize.ShloMosaic.Lib.IdealHost
import Idealize.ShloMosaic.PureOps.Ideal.Laws

set_option maxRecDepth 16384

open scoped BigOperators

noncomputable section

namespace Cert.KernelIdeal.Tail

open Cert.KernelIdeal Cert.KernelIdeal.Gen
open Idealize.ShloMosaic Idealize.ShloMosaic.TcCoe Idealize.ShloMosaic.StableHlo Idealize.ShloMosaic.ValueIdx

section Stretches

variable {F : FTy → Type} [FloatOps F]

/-- The first stretch: the output array re-laid as 2×8×128, its entries (·,0,0), their sum, the quotient by 131072. -/
abbrev opsA : List (HloOp τ sig (Elt F)) :=
  [ StableHlo.TRef.reshape (.of main_call0_v2 : StableHlo.TRef sig ⟨S16x128, .f32⟩) (.of main_call0_v3 : StableHlo.TRef sig ⟨S2x8x128, .f32⟩) rfl shapeCasts_S16x128_S2x8x128,
    StableHlo.TRef.unary (.of main_call0_v3 : StableHlo.TRef sig ⟨S2x8x128, .f32⟩) (.of main_call0_v4 : StableHlo.TRef sig ⟨S2x1x1, .f32⟩) (extractStridedSlice S2x1x1 ![0, 0, 0] · slices_S2x8x128_S2x1x1_0_0_0),
    StableHlo.TRef.reshape (.of main_call0_v4 : StableHlo.TRef sig ⟨S2x1x1, .f32⟩) (.of main_call0_v5 : StableHlo.TRef sig ⟨S2, .f32⟩) rfl shapeCasts_S2x1x1_S2,
    StableHlo.TRef.nullary (.of main_call0_cst : StableHlo.TRef sig ⟨S_, .f32⟩) (constant S_ .f32 0x00000000#32),
    StableHlo.TRef.binary (.of main_call0_v5 : StableHlo.TRef sig ⟨S2, .f32⟩) (.of main_call0_cst : StableHlo.TRef sig ⟨S_, .f32⟩) (.of main_call0_v6 : StableHlo.TRef sig ⟨S_, .f32⟩) (fun x v => Host.reduceAdd x v reducesTo_S2_S_d0 h_S_),
    StableHlo.TRef.nullary (.of main_call0_cst_1 : StableHlo.TRef sig ⟨S_, .f32⟩) (constant S_ .f32 0x48000000#32),
    StableHlo.TRef.binary (.of main_call0_v6 : StableHlo.TRef sig ⟨S_, .f32⟩) (.of main_call0_cst_1 : StableHlo.TRef sig ⟨S_, .f32⟩) (.of main_call0_v7 : StableHlo.TRef sig ⟨S_, .f32⟩) Host.divf ]
/-- The second stretch: the Gram matrix of the normalized centers, one minus it, plus a large constant on the diagonal. -/
abbrev opsB : List (HloOp τ sig (Elt F)) :=
  [ StableHlo.TRef.binary (.of main_arg1 : StableHlo.TRef sig ⟨S101x512, .f32⟩) (.of main_arg1 : StableHlo.TRef sig ⟨S101x512, .f32⟩) (.of main_call0_v8 : StableHlo.TRef sig ⟨S101x512, .f32⟩) mulf,
    StableHlo.TRef.nullary (.of main_call0_cst_2 : StableHlo.TRef sig ⟨S_, .f32⟩) (constant S_ .f32 0x00000000#32),
    StableHlo.TRef.binary (.of main_call0_v8 : StableHlo.TRef sig ⟨S101x512, .f32⟩) (.of main_call0_cst_2 : StableHlo.TRef sig ⟨S_, .f32⟩) (.of main_call0_v9 : StableHlo.TRef sig ⟨S101, .f32⟩) (fun x v => Host.reduceAdd x v reducesTo_S101x512_S101_d1 h_S_),
    StableHlo.TRef.unary (.of main_call0_v9 : StableHlo.TRef sig ⟨S101, .f32⟩) (.of main_call0_v10 : StableHlo.TRef sig ⟨S101x1, .f32⟩) (broadcastInDim S101x1 ![0] bcast_S101_S101x1_0),
    StableHlo.TRef.unary (.of main_call0_v10 : StableHlo.TRef sig ⟨S101x1, .f32⟩) (.of main_call0_v11 : StableHlo.TRef sig ⟨S101x1, .f32⟩) Host.sqrt,
    StableHlo.TRef.nullary (.of main_call0_cst_3 : StableHlo.TRef sig ⟨S_, .f32⟩) (constant S_ .f32 0x3DCCCCCD#32),
    StableHlo.TRef.unary (.of main_call0_cst_3 : StableHlo.TRef sig ⟨S_, .f32⟩) (.of main_call0_v12 : StableHlo.TRef sig ⟨S101x1, .f32⟩) (broadcastInDim S101x1 ![] bcast_S_S101x1),
    StableHlo.TRef.binary (.of main_call0_v11 : StableHlo.TRef sig ⟨S101x1, .f32⟩) (.of main_call0_v12 : StableHlo.TRef sig ⟨S101x1, .f32⟩) (.of main_call0_v13 : StableHlo.TRef sig ⟨S101x1, .f32⟩) maximumf,
    StableHlo.TRef.unary (.of main_call0_v13 : StableHlo.TRef sig ⟨S101x1, .f32⟩) (.of main_call0_v14 : StableHlo.TRef sig ⟨S101x512, .f32⟩) (broadcastInDim S101x512 ![0, 1] bcast_S101x1_S101x512_0_1),
    StableHlo.TRef.binary (.of main_arg1 : StableHlo.TRef sig ⟨S101x512, .f32⟩) (.of main_call0_v14 : StableHlo.TRef sig ⟨S101x512, .f32⟩) (.of main_call0_v15 : StableHlo.TRef sig ⟨S101x512, .f32⟩) Host.divf,
    StableHlo.TRef.unary (.of main_call0_v15 : StableHlo.TRef sig ⟨S101x512, .f32⟩) (.of main_call0_v16 : StableHlo.TRef sig ⟨S512x101, .f32⟩) (transpose S512x101 [1, 0] · transposes_S101x512_S512x101_1_0),
    StableHlo.TRef.binary (.of main_call0_v15 : StableHlo.TRef sig ⟨S101x512, .f32⟩) (.of main_call0_v16 : StableHlo.TRef sig ⟨S512x101, .f32⟩) (.of main_call0_v17 : StableHlo.TRef sig ⟨S101x101, .f32⟩) (fun l r => Host.dotGeneral dot_S101x512_S512x101_S101x101_1_0_0_1_n_n none l r),
    StableHlo.TRef.nullary (.of main_call0_cst_4 : StableHlo.TRef sig ⟨S_, .f32⟩) (constant S_ .f32 0x3F800000#32),
    StableHlo.TRef.unary (.of main_call0_cst_4 : StableHlo.TRef sig ⟨S_, .f32⟩) (.of main_call0_v18 : StableHlo.TRef sig ⟨S101x101, .f32⟩) (broadcastInDim S101x101 ![] bcast_S_S101x101),
    StableHlo.TRef.binary (.of main_call0_v18 : StableHlo.TRef sig ⟨S101x101, .f32⟩) (.of main_call0_v17 : StableHlo.TRef sig ⟨S101x101, .f32⟩) (.of main_call0_v19 : StableHlo.TRef sig ⟨S101x101, .f32⟩) subf,
    StableHlo.TRef.nullary (.of main_call0_v20 : StableHlo.TRef sig ⟨S101, .i32⟩) (iotaInDim S101 32 0),
    StableHlo.TRef.unary (.of main_call0_v20 : StableHlo.TRef sig ⟨S101, .i32⟩) (.of main_call0_v21 : StableHlo.TRef sig ⟨S101x1, .i32⟩) (broadcastInDim S101x1 ![0] bcast_S101_S101x1_0),
    StableHlo.TRef.unary (.of main_call0_v20 : StableHlo.TRef sig ⟨S101, .i32⟩) (.of main_call0_v22 : StableHlo.TRef sig ⟨S1x101, .i32⟩) (broadcastInDim S1x101 ![1] bcast_S101_S1x101_1),
    StableHlo.TRef.unary (.of main_call0_v21 : StableHlo.TRef sig ⟨S101x1, .i32⟩) (.of main_call0_v23 : StableHlo.TRef sig ⟨S101x101, .i32⟩) (broadcastInDim S101x101 ![0, 1] bcast_S101x1_S101x101_0_1),
    StableHlo.TRef.unary (.of main_call0_v22 : StableHlo.TRef sig ⟨S1x101, .i32⟩) (.of main_call0_v24 : StableHlo.TRef sig ⟨S101x101, .i32⟩) (broadcastInDim S101x101 ![0, 1] bcast_S1x101_S101x101_0_1),
    StableHlo.TRef.binary (.of main_call0_v23 : StableHlo.TRef sig ⟨S101x101, .i32⟩) (.of main_call0_v24 : StableHlo.TRef sig ⟨S101x101, .i32⟩) (.of main_call0_v25 : StableHlo.TRef sig ⟨S101x101, .i32⟩) subi,
    StableHlo.TRef.unary (.of main_call0_v25 : StableHlo.TRef sig ⟨S101x101, .i32⟩) (.of main_call0_v26 : StableHlo.TRef sig ⟨S101x101, .i32⟩) absi,
    StableHlo.TRef.nullary (.of main_call0_c_5 : StableHlo.TRef sig ⟨S_, .i32⟩) (constantI S_ 32 0#32),
    StableHlo.TRef.unary (.of main_call0_c_5 : StableHlo.TRef sig ⟨S_, .i32⟩) (.of main_call0_v27 : StableHlo.TRef sig ⟨S101x101, .i32⟩) (broadcastInDim S101x101 ![] bcast_S_S101x101),
    StableHlo.TRef.binary (.of main_call0_v26 : StableHlo.TRef sig ⟨S101x101, .i32⟩) (.of main_call0_v27 : StableHlo.TRef sig ⟨S101x101, .i32⟩) (.of main_call0_v28 : StableHlo.TRef sig ⟨S101x101, .i1⟩) (cmpi .eq),
    StableHlo.TRef.unary (.of main_call0_v28 : StableHlo.TRef sig ⟨S101x101, .i1⟩) (.of main_call0_v29 : StableHlo.TRef sig ⟨S101x101, .f32⟩) (uitofp .f32),
    StableHlo.TRef.nullary (.of main_call0_cst_6 : StableHlo.TRef sig ⟨S_, .f32⟩) (constant S_ .f32 0x4E6E6B28#32),
    StableHlo.TRef.unary (.of main_call0_cst_6 : StableHlo.TRef sig ⟨S_, .f32⟩) (.of main_call0_v30 : StableHlo.TRef sig ⟨S101x101, .f32⟩) (broadcastInDim S101x101 ![] bcast_S_S101x101),
    StableHlo.TRef.binary (.of main_call0_v30 : StableHlo.TRef sig ⟨S101x101, .f32⟩) (.of main_call0_v29 : StableHlo.TRef sig ⟨S101x101, .f32⟩) (.of main_call0_v31 : StableHlo.TRef sig ⟨S101x101, .f32⟩) mulf,
    StableHlo.TRef.unary (.of main_call0_v31 : StableHlo.TRef sig ⟨S101x101, .f32⟩) (.of main_call0_v32 : StableHlo.TRef sig ⟨S101x101, .f32⟩) id,
    StableHlo.TRef.binary (.of main_call0_v19 : StableHlo.TRef sig ⟨S101x101, .f32⟩) (.of main_call0_v32 : StableHlo.TRef sig ⟨S101x101, .f32⟩) (.of main_call0_v33 : StableHlo.TRef sig ⟨S101x101, .f32⟩) addf ]
/-- The third stretch: the entries (k+1, k) of that matrix, gathered through an index table. -/
abbrev opsC1 : List (HloOp τ sig (Elt F)) :=
  [ StableHlo.TRef.nullary (.of main_call0_call1_v0 : StableHlo.TRef sig ⟨S100, .i32⟩) (iotaInDim S100 32 0),
    StableHlo.TRef.nullary (.of main_call0_call1_v1 : StableHlo.TRef sig ⟨S100, .i32⟩) (iotaInDim S100 32 0),
    StableHlo.TRef.nullary (.of main_call0_call1_c : StableHlo.TRef sig ⟨S_, .i32⟩) (constantI S_ 32 1#32),
    StableHlo.TRef.unary (.of main_call0_call1_c : StableHlo.TRef sig ⟨S_, .i32⟩) (.of main_call0_call1_v2 : StableHlo.TRef sig ⟨S100, .i32⟩) (broadcastInDim S100 ![] bcast_S_S100),
    StableHlo.TRef.binary (.of main_call0_call1_v2 : StableHlo.TRef sig ⟨S100, .i32⟩) (.of main_call0_call1_v1 : StableHlo.TRef sig ⟨S100, .i32⟩) (.of main_call0_call1_v3 : StableHlo.TRef sig ⟨S100, .i32⟩) addi,
    StableHlo.TRef.nullary (.of main_call0_call1_c_0 : StableHlo.TRef sig ⟨S_, .i32⟩) (constantI S_ 32 0#32),
    StableHlo.TRef.unary (.of main_call0_call1_c_0 : StableHlo.TRef sig ⟨S_, .i32⟩) (.of main_call0_call1_v4 : StableHlo.TRef sig ⟨S100, .i32⟩) (broadcastInDim S100 ![] bcast_S_S100),
    StableHlo.TRef.binary (.of main_call0_call1_v3 : StableHlo.TRef sig ⟨S100, .i32⟩) (.of main_call0_call1_v4 : StableHlo.TRef sig ⟨S100, .i32⟩) (.of main_call0_call1_v5 : StableHlo.TRef sig ⟨S100, .i1⟩) (cmpi .slt),
    StableHlo.TRef.nullary (.of main_call0_call1_c_1 : StableHlo.TRef sig ⟨S_, .i32⟩) (constantI S_ 32 101#32),
    StableHlo.TRef.unary (.of main_call0_call1_c_1 : StableHlo.TRef sig ⟨S_, .i32⟩) (.of main_call0_call1_v6 : StableHlo.TRef sig ⟨S100, .i32⟩) (broadcastInDim S100 ![] bcast_S_S100),
    StableHlo.TRef.binary (.of main_call0_call1_v3 : StableHlo.TRef sig ⟨S100, .i32⟩) (.of main_call0_call1_v6 : StableHlo.TRef sig ⟨S100, .i32⟩) (.of main_call0_call1_v7 : StableHlo.TRef sig ⟨S100, .i32⟩) addi,
    StableHlo.TRef.ternary (.of main_call0_call1_v5 : StableHlo.TRef sig ⟨S100, .i1⟩) (.of main_call0_call1_v7 : StableHlo.TRef sig ⟨S100, .i32⟩) (.of main_call0_call1_v3 : StableHlo.TRef sig ⟨S100, .i32⟩) (.of main_call0_call1_v8 : StableHlo.TRef sig ⟨S100, .i32⟩) select,
    StableHlo.TRef.nullary (.of main_call0_call1_c_2 : StableHlo.TRef sig ⟨S_, .i32⟩) (constantI S_ 32 0#32),
    StableHlo.TRef.unary (.of main_call0_call1_c_2 : StableHlo.TRef sig ⟨S_, .i32⟩) (.of main_call0_call1_v9 : StableHlo.TRef sig ⟨S100, .i32⟩) (broadcastInDim S100 ![] bcast_S_S100),
    StableHlo.TRef.binary (.of main_call0_call1_v0 : StableHlo.TRef sig ⟨S100, .i32⟩) (.of main_call0_call1_v9 : StableHlo.TRef sig ⟨S100, .i32⟩) (.of main_call0_call1_v10 : StableHlo.TRef sig ⟨S100, .i1⟩) (cmpi .slt),
    StableHlo.TRef.nullary (.of main_call0_call1_c_3 : StableHlo.TRef sig ⟨S_, .i32⟩) (constantI S_ 32 101#32),
    StableHlo.TRef.unary (.of main_call0_call1_c_3 : StableHlo.TRef sig ⟨S_, .i32⟩) (.of main_call0_call1_v11 : StableHlo.TRef sig ⟨S100, .i32⟩) (broadcastInDim S100 ![] bcast_S_S100),
    StableHlo.TRef.binary (.of main_call0_call1_v0 : StableHlo.TRef sig ⟨S100, .i32⟩) (.of main_call0_call1_v11 : StableHlo.TRef sig ⟨S100, .i32⟩) (.of main_call0_call1_v12 : StableHlo.TRef sig ⟨S100, .i32⟩) addi,
    StableHlo.TRef.ternary (.of main_call0_call1_v10 : StableHlo.TRef sig ⟨S100, .i1⟩) (.of main_call0_call1_v12 : StableHlo.TRef sig ⟨S100, .i32⟩) (.of main_call0_call1_v0 : StableHlo.TRef sig ⟨S100, .i32⟩) (.of main_call0_call1_v13 : StableHlo.TRef sig ⟨S100, .i32⟩) select,
    StableHlo.TRef.unary (.of main_call0_call1_v8 : StableHlo.TRef sig ⟨S100, .i32⟩) (.of main_call0_call1_v14 : StableHlo.TRef sig ⟨S100x1, .i32⟩) (broadcastInDim S100x1 ![0] bcast_S100_S100x1_0),
    StableHlo.TRef.unary (.of main_call0_call1_v13 : StableHlo.TRef sig ⟨S100, .i32⟩) (.of main_call0_call1_v15 : StableHlo.TRef sig ⟨S100x1, .i32⟩) (broadcastInDim S100x1 ![0] bcast_S100_S100x1_0),
    StableHlo.TRef.binary (.of main_call0_call1_v14 : StableHlo.TRef sig ⟨S100x1, .i32⟩) (.of main_call0_call1_v15 : StableHlo.TRef sig ⟨S100x1, .i32⟩) (.of main_call0_call1_v16 : StableHlo.TRef sig ⟨S100x2, .i32⟩) (fun a b => concatenate S100x2 1 [⟨S100x1, a⟩, ⟨S100x1, b⟩] concatenates_S100x1_S100x1_S100x2_d1),
    StableHlo.TRef.binary (.of main_call0_v33 : StableHlo.TRef sig ⟨S101x101, .f32⟩) (.of main_call0_call1_v16 : StableHlo.TRef sig ⟨S100x2, .i32⟩) (.of main_call0_v34 : StableHlo.TRef sig ⟨S100, .f32⟩) (fun x i => Host.gather gather_S101x101_S100x2_S100_n_01_n_n_01_1_11 x i) ]
/-- The fourth stretch: the entries (k, k+1), likewise. -/
abbrev opsC2 : List (HloOp τ sig (Elt F)) :=
  [ StableHlo.TRef.nullary (.of main_call0_call2_v0 : StableHlo.TRef sig ⟨S100, .i32⟩) (iotaInDim S100 32 0),
    StableHlo.TRef.nullary (.of main_call0_call2_v1 : StableHlo.TRef sig ⟨S100, .i32⟩) (iotaInDim S100 32 0),
    StableHlo.TRef.nullary (.of main_call0_call2_c : StableHlo.TRef sig ⟨S_, .i32⟩) (constantI S_ 32 1#32),
    StableHlo.TRef.unary (.of main_call0_call2_c : StableHlo.TRef sig ⟨S_, .i32⟩) (.of main_call0_call2_v2 : StableHlo.TRef sig ⟨S100, .i32⟩) (broadcastInDim S100 ![] bcast_S_S100),
    StableHlo.TRef.binary (.of main_call0_call2_v2 : StableHlo.TRef sig ⟨S100, .i32⟩) (.of main_call0_call2_v1 : StableHlo.TRef sig ⟨S100, .i32⟩) (.of main_call0_call2_v3 : StableHlo.TRef sig ⟨S100, .i32⟩) addi,
    StableHlo.TRef.nullary (.of main_call0_call2_c_0 : StableHlo.TRef sig ⟨S_, .i32⟩) (constantI S_ 32 0#32),
    StableHlo.TRef.unary (.of main_call0_call2_c_0 : StableHlo.TRef sig ⟨S_, .i32⟩) (.of main_call0_call2_v4 : StableHlo.TRef sig ⟨S100, .i32⟩) (broadcastInDim S100 ![] bcast_S_S100),
    StableHlo.TRef.binary (.of main_call0_call2_v0 : StableHlo.TRef sig ⟨S100, .i32⟩) (.of main_call0_call2_v4 : StableHlo.TRef sig ⟨S100, .i32⟩) (.of main_call0_call2_v5 : StableHlo.TRef sig ⟨S100, .i1⟩) (cmpi .slt),
    StableHlo.TRef.nullary (.of main_call0_call2_c_1 : StableHlo.TRef sig ⟨S_, .i32⟩) (constantI S_ 32 101#32),
    StableHlo.TRef.unary (.of main_call0_call2_c_1 : StableHlo.TRef sig ⟨S_, .i32⟩) (.of main_call0_call2_v6 : StableHlo.TRef sig ⟨S100, .i32⟩) (broadcastInDim S100 ![] bcast_S_S100),
    StableHlo.TRef.binary (.of main_call0_call2_v0 : StableHlo.TRef sig ⟨S100, .i32⟩) (.of main_call0_call2_v6 : StableHlo.TRef sig ⟨S100, .i32⟩) (.of main_call0_call2_v7 : StableHlo.TRef sig ⟨S100, .i32⟩) addi,
    StableHlo.TRef.ternary (.of main_call0_call2_v5 : StableHlo.TRef sig ⟨S100, .i1⟩) (.of main_call0_call2_v7 : StableHlo.TRef sig ⟨S100, .i32⟩) (.of main_call0_call2_v0 : StableHlo.TRef sig ⟨S100, .i32⟩) (.of main_call0_call2_v8 : StableHlo.TRef sig ⟨S100, .i32⟩) select,
    StableHlo.TRef.nullary (.of main_call0_call2_c_2 : StableHlo.TRef sig ⟨S_, .i32⟩) (constantI S_ 32 0#32),
    StableHlo.TRef.unary (.of main_call0_call2_c_2 : StableHlo.TRef sig ⟨S_, .i32⟩) (.of main_call0_call2_v9 : StableHlo.TRef sig ⟨S100, .i32⟩) (broadcastInDim S100 ![] bcast_S_S100),
    StableHlo.TRef.binary (.of main_call0_call2_v3 : StableHlo.TRef sig ⟨S100, .i32⟩) (.of main_call0_call2_v9 : StableHlo.TRef sig ⟨S100, .i32⟩) (.of main_call0_call2_v10 : StableHlo.TRef sig ⟨S100, .i1⟩) (cmpi .slt),
    StableHlo.TRef.nullary (.of main_call0_call2_c_3 : StableHlo.TRef sig ⟨S_, .i32⟩) (constantI S_ 32 101#32),
    StableHlo.TRef.unary (.of main_call0_call2_c_3 : StableHlo.TRef sig ⟨S_, .i32⟩) (.of main_call0_call2_v11 : StableHlo.TRef sig ⟨S100, .i32⟩) (broadcastInDim S100 ![] bcast_S_S100),
    StableHlo.TRef.binary (.of main_call0_call2_v3 : StableHlo.TRef sig ⟨S100, .i32⟩) (.of main_call0_call2_v11 : StableHlo.TRef sig ⟨S100, .i32⟩) (.of main_call0_call2_v12 : StableHlo.TRef sig ⟨S100, .i32⟩) addi,
    StableHlo.TRef.ternary (.of main_call0_call2_v10 : StableHlo.TRef sig ⟨S100, .i1⟩) (.of main_call0_call2_v12 : StableHlo.TRef sig ⟨S100, .i32⟩) (.of main_call0_call2_v3 : StableHlo.TRef sig ⟨S100, .i32⟩) (.of main_call0_call2_v13 : StableHlo.TRef sig ⟨S100, .i32⟩) select,
    StableHlo.TRef.unary (.of main_call0_call2_v8 : StableHlo.TRef sig ⟨S100, .i32⟩) (.of main_call0_call2_v14 : StableHlo.TRef sig ⟨S100x1, .i32⟩) (broadcastInDim S100x1 ![0] bcast_S100_S100x1_0),
    StableHlo.TRef.unary (.of main_call0_call2_v13 : StableHlo.TRef sig ⟨S100, .i32⟩) (.of main_call0_call2_v15 : StableHlo.TRef sig ⟨S100x1, .i32⟩) (broadcastInDim S100x1 ![0] bcast_S100_S100x1_0),
    StableHlo.TRef.binary (.of main_call0_call2_v14 : StableHlo.TRef sig ⟨S100x1, .i32⟩) (.of main_call0_call2_v15 : StableHlo.TRef sig ⟨S100x1, .i32⟩) (.of main_call0_call2_v16 : StableHlo.TRef sig ⟨S100x2, .i32⟩) (fun a b => concatenate S100x2 1 [⟨S100x1, a⟩, ⟨S100x1, b⟩] concatenates_S100x1_S100x1_S100x2_d1),
    StableHlo.TRef.binary (.of main_call0_v33 : StableHlo.TRef sig ⟨S101x101, .f32⟩) (.of main_call0_call2_v16 : StableHlo.TRef sig ⟨S100x2, .i32⟩) (.of main_call0_v35 : StableHlo.TRef sig ⟨S100, .f32⟩) (fun x i => Host.gather gather_S101x101_S100x2_S100_n_01_n_n_01_1_11 x i) ]
/-- The fifth stretch: the row minima away from the first off-diagonals, the two hinge sums, their mean over 101. -/
abbrev opsD : List (HloOp τ sig (Elt F)) :=
  [ StableHlo.TRef.nullary (.of main_call0_c_7 : StableHlo.TRef sig ⟨S_, .i32⟩) (constantI S_ 32 1#32),
    StableHlo.TRef.unary (.of main_call0_c_7 : StableHlo.TRef sig ⟨S_, .i32⟩) (.of main_call0_v36 : StableHlo.TRef sig ⟨S101x101, .i32⟩) (broadcastInDim S101x101 ![] bcast_S_S101x101),
    StableHlo.TRef.binary (.of main_call0_v26 : StableHlo.TRef sig ⟨S101x101, .i32⟩) (.of main_call0_v36 : StableHlo.TRef sig ⟨S101x101, .i32⟩) (.of main_call0_v37 : StableHlo.TRef sig ⟨S101x101, .i1⟩) (cmpi .eq),
    StableHlo.TRef.unary (.of main_call0_v37 : StableHlo.TRef sig ⟨S101x101, .i1⟩) (.of main_call0_v38 : StableHlo.TRef sig ⟨S101x101, .f32⟩) (uitofp .f32),
    StableHlo.TRef.nullary (.of main_call0_cst_8 : StableHlo.TRef sig ⟨S_, .f32⟩) (constant S_ .f32 0x4E6E6B28#32),
    StableHlo.TRef.unary (.of main_call0_cst_8 : StableHlo.TRef sig ⟨S_, .f32⟩) (.of main_call0_v39 : StableHlo.TRef sig ⟨S101x101, .f32⟩) (broadcastInDim S101x101 ![] bcast_S_S101x101),
    StableHlo.TRef.binary (.of main_call0_v39 : StableHlo.TRef sig ⟨S101x101, .f32⟩) (.of main_call0_v38 : StableHlo.TRef sig ⟨S101x101, .f32⟩) (.of main_call0_v40 : StableHlo.TRef sig ⟨S101x101, .f32⟩) mulf,
    StableHlo.TRef.unary (.of main_call0_v40 : StableHlo.TRef sig ⟨S101x101, .f32⟩) (.of main_call0_v41 : StableHlo.TRef sig ⟨S101x101, .f32⟩) id,
    StableHlo.TRef.binary (.of main_call0_v33 : StableHlo.TRef sig ⟨S101x101, .f32⟩) (.of main_call0_v41 : StableHlo.TRef sig ⟨S101x101, .f32⟩) (.of main_call0_v42 : StableHlo.TRef sig ⟨S101x101, .f32⟩) addf,
    StableHlo.TRef.nullary (.of main_call0_cst_9 : StableHlo.TRef sig ⟨S_, .f32⟩) (constant S_ .f32 0x7F800000#32),
    StableHlo.TRef.binary (.of main_call0_v42 : StableHlo.TRef sig ⟨S101x101, .f32⟩) (.of main_call0_cst_9 : StableHlo.TRef sig ⟨S_, .f32⟩) (.of main_call0_v43 : StableHlo.TRef sig ⟨S101, .f32⟩) (fun x v => Host.reduce FloatOps.minimumf x v reducesTo_S101x101_S101_d1 h_S_),
    StableHlo.TRef.nullary (.of main_call0_cst_10 : StableHlo.TRef sig ⟨S_, .f32⟩) (constant S_ .f32 0x40000000#32),
    StableHlo.TRef.unary (.of main_call0_cst_10 : StableHlo.TRef sig ⟨S_, .f32⟩) (.of main_call0_v44 : StableHlo.TRef sig ⟨S100, .f32⟩) (broadcastInDim S100 ![] bcast_S_S100),
    StableHlo.TRef.binary (.of main_call0_v44 : StableHlo.TRef sig ⟨S100, .f32⟩) main_call0_call1.v17 (.of main_call0_v45 : StableHlo.TRef sig ⟨S100, .f32⟩) mulf,
    StableHlo.TRef.unary (.of main_call0_v43 : StableHlo.TRef sig ⟨S101, .f32⟩) (.of main_call0_v46 : StableHlo.TRef sig ⟨S100, .f32⟩) (extractStridedSlice S100 ![1] · slices_S101_S100_1),
    StableHlo.TRef.binary (.of main_call0_v45 : StableHlo.TRef sig ⟨S100, .f32⟩) (.of main_call0_v46 : StableHlo.TRef sig ⟨S100, .f32⟩) (.of main_call0_v47 : StableHlo.TRef sig ⟨S100, .f32⟩) subf,
    StableHlo.TRef.nullary (.of main_call0_call3_cst : StableHlo.TRef sig ⟨S_, .f32⟩) (constant S_ .f32 0x00000000#32),
    StableHlo.TRef.unary (.of main_call0_call3_cst : StableHlo.TRef sig ⟨S_, .f32⟩) (.of main_call0_call3_v0 : StableHlo.TRef sig ⟨S100, .f32⟩) (broadcastInDim S100 ![] bcast_S_S100),
    StableHlo.TRef.binary (.of main_call0_v47 : StableHlo.TRef sig ⟨S100, .f32⟩) (.of main_call0_call3_v0 : StableHlo.TRef sig ⟨S100, .f32⟩) (.of main_call0_v48 : StableHlo.TRef sig ⟨S100, .f32⟩) maximumf,
    StableHlo.TRef.nullary (.of main_call0_cst_11 : StableHlo.TRef sig ⟨S_, .f32⟩) (constant S_ .f32 0x00000000#32),
    StableHlo.TRef.binary main_call0_call3.v1 (.of main_call0_cst_11 : StableHlo.TRef sig ⟨S_, .f32⟩) (.of main_call0_v49 : StableHlo.TRef sig ⟨S_, .f32⟩) (fun x v => Host.reduceAdd x v reducesTo_S100_S_d0 h_S_),
    StableHlo.TRef.nullary (.of main_call0_cst_12 : StableHlo.TRef sig ⟨S_, .f32⟩) (constant S_ .f32 0x40000000#32),
    StableHlo.TRef.unary (.of main_call0_cst_12 : StableHlo.TRef sig ⟨S_, .f32⟩) (.of main_call0_v50 : StableHlo.TRef sig ⟨S100, .f32⟩) (broadcastInDim S100 ![] bcast_S_S100),
    StableHlo.TRef.binary (.of main_call0_v50 : StableHlo.TRef sig ⟨S100, .f32⟩) main_call0_call2.v17 (.of main_call0_v51 : StableHlo.TRef sig ⟨S100, .f32⟩) mulf,
    StableHlo.TRef.unary (.of main_call0_v43 : StableHlo.TRef sig ⟨S101, .f32⟩) (.of main_call0_v52 : StableHlo.TRef sig ⟨S100, .f32⟩) (extractStridedSlice S100 ![0] · slices_S101_S100_0),
    StableHlo.TRef.binary (.of main_call0_v51 : StableHlo.TRef sig ⟨S100, .f32⟩) (.of main_call0_v52 : StableHlo.TRef sig ⟨S100, .f32⟩) (.of main_call0_v53 : StableHlo.TRef sig ⟨S100, .f32⟩) subf,
    StableHlo.TRef.nullary (.of main_call0_call4_cst : StableHlo.TRef sig ⟨S_, .f32⟩) (constant S_ .f32 0x00000000#32),
    StableHlo.TRef.unary (.of main_call0_call4_cst : StableHlo.TRef sig ⟨S_, .f32⟩) (.of main_call0_call4_v0 : StableHlo.TRef sig ⟨S100, .f32⟩) (broadcastInDim S100 ![] bcast_S_S100),
    StableHlo.TRef.binary (.of main_call0_v53 : StableHlo.TRef sig ⟨S100, .f32⟩) (.of main_call0_call4_v0 : StableHlo.TRef sig ⟨S100, .f32⟩) (.of main_call0_v54 : StableHlo.TRef sig ⟨S100, .f32⟩) maximumf,
    StableHlo.TRef.nullary (.of main_call0_cst_13 : StableHlo.TRef sig ⟨S_, .f32⟩) (constant S_ .f32 0x00000000#32),
    StableHlo.TRef.binary main_call0_call4.v1 (.of main_call0_cst_13 : StableHlo.TRef sig ⟨S_, .f32⟩) (.of main_call0_v55 : StableHlo.TRef sig ⟨S_, .f32⟩) (fun x v => Host.reduceAdd x v reducesTo_S100_S_d0 h_S_),
    StableHlo.TRef.binary (.of main_call0_v49 : StableHlo.TRef sig ⟨S_, .f32⟩) (.of main_call0_v55 : StableHlo.TRef sig ⟨S_, .f32⟩) (.of main_call0_v56 : StableHlo.TRef sig ⟨S_, .f32⟩) addf,
    StableHlo.TRef.nullary (.of main_call0_cst_14 : StableHlo.TRef sig ⟨S_, .f32⟩) (constant S_ .f32 0x42CA0000#32),
    StableHlo.TRef.binary (.of main_call0_v56 : StableHlo.TRef sig ⟨S_, .f32⟩) (.of main_call0_cst_14 : StableHlo.TRef sig ⟨S_, .f32⟩) (.of main_call0_v57 : StableHlo.TRef sig ⟨S_, .f32⟩) Host.divf ]
/-- The last operation: the margin term plus the mean. -/
abbrev opsE : List (HloOp τ sig (Elt F)) :=
  [ StableHlo.TRef.binary (.of main_call0_v57 : StableHlo.TRef sig ⟨S_, .f32⟩) (.of main_call0_v7 : StableHlo.TRef sig ⟨S_, .f32⟩) (.of main_v0 : StableHlo.TRef sig ⟨S_, .f32⟩) addf ]

set_option maxHeartbeats 4000000 in
/-- The operations after the region are the six stretches in order. -/
theorem ops_split : (hostOps1 : List (HloOp τ sig (Elt F))) = opsA ++ (opsB ++ (opsC1 ++ (opsC2 ++ (opsD ++ opsE)))) := rfl

/-- The first stretch's term over the output array. -/
def fA (x2 : (⟨S16x128, .f32⟩ : BufTy).Contents (Elt F)) : (⟨S_, .f32⟩ : BufTy).Contents (Elt F) :=
  Host.divf (Host.reduceAdd (shapeCast S2 (extractStridedSlice S2x1x1 ![0, 0, 0] (shapeCast S2x8x128 x2 shapeCasts_S16x128_S2x8x128) slices_S2x8x128_S2x1x1_0_0_0) shapeCasts_S2x1x1_S2) (constant (F := F) S_ .f32 0x00000000#32) reducesTo_S2_S_d0 h_S_) (constant (F := F) S_ .f32 0x48000000#32)

/-- The second stretch's term over the centers: one minus the Gram matrix of the normalized centers, the diagonal pushed up. -/
def fB (x1 : (⟨S101x512, .f32⟩ : BufTy).Contents (Elt F)) : (⟨S101x101, .f32⟩ : BufTy).Contents (Elt F) :=
  addf (subf (broadcastInDim S101x101 ![] bcast_S_S101x101 (constant (F := F) S_ .f32 0x3F800000#32)) (Host.dotGeneral dot_S101x512_S512x101_S101x101_1_0_0_1_n_n none (Host.divf x1 (broadcastInDim S101x512 ![0, 1] bcast_S101x1_S101x512_0_1 (maximumf (Host.sqrt (broadcastInDim S101x1 ![0] bcast_S101_S101x1_0 (Host.reduceAdd (mulf x1 x1) (constant (F := F) S_ .f32 0x00000000#32) reducesTo_S101x512_S101_d1 h_S_))) (broadcastInDim S101x1 ![] bcast_S_S101x1 (constant (F := F) S_ .f32 0x3DCCCCCD#32))))) (transpose S512x101 [1, 0] (Host.divf x1 (broadcastInDim S101x512 ![0, 1] bcast_S101x1_S101x512_0_1 (maximumf (Host.sqrt (broadcastInDim S101x1 ![0] bcast_S101_S101x1_0 (Host.reduceAdd (mulf x1 x1) (constant (F := F) S_ .f32 0x00000000#32) reducesTo_S101x512_S101_d1 h_S_))) (broadcastInDim S101x1 ![] bcast_S_S101x1 (constant (F := F) S_ .f32 0x3DCCCCCD#32))))) transposes_S101x512_S512x101_1_0))) (id (mulf (broadcastInDim S101x101 ![] bcast_S_S101x101 (constant (F := F) S_ .f32 0x4E6E6B28#32)) (uitofp (F := F) .f32 (cmpi .eq (absi (subi (broadcastInDim S101x101 ![0, 1] bcast_S101x1_S101x101_0_1 (broadcastInDim S101x1 ![0] bcast_S101_S101x1_0 (iotaInDim S101 32 0))) (broadcastInDim S101x101 ![0, 1] bcast_S1x101_S101x101_0_1 (broadcastInDim S1x101 ![1] bcast_S101_S1x101_1 (iotaInDim S101 32 0))))) (broadcastInDim S101x101 ![] bcast_S_S101x101 (constantI S_ 32 0#32))))))

/-- |i − j| as a 101×101 table of integers. -/
def fB26 : (⟨S101x101, .i32⟩ : BufTy).Contents (Elt F) :=
  absi (subi (broadcastInDim S101x101 ![0, 1] bcast_S101x1_S101x101_0_1 (broadcastInDim S101x1 ![0] bcast_S101_S101x1_0 (iotaInDim S101 32 0))) (broadcastInDim S101x101 ![0, 1] bcast_S1x101_S101x101_0_1 (broadcastInDim S1x101 ![1] bcast_S101_S1x101_1 (iotaInDim S101 32 0))))

/-- The third stretch's term over the matrix. -/
def fC1 (x33 : (⟨S101x101, .f32⟩ : BufTy).Contents (Elt F)) : (⟨S100, .f32⟩ : BufTy).Contents (Elt F) :=
  Host.gather gather_S101x101_S100x2_S100_n_01_n_n_01_1_11 x33 (concatenate S100x2 1 [⟨S100x1, (broadcastInDim S100x1 ![0] bcast_S100_S100x1_0 (select (cmpi .slt (addi (broadcastInDim S100 ![] bcast_S_S100 (constantI S_ 32 1#32)) (iotaInDim S100 32 0)) (broadcastInDim S100 ![] bcast_S_S100 (constantI S_ 32 0#32))) (addi (addi (broadcastInDim S100 ![] bcast_S_S100 (constantI S_ 32 1#32)) (iotaInDim S100 32 0)) (broadcastInDim S100 ![] bcast_S_S100 (constantI S_ 32 101#32))) (addi (broadcastInDim S100 ![] bcast_S_S100 (constantI S_ 32 1#32)) (iotaInDim S100 32 0))))⟩, ⟨S100x1, (broadcastInDim S100x1 ![0] bcast_S100_S100x1_0 (select (cmpi .slt (iotaInDim S100 32 0) (broadcastInDim S100 ![] bcast_S_S100 (constantI S_ 32 0#32))) (addi (iotaInDim S100 32 0) (broadcastInDim S100 ![] bcast_S_S100 (constantI S_ 32 101#32))) (iotaInDim S100 32 0)))⟩] concatenates_S100x1_S100x1_S100x2_d1)

/-- The fourth stretch's term over the matrix. -/
def fC2 (x33 : (⟨S101x101, .f32⟩ : BufTy).Contents (Elt F)) : (⟨S100, .f32⟩ : BufTy).Contents (Elt F) :=
  Host.gather gather_S101x101_S100x2_S100_n_01_n_n_01_1_11 x33 (concatenate S100x2 1 [⟨S100x1, (broadcastInDim S100x1 ![0] bcast_S100_S100x1_0 (select (cmpi .slt (iotaInDim S100 32 0) (broadcastInDim S100 ![] bcast_S_S100 (constantI S_ 32 0#32))) (addi (iotaInDim S100 32 0) (broadcastInDim S100 ![] bcast_S_S100 (constantI S_ 32 101#32))) (iotaInDim S100 32 0)))⟩, ⟨S100x1, (broadcastInDim S100x1 ![0] bcast_S100_S100x1_0 (select (cmpi .slt (addi (broadcastInDim S100 ![] bcast_S_S100 (constantI S_ 32 1#32)) (iotaInDim S100 32 0)) (broadcastInDim S100 ![] bcast_S_S100 (constantI S_ 32 0#32))) (addi (addi (broadcastInDim S100 ![] bcast_S_S100 (constantI S_ 32 1#32)) (iotaInDim S100 32 0)) (broadcastInDim S100 ![] bcast_S_S100 (constantI S_ 32 101#32))) (addi (broadcastInDim S100 ![] bcast_S_S100 (constantI S_ 32 1#32)) (iotaInDim S100 32 0))))⟩] concatenates_S100x1_S100x1_S100x2_d1)

/-- The fifth stretch's term over the distance table, the matrix and its two gathered off-diagonals. -/
def fD (x26 : (⟨S101x101, .i32⟩ : BufTy).Contents (Elt F)) (x33 : (⟨S101x101, .f32⟩ : BufTy).Contents (Elt F)) (x34 : (⟨S100, .f32⟩ : BufTy).Contents (Elt F)) (x35 : (⟨S100, .f32⟩ : BufTy).Contents (Elt F)) : (⟨S_, .f32⟩ : BufTy).Contents (Elt F) :=
  Host.divf (addf (Host.reduceAdd (maximumf (subf (mulf (broadcastInDim S100 ![] bcast_S_S100 (constant (F := F) S_ .f32 0x40000000#32)) x34) (extractStridedSlice S100 ![1] (Host.reduce (FloatOps.minimumf (F := F)) (addf x33 (id (mulf (broadcastInDim S101x101 ![] bcast_S_S101x101 (constant (F := F) S_ .f32 0x4E6E6B28#32)) (uitofp (F := F) .f32 (cmpi .eq x26 (broadcastInDim S101x101 ![] bcast_S_S101x101 (constantI S_ 32 1#32))))))) (constant (F := F) S_ .f32 0x7F800000#32) reducesTo_S101x101_S101_d1 h_S_) slices_S101_S100_1)) (broadcastInDim S100 ![] bcast_S_S100 (constant (F := F) S_ .f32 0x00000000#32))) (constant (F := F) S_ .f32 0x00000000#32) reducesTo_S100_S_d0 h_S_) (Host.reduceAdd (maximumf (subf (mulf (broadcastInDim S100 ![] bcast_S_S100 (constant (F := F) S_ .f32 0x40000000#32)) x35) (extractStridedSlice S100 ![0] (Host.reduce (FloatOps.minimumf (F := F)) (addf x33 (id (mulf (broadcastInDim S101x101 ![] bcast_S_S101x101 (constant (F := F) S_ .f32 0x4E6E6B28#32)) (uitofp (F := F) .f32 (cmpi .eq x26 (broadcastInDim S101x101 ![] bcast_S_S101x101 (constantI S_ 32 1#32))))))) (constant (F := F) S_ .f32 0x7F800000#32) reducesTo_S101x101_S101_d1 h_S_) slices_S101_S100_0)) (broadcastInDim S100 ![] bcast_S_S100 (constant (F := F) S_ .f32 0x00000000#32))) (constant (F := F) S_ .f32 0x00000000#32) reducesTo_S100_S_d0 h_S_)) (constant (F := F) S_ .f32 0x42CA0000#32)

/-- The margin term as a function of the centers, at any float values. -/
def marginF (x1 : (⟨S101x512, .f32⟩ : BufTy).Contents (Elt F)) : (⟨S_, .f32⟩ : BufTy).Contents (Elt F) :=
  fD (fB26 (F := F)) (fB x1) (fC1 (fB x1)) (fC2 (fB x1))

variable (V : Valuation τ sig (Elt F))
/-- The first stretch leaves its quotient at the term over the output array. -/
theorem A_v7 : after opsA V (Proc.devRef .tc main_call0_v7) = fA (V (Proc.devRef .tc main_call0_v2)) := by
  after_results_simp <;> (try simp only [TRef.ofBuf, TRef.toBuf, cast_eq]) <;> rfl

/-- The first stretch leaves the centers. -/
theorem A_arg1 : after opsA V (Proc.devRef .tc main_arg1) = V (Proc.devRef .tc main_arg1) := by
  after_results_simp

/-- The second stretch leaves the matrix at its term over the centers. -/
theorem B_v33 : after opsB V (Proc.devRef .tc main_call0_v33) = fB (V (Proc.devRef .tc main_arg1)) := by
  after_results_simp <;> (try simp only [TRef.ofBuf, TRef.toBuf, cast_eq]) <;> rfl

/-- The second stretch leaves the distance table. -/
theorem B_v26 : after opsB V (Proc.devRef .tc main_call0_v26) = fB26 (F := F) := by
  after_results_simp <;> (try simp only [TRef.ofBuf, TRef.toBuf, cast_eq]) <;> rfl

/-- The second stretch leaves the quotient. -/
theorem B_v7 : after opsB V (Proc.devRef .tc main_call0_v7) = V (Proc.devRef .tc main_call0_v7) := by
  after_results_simp

/-- The third stretch leaves the first gathered off-diagonal. -/
theorem C1_v34 : after opsC1 V (Proc.devRef .tc main_call0_v34) = fC1 (V (Proc.devRef .tc main_call0_v33)) := by
  after_results_simp <;> (try simp only [TRef.ofBuf, TRef.toBuf, cast_eq]) <;> rfl

/-- The third stretch leaves the matrix. -/
theorem C1_v33 : after opsC1 V (Proc.devRef .tc main_call0_v33) = V (Proc.devRef .tc main_call0_v33) := by
  after_results_simp

/-- The third stretch leaves the distance table. -/
theorem C1_v26 : after opsC1 V (Proc.devRef .tc main_call0_v26) = V (Proc.devRef .tc main_call0_v26) := by
  after_results_simp

/-- The third stretch leaves the quotient. -/
theorem C1_v7 : after opsC1 V (Proc.devRef .tc main_call0_v7) = V (Proc.devRef .tc main_call0_v7) := by
  after_results_simp

/-- The fourth stretch leaves the second gathered off-diagonal. -/
theorem C2_v35 : after opsC2 V (Proc.devRef .tc main_call0_v35) = fC2 (V (Proc.devRef .tc main_call0_v33)) := by
  after_results_simp <;> (try simp only [TRef.ofBuf, TRef.toBuf, cast_eq]) <;> rfl

/-- The fourth stretch leaves the first gathered off-diagonal. -/
theorem C2_v34 : after opsC2 V (Proc.devRef .tc main_call0_v34) = V (Proc.devRef .tc main_call0_v34) := by
  after_results_simp

/-- The fourth stretch leaves the matrix. -/
theorem C2_v33 : after opsC2 V (Proc.devRef .tc main_call0_v33) = V (Proc.devRef .tc main_call0_v33) := by
  after_results_simp

/-- The fourth stretch leaves the distance table. -/
theorem C2_v26 : after opsC2 V (Proc.devRef .tc main_call0_v26) = V (Proc.devRef .tc main_call0_v26) := by
  after_results_simp

/-- The fourth stretch leaves the quotient. -/
theorem C2_v7 : after opsC2 V (Proc.devRef .tc main_call0_v7) = V (Proc.devRef .tc main_call0_v7) := by
  after_results_simp

/-- The fifth stretch leaves the margin term over the four buffers it reads. -/
theorem D_v57 : after opsD V (Proc.devRef .tc main_call0_v57) = fD (V (Proc.devRef .tc main_call0_v26)) (V (Proc.devRef .tc main_call0_v33)) (V (Proc.devRef .tc main_call0_v34)) (V (Proc.devRef .tc main_call0_v35)) := by
  after_results_simp <;> (try simp only [TRef.ofBuf, TRef.toBuf, cast_eq]) <;> rfl

/-- The fifth stretch leaves the quotient. -/
theorem D_v7 : after opsD V (Proc.devRef .tc main_call0_v7) = V (Proc.devRef .tc main_call0_v7) := by
  after_results_simp

/-- The last operation adds the two. -/
theorem E_v0 : after opsE V (Proc.devRef .tc main_v0) = addf (V (Proc.devRef .tc main_call0_v57)) (V (Proc.devRef .tc main_call0_v7)) := by
  after_results_simp <;> (try simp only [TRef.ofBuf, TRef.toBuf, cast_eq]) <;> rfl

/-- The stretches chained: from any buffer contents the result buffer ends at the margin term of the centers plus
    the first stretch's term of the output array. -/
theorem after_main_v0 : after (hostOps1 (F := F)) V (Proc.devRef .tc main_v0)
    = addf (marginF (V (Proc.devRef .tc main_arg1))) (fA (V (Proc.devRef .tc main_call0_v2))) := by
  rw [ops_split, StableHlo.after_append, StableHlo.after_append, StableHlo.after_append, StableHlo.after_append, StableHlo.after_append]
  rw [E_v0, D_v57, D_v7, C2_v35, C2_v34, C2_v33, C2_v26, C2_v7, C1_v34, C1_v33, C1_v26, C1_v7, B_v33, B_v26, B_v7, A_v7, A_arg1]
  rfl

end Stretches

section AtIdeal

/-- At the extended reals the first stretch is the sum of the output array's entries (0,0) and (8,0), divided by
    the constant 131072: the re-laid array's entries (0,0,0) and (1,0,0) sit at row-major positions 0 and 1024. -/
theorem fA_ideal (x2 : FVec Ideal S16x128 .f32) :
    fA (F := Ideal) x2
      = Host.divf (F := Ideal) (fun _ => x2 (ix2 0 0) + x2 (ix2 8 0)) (constant (F := Ideal) Cert.Spec.S0 .f32 0x48000000#32) := by
  unfold fA
  refine congrArg (fun t => Host.divf (F := Ideal) t (constant (F := Ideal) S_ .f32 0x48000000#32)) ?_
  funext j
  rw [hostReduceAdd_apply, Ideal.hostReduceAdd_total reducesTo_S2_S_d0 (fun b => b.elim0)]
  rw [Cert.LibSums.sum_idx1, Fin.sum_univ_two]
  have e0 : shapeCast S2 (extractStridedSlice S2x1x1 ![0, 0, 0] (shapeCast S2x8x128 x2 shapeCasts_S16x128_S2x8x128) slices_S2x8x128_S2x1x1_0_0_0) shapeCasts_S2x1x1_S2 (ix1 0) = x2 (ix2 0 0) := by
    refine (shapeCast_apply _ shapeCasts_S2x1x1_S2 (ix1 0) (ix3 0 0 0) rfl).trans ?_
    refine (extractStridedSlice_apply ![0, 0, 0] _ slices_S2x8x128_S2x1x1_0_0_0 (ix3 0 0 0) (ix3 0 0 0) (fun a => by fin_cases a <;> rfl)).trans ?_
    exact shapeCast_apply x2 shapeCasts_S16x128_S2x8x128 (ix3 0 0 0) (ix2 0 0) rfl
  have e1 : shapeCast S2 (extractStridedSlice S2x1x1 ![0, 0, 0] (shapeCast S2x8x128 x2 shapeCasts_S16x128_S2x8x128) slices_S2x8x128_S2x1x1_0_0_0) shapeCasts_S2x1x1_S2 (ix1 1) = x2 (ix2 8 0) := by
    refine (shapeCast_apply _ shapeCasts_S2x1x1_S2 (ix1 1) (ix3 1 0 0) rfl).trans ?_
    refine (extractStridedSlice_apply ![0, 0, 0] _ slices_S2x8x128_S2x1x1_0_0_0 (ix3 1 0 0) (ix3 1 0 0) (fun a => by fin_cases a <;> rfl)).trans ?_
    exact shapeCast_apply x2 shapeCasts_S16x128_S2x8x128 (ix3 1 0 0) (ix2 8 0) rfl
  rw [e0, e1]
  show Ideal.ofBits .f32 0x00000000#32 + _ = _
  rw [Ideal.ofBits_zero_f32, zero_add]

/-- The kernel program's margin term as a function of the centers: the composed term of the tail's operations that end in buffer main_call0_v57 (they read main_arg1 only). -/
def marginK (a1 : FVec Ideal Cert.KernelIdeal.S101x512 .f32) : FVec Ideal Cert.KernelIdeal.S_ .f32 :=
  marginF (F := Ideal) a1

/-- The 119 operations after the region, from ANY buffer contents W: the result buffer main_v0 ends at the margin of W's centers plus the mean of the two running sums read off the 16×128 output array (rows 0 and 8, column 0). -/
theorem tail_eq (W : Valuation τ sig (Elt Ideal)) :
    StableHlo.after (hostOps1 (F := Ideal)) W (Proc.devRef .tc main_v0)
      = Cert.Spec.finalOf (marginK (W (Proc.devRef .tc main_arg1)))
          ((id (α := FVec Ideal S16x128 .f32) (W (Proc.devRef .tc main_call0_v2))) (ValueIdx.ix2 0 0)
            + (id (α := FVec Ideal S16x128 .f32) (W (Proc.devRef .tc main_call0_v2))) (ValueIdx.ix2 8 0)) := by
  rw [after_main_v0, fA_ideal]
  rfl

end AtIdeal

end Cert.KernelIdeal.Tail

end
-- ==== Proof.RefRun.lean ====
/-
  The reference program's run and its operations read at an index (both generated), gathered under one
  module for the bridge.
-/
import proofs.«429582_j39891656245569_3_alg».proof.Proof.Gen.ReferenceIdeal.Run
import proofs.«429582_j39891656245569_3_alg».proof.Proof.Gen.ReferenceIdeal.Read
-- ==== Proof.RefValue.lean ====
/-
  The reference program's result, read as mathematics: the margin term of the centers plus the mean over the
  131072 samples of the squared distance of each embedding row to the center its label selects.

  The program wraps a negative label by adding 101, gathers the selected row of the centers (the gather reads the
  start index as a signed integer and clamps it into [0, 100]), subtracts it from the embedding row, squares, sums
  over the 512 columns and then over the samples, divides by 131072 and adds the margin term. For a label that is
  not negative the wrap is the identity, so the row gathered is the one `Cert.Spec.rowOf` names.
-/
import proofs.«429582_j39891656245569_3_alg».proof.Proof.Gen.ReferenceIdeal.Run
import proofs.«429582_j39891656245569_3_alg».proof.Proof.Gen.ReferenceIdeal.Read
import proofs.«429582_j39891656245569_3_alg».proof.Proof.Spec
import Idealize.ShloMosaic.Lib.ValueIdx
import Idealize.ShloMosaic.Lib.Pipeline.Value
import Idealize.ShloMosaic.PureOps.Ideal.Laws

open scoped BigOperators

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The reference's margin term as a function of the centers: the value of its buffer main_v59 (the stage Read.lean names for it). -/
def marginR (a1 : FVec Ideal Cert.ReferenceIdeal.S101x512 .f32) : FVec Ideal Cert.ReferenceIdeal.S_ .f32 :=
  Cert.ReferenceIdeal.Read.val_main_v59 (F := Ideal) a1

/-! ## The gather of a row of the centers, read at an index -/

/-- The dimension numbers of the gather: one start index per sample, naming a row; the whole row is the slice. -/
abbrev rowGather : GatherDims S101x512 S131072x1 S131072x512 :=
  gather_S101x512_S131072x1_S131072x512_1_0_n_n_0_1_1512

/-- On the row axis the gather reads the start index of sample `t`, signed and clamped into [0, 100]. -/
theorem rowGather_axis0 {w : Nat} (idx : IVec S131072x1 w) (t : Fin 131072) (d : Fin 512) :
    (rowGather.operandIdx (ix2 t d) idx (0 : Fin S101x512.rank)).val
      = min (idx (ix2 t (0 : Fin 1))).toInt.toNat 100 := by
  show rowGather.start (ix2 t d) idx 0 + rowGather.batchCoord (ix2 t d) 0 + rowGather.offCoord (ix2 t d) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin S101x512.rank) ∈ rowGather.startIndexMap from List.mem_singleton.mpr rfl)]
  have hsi : rowGather.siIdx (ix2 t d) ⟨List.idxOf (0 : Fin S101x512.rank) rowGather.startIndexMap,
      List.idxOf_lt_length_iff.2 (List.mem_singleton.mpr rfl)⟩ = ix2 t (0 : Fin 1) := by
    funext b; refine Fin.ext ?_
    match b with
    | ⟨0, _⟩ => rfl
    | ⟨1, _⟩ => rfl
  rw [hsi]
  rfl

/-- On the column axis the gather reads the result's own column. -/
theorem rowGather_axis1 {w : Nat} (idx : IVec S131072x1 w) (t : Fin 131072) (d : Fin 512) :
    (rowGather.operandIdx (ix2 t d) idx (1 : Fin S101x512.rank)).val = d.val := by
  show rowGather.start (ix2 t d) idx 1 + rowGather.batchCoord (ix2 t d) 1 + rowGather.offCoord (ix2 t d) 1 = _
  rw [GatherDims.batchCoord_eq_zero _ _ _ List.not_mem_nil]
  unfold GatherDims.start
  rw [dif_neg (show ¬ (1 : Fin S101x512.rank) ∈ rowGather.startIndexMap by decide)]
  unfold GatherDims.offCoord
  rw [dif_pos (show (1 : Fin S101x512.rank) ∈ rowGather.sKept by decide)]
  have key : ∀ a : Fin S131072x512.rank, a = 1 → ((ix2 t d) a).val = d.val := fun a ha => by subst ha; rfl
  simp only [Nat.zero_add]
  exact key _ (by decide)

/-- The gather read at `(t, d)`: the centers at the row the start index of sample `t` selects, column `d`. -/
theorem rowGather_apply {α : Type} (x : S101x512.Idx → α) (idx : IVec S131072x1 32) (t : Fin 131072) (d : Fin 512) :
    Host.gather rowGather x idx (ix2 t d) = x (ix2 (Cert.Spec.rowOf (idx (ix2 t (0 : Fin 1)))) d) := by
  unfold Host.gather
  congr 1
  funext a
  refine Fin.ext ?_
  match a with
  | ⟨0, _⟩ => exact rowGather_axis0 idx t d
  | ⟨1, _⟩ => exact rowGather_axis1 idx t d

/-! ## The wrap of a label that is not negative -/

/-- A word that is not negative as a signed integer is not below zero. -/
theorem slt_zero_of_nonneg (l : BitVec 32) (h : 0 ≤ l.toInt) : IntOp.cmpi .slt l 0#32 = 0#1 := by
  have h0 : (0#32 : BitVec 32).toInt = 0 := by decide
  have hs : l.slt 0#32 = false := by
    simp only [BitVec.slt, h0, decide_eq_false_iff_not, not_lt]; exact h
  show BitVec.ofBool (l.slt 0#32) = 0#1
  rw [hs]; rfl

/-- The wrapped label of a sample whose label is not negative is the label. -/
theorem wrap_eq (a2 : IVec S131072 32) (i : S131072.Idx) (h : 0 ≤ (a2 i).toInt) :
    val_main_v4 (F := Ideal) a2 i = a2 i := by
  rw [val_main_v4_apply, val_main_v1_apply, val_main_v0_apply, val_main_c_apply, slt_zero_of_nonneg _ h]
  exact select_zero _ _

/-! ## The squared distance of one sample, and the sum over the samples -/

variable (a0 : FVec Ideal S131072x512 .f32) (a1 : FVec Ideal S101x512 .f32) (a2 : IVec S131072 32)

/-- The gathered array at `(t, d)` is the centers at the row the label of sample `t` selects. -/
theorem gathered_apply (hlab : ∀ i, 0 ≤ (a2 i).toInt) (t : Fin 131072) (d : Fin 512) :
    val_main_v6 (F := Ideal) a1 a2 (ix2 t d) = a1 (ix2 (Cert.Spec.rowOf (a2 (ix1 t))) d) := by
  unfold val_main_v6
  rw [rowGather_apply, val_main_v5_apply]
  have hi : idx_main_v5 (ix2 t (0 : Fin 1)) = ix1 t :=
    funext fun a => Fin.ext (by match a with | ⟨0, _⟩ => rfl)
  rw [hi, wrap_eq a2 _ (hlab _)]

/-- The sum over the columns at sample `t` is the squared distance of the sample to its center. -/
theorem row_eq (hlab : ∀ i, 0 ≤ (a2 i).toInt) (t : Fin 131072) :
    val_main_v9 (F := Ideal) a0 a1 a2 (ix1 t) = Cert.Spec.rowSq a0 a1 a2 t := by
  rw [val_main_v9_apply, val_main_cst_apply]
  have hidx : ∀ k : Fin 512, idx_main_v9 (ix1 t) k = ix2 t k := fun k =>
    funext fun a => Fin.ext (by match a with | ⟨0, _⟩ => rfl | ⟨1, _⟩ => rfl)
  simp only [hidx, Ideal.ofBits_def, Ideal.ofBits_zero_f32, zero_add]
  unfold Cert.Spec.rowSq
  refine Finset.sum_congr rfl fun d _ => ?_
  rw [val_main_v8_apply, val_main_v7_apply, gathered_apply a1 a2 hlab t d]
  rfl

/-- The sum over the samples is the total of the squared distances. -/
theorem sum_eq (hlab : ∀ i, 0 ≤ (a2 i).toInt) (i : S_.Idx) :
    val_main_v60 (F := Ideal) a0 a1 a2 i = Cert.Spec.total a0 a1 a2 := by
  rw [val_main_v60_apply, val_main_cst_14_apply]
  simp only [Ideal.ofBits_def, Ideal.ofBits_zero_f32, zero_add]
  rw [Cert.LibSums.sum_idx1]
  unfold Cert.Spec.total
  exact Finset.sum_congr rfl fun t _ => row_eq a0 a1 a2 hlab t

/-- The last stage is the margin term plus the mean of the squared distances. -/
theorem value_eq (hlab : ∀ i, 0 ≤ (a2 i).toInt) :
    val_main_v62 (F := Ideal) a0 a1 a2 = Cert.Spec.finalOf (marginR a1) (Cert.Spec.total a0 a1 a2) := by
  have hs : val_main_v60 (F := Ideal) a0 a1 a2 = fun _ => Cert.Spec.total a0 a1 a2 :=
    funext fun i => sum_eq a0 a1 a2 hlab i
  unfold val_main_v62 val_main_v61 Cert.Spec.finalOf marginR val_main_cst_15
  rw [hs]

/-! ## The run -/

/-- The run's result term is the margin term plus the mean of the squared distances. -/
theorem result_eq (m : (ℓ : Loc nD τ sig) → Buf (Elt Ideal) ℓ) (c : Dev nD)
    (hlab : ∀ i, 0 ≤ (m ((c.tc : Thread nD τ).loc main_arg2) i).toInt) :
    Cert.ReferenceIdeal.Value.res_main_v62 (F := Ideal) m c
      = Cert.Spec.finalOf (marginR (m ((c.tc : Thread nD τ).loc main_arg1)))
          (Cert.Spec.total (m ((c.tc : Thread nD τ).loc main_arg0)) (m ((c.tc : Thread nD τ).loc main_arg1))
            (m ((c.tc : Thread nD τ).loc main_arg2))) := by
  rw [val_main_v62_eq]
  exact value_eq _ _ _ hlab

/-- The reference's run, its result read as the margin plus the mean squared distance. -/
theorem run (m : (ℓ : Loc nD τ sig) → Buf (Elt Ideal) ℓ) (ρ : Dev nD → PrngReg)
    (hlab : ∀ (c : Dev nD) i, 0 ≤ (m ((c.tc : Thread nD τ).loc main_arg2) i).toInt) :
    θ_run (defs (F := Ideal)) (onTc (τ := τ) (main (F := Ideal))) ⟨m, fun _ => 0, ρ⟩ fun r => ∀ c : Dev nD,
      r.2.mem ((c.tc : Thread nD τ).loc main_v62)
          = Cert.Spec.finalOf (marginR (m ((c.tc : Thread nD τ).loc main_arg1)))
              (Cert.Spec.total (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono
    (fun _ h c => ⟨(h c).1.trans (result_eq m c (hlab c)), (h c).2⟩)
    (Cert.ReferenceIdeal.Value.run (F := Ideal) m ρ)

end Cert.ReferenceIdeal.RefValue

end
-- ==== Proof.MarginEq.lean ====
/-
  The margin term of the kernel program and that of the reference are the same sixty-odd operations on the centers,
  in the same order: the Gram matrix of the normalized centers with its diagonal pushed up, its two first
  off-diagonals, the row minima, the two hinge sums and their mean. The comparison goes stretch by stretch, at any
  float values, and each stretch's two terms agree operation for operation.
-/
import proofs.«429582_j39891656245569_3_alg».proof.Proof.KI.Tail
import proofs.«429582_j39891656245569_3_alg».proof.Proof.Gen.ReferenceIdeal.Read
import proofs.«429582_j39891656245569_3_alg».proof.Proof.RefValue

set_option maxRecDepth 16384

noncomputable section

namespace Cert.MarginEq

open Idealize.ShloMosaic

section AnyFloat

variable {F : FTy → Type} [FloatOps F]

/-- The matrix stretch is the reference's matrix. -/
theorem stretchB_eq (x1 : (⟨Cert.KernelIdeal.S101x512, .f32⟩ : BufTy).Contents (Elt F)) :
    Cert.KernelIdeal.Tail.fB x1 = Cert.ReferenceIdeal.Read.val_main_v35 x1 := rfl

/-- The distance table is the reference's. -/
theorem table_eq : Cert.KernelIdeal.Tail.fB26 (F := F) = Cert.ReferenceIdeal.Read.val_main_v28 (F := F) := rfl

/-- The first gathered off-diagonal is the reference's. -/
theorem stretchC1_eq (x1 : (⟨Cert.KernelIdeal.S101x512, .f32⟩ : BufTy).Contents (Elt F)) :
    Cert.KernelIdeal.Tail.fC1 (Cert.ReferenceIdeal.Read.val_main_v35 x1) = Cert.ReferenceIdeal.Read.val_main_v36 x1 := rfl

/-- The second gathered off-diagonal is the reference's. -/
theorem stretchC2_eq (x1 : (⟨Cert.KernelIdeal.S101x512, .f32⟩ : BufTy).Contents (Elt F)) :
    Cert.KernelIdeal.Tail.fC2 (Cert.ReferenceIdeal.Read.val_main_v35 x1) = Cert.ReferenceIdeal.Read.val_main_v37 x1 := rfl

/-- The reductions over the reference's four values are the reference's margin. -/
theorem stretchD_eq (x1 : (⟨Cert.KernelIdeal.S101x512, .f32⟩ : BufTy).Contents (Elt F)) :
    Cert.KernelIdeal.Tail.fD (Cert.ReferenceIdeal.Read.val_main_v28 (F := F)) (Cert.ReferenceIdeal.Read.val_main_v35 x1)
        (Cert.ReferenceIdeal.Read.val_main_v36 x1) (Cert.ReferenceIdeal.Read.val_main_v37 x1)
      = Cert.ReferenceIdeal.Read.val_main_v59 x1 := rfl

/-- The kernel program's margin term is the reference's, at any float values: the same operations in the same order. -/
theorem marginF_eq (x1 : (⟨Cert.KernelIdeal.S101x512, .f32⟩ : BufTy).Contents (Elt F)) :
    Cert.KernelIdeal.Tail.marginF x1 = Cert.ReferenceIdeal.Read.val_main_v59 x1 := by
  unfold Cert.KernelIdeal.Tail.marginF
  rw [stretchB_eq, table_eq, stretchC1_eq, stretchC2_eq, stretchD_eq]

end AnyFloat

/-- The kernel program's margin term is the reference's, at the extended reals. -/
theorem margin_eq (a1 : FVec Ideal Cert.KernelIdeal.S101x512 .f32) :
    Cert.KernelIdeal.Tail.marginK a1 = Cert.ReferenceIdeal.RefValue.marginR a1 :=
  marginF_eq (F := Ideal) a1

end Cert.MarginEq

end
-- ==== Proof.PreDecode.lean ====
/-
  The precondition, decoded.

  The precondition states three things as one bit: every embedding and every center has absolute value below +∞, and
  every label is at least 0 as a signed integer. Each is an "and" over all entries of a comparison; the bit being 1
  says each comparison holds at every entry. An extended real whose absolute value is below +∞ is neither of the two
  infinities, and a label at least 0 has a non-negative signed reading.
-/
import proofs.«429582_j39891656245569_3_alg».proof.Pre_finite_inputs
import proofs.«429582_j39891656245569_3_alg».proof.Proof.Gen.Pre_finite_inputs
import Idealize.ShloMosaic.Lib.ReduceAll
import Idealize.ShloMosaic.Lib.ValueIdx
import Idealize.ShloMosaic.PureOps.Ideal

namespace Cert.PreDecode

open Idealize.ShloMosaic Cert.Pre_finite_inputs

/-- The scalar shape has one index. -/
instance : Subsingleton S_.Idx := ⟨fun a b => funext fun d => d.elim0⟩

/-- The pattern of +∞ denotes the top of the extended reals. -/
theorem inf_eq_top : Ideal.ofBits .f32 0x7F800000#32 = (⊤ : EReal) := by simp [Ideal.ofBits, Ideal.ieee]

/-- An extended real whose absolute value compares below +∞ is neither infinity. -/
theorem finite_of_abs_lt (x : Ideal .f32)
    (h : FloatOps.cmpf .olt (FloatOps.hostAbsf x) (FloatOps.ofBits (F := Ideal) .f32 0x7F800000#32) = 1#1) :
    x ≠ ⊥ ∧ x ≠ ⊤ := by
  change Ideal.cmp .olt (max (x : EReal) (-(x : EReal))) (Ideal.ofBits .f32 0x7F800000#32) = 1#1 at h
  rw [inf_eq_top] at h
  unfold Ideal.cmp at h
  have hlt : max (x : EReal) (-(x : EReal)) < ⊤ := by
    by_contra hn
    simp [hn] at h
  rw [max_lt_iff] at hlt
  refine ⟨fun hb => ?_, fun ht => ?_⟩
  · rw [hb] at hlt
    simp at hlt
  · rw [ht] at hlt
    simp at hlt

/-- The precondition's three parts: every embedding is a real, every center is a real, every label is at least 0. -/
theorem of_pre_all [Cert.Pre_finite_inputs.Facts] (a0 : FVec Ideal Cert.Pre_finite_inputs.S131072x512 .f32)
    (a1 : FVec Ideal Cert.Pre_finite_inputs.S101x512 .f32) (a2 : IVec Cert.Pre_finite_inputs.S131072 32)
    (h : Cert.Pre_finite_inputs.fn (F := Ideal) a0 a1 a2 = fun _ => 1#1) :
    (∀ i, a0 i ≠ ⊥ ∧ a0 i ≠ ⊤) ∧ (∀ i, a1 i ≠ ⊥ ∧ a1 i ≠ ⊤) ∧ (∀ i, 0 ≤ (a2 i).toInt) := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  refine ⟨fun i => ?_, fun i => ?_, fun i => ?_⟩
  · exact finite_of_abs_lt (a0 i) (Host.reduce_andi_all _ _ _ _ _ h1 i)
  · exact finite_of_abs_lt (a1 i) (Host.reduce_andi_all _ _ _ _ _ h2 i)
  · have e := Host.reduce_andi_all _ _ _ _ _ h3 i
    have e' : (0#32 : BitVec 32).toInt ≤ (a2 i).toInt := IntOp.cmpi_sge.1 e
    have e0 : (0#32 : BitVec 32).toInt = 0 := by decide
    rw [e0] at e'
    exact e'

/-- What the certificate uses of the precondition: every center is a real and every label is at least 0. -/
theorem of_pre [Cert.Pre_finite_inputs.Facts] (a0 : FVec Ideal Cert.Pre_finite_inputs.S131072x512 .f32)
    (a1 : FVec Ideal Cert.Pre_finite_inputs.S101x512 .f32) (a2 : IVec Cert.Pre_finite_inputs.S131072 32)
    (h : Cert.Pre_finite_inputs.fn (F := Ideal) a0 a1 a2 = fun _ => 1#1) :
    (∀ i, a1 i ≠ ⊥ ∧ a1 i ≠ ⊤) ∧ (∀ i, 0 ≤ (a2 i).toInt) :=
  (of_pre_all a0 a1 a2 h).2

end Cert.PreDecode
-- ==== Proof.Words.lean ====
/-
  Label words.

  A label is a 32-bit word read as a signed integer. The kernel clamps it into [0, 100] (the larger of the word and 0,
  then the smaller of that and 100): whatever the word, the outcome is the word of the row `rowOf` selects, a negative
  label going to row 0. The reference adds 101 to a negative label and leaves a non-negative one as it is. Each fact is
  stated on one word, and then at one index of a vector of labels.
-/
import Idealize.ShloMosaic.PureOps.Vector
import Idealize.ShloMosaic.PureOps.ShapeOps
import proofs.«429582_j39891656245569_3_alg».proof.Proof.Spec

namespace Cert.Words

open Idealize.ShloMosaic

/-! ## One word -/

/-- The signed reading of a word from its unsigned one: below 2³¹ they agree, from 2³¹ on the signed one is 2³² less. -/
theorem toInt_cases (l : BitVec 32) :
    (l.toNat < 2147483648 ∧ l.toInt = (l.toNat : Int)) ∨ (2147483648 ≤ l.toNat ∧ l.toInt = (l.toNat : Int) - 4294967296) := by
  have h := BitVec.toInt_eq_toNat_cond l
  have hl : l.toNat < 4294967296 := l.isLt
  by_cases hc : 2 * l.toNat < 2 ^ 32
  · rw [if_pos hc] at h
    left
    exact ⟨by omega, h⟩
  · rw [if_neg hc] at h
    right
    refine ⟨by omega, ?_⟩
    rw [h]
    norm_num

/-- The clamp of a word into [0, 100]: the larger of the word and 0, then the smaller of that and 100. -/
def clip (l : BitVec 32) : BitVec 32 := IntOp.minsi 100#32 (IntOp.maxsi 0#32 l)

/-- The clamped word is the word of the selected row, for every word (a negative label goes to row 0). -/
theorem clip_word (l : BitVec 32) : clip l = BitVec.ofNat 32 (Cert.Spec.rowOf l).val := by
  have hl : l.toNat < 4294967296 := l.isLt
  unfold clip IntOp.minsi IntOp.maxsi Cert.Spec.rowOf
  simp only [BitVec.slt]
  have e0 : (0#32 : BitVec 32).toInt = 0 := by decide
  have e100 : (100#32 : BitVec 32).toInt = 100 := by decide
  rcases toInt_cases l with ⟨h1, h2⟩ | ⟨h1, h2⟩
  · -- a non-negative label
    have c1 : ¬ l.toInt < (0#32 : BitVec 32).toInt := by rw [e0]; omega
    by_cases h3 : l.toNat ≤ 100
    · -- at most 100: kept
      have c2 : ¬ (100#32 : BitVec 32).toInt < l.toInt := by rw [e100]; omega
      simp only [c1, decide_false, Bool.false_eq_true, if_false, c2]
      have hm : min l.toInt.toNat 100 = l.toNat := by omega
      rw [hm]
      apply BitVec.eq_of_toNat_eq
      rw [BitVec.toNat_ofNat]
      exact (Nat.mod_eq_of_lt l.isLt).symm
    · -- above 100: cut to 100
      have c2 : (100#32 : BitVec 32).toInt < l.toInt := by rw [e100]; omega
      simp only [c1, decide_false, Bool.false_eq_true, if_false, c2, decide_true, if_true]
      have hm : min l.toInt.toNat 100 = 100 := by omega
      rw [hm]
  · -- a negative label: raised to 0
    have c1 : l.toInt < (0#32 : BitVec 32).toInt := by rw [e0]; omega
    have c2 : ¬ (100#32 : BitVec 32).toInt < (0#32 : BitVec 32).toInt := by decide
    simp only [c1, decide_true, if_true, c2, decide_false, Bool.false_eq_true, if_false]
    have hm : min l.toInt.toNat 100 = 0 := by omega
    rw [hm]

/-- The clamped word, read unsigned, is the selected row. -/
theorem clip_toNat (l : BitVec 32) : (clip l).toNat = (Cert.Spec.rowOf l).val := by
  rw [clip_word, BitVec.toNat_ofNat]
  exact Nat.mod_eq_of_lt (by have := (Cert.Spec.rowOf l).isLt; omega)

/-- The clamped word, read unsigned, is below 101. -/
theorem clip_toNat_lt (l : BitVec 32) : (clip l).toNat < 101 := by
  rw [clip_toNat]
  exact (Cert.Spec.rowOf l).isLt

/-- The clamped word, read signed, is the selected row as well. -/
theorem clip_toInt (l : BitVec 32) : (clip l).toInt = ((Cert.Spec.rowOf l).val : Int) := by
  have h := clip_toNat l
  have hlt := clip_toNat_lt l
  rcases toInt_cases (clip l) with ⟨_, h2⟩ | ⟨h1, _⟩
  · rw [h2, h]
  · omega

/-- The clamped word is the word of row `c` exactly when the selected row is `c`. -/
theorem clip_eq_ofNat_iff (l : BitVec 32) (c : ℕ) (hc : c < 101) :
    clip l = BitVec.ofNat 32 c ↔ (Cert.Spec.rowOf l).val = c := by
  constructor
  · intro h
    have h' := congrArg BitVec.toNat h
    rw [clip_toNat, BitVec.toNat_ofNat, Nat.mod_eq_of_lt (by omega)] at h'
    exact h'
  · intro h
    rw [clip_word, h]

/-- The reference's adjustment of a label: 101 more where it is negative. -/
def wrap (l : BitVec 32) : BitVec 32 := Scalar.select (IntOp.cmpi .slt l 0#32) (IntOp.addi l 101#32) l

/-- A non-negative label is left as it is. -/
theorem wrap_word (l : BitVec 32) (h : 0 ≤ l.toInt) : wrap l = l := by
  have e0 : (0#32 : BitVec 32).toInt = 0 := by decide
  have c1 : ¬ l.toInt < (0#32 : BitVec 32).toInt := by rw [e0]; omega
  unfold wrap Scalar.select IntOp.cmpi
  simp only [BitVec.slt, c1, decide_false, BitVec.ofBool_false]
  exact if_neg (by decide)

/-! ## One index of a vector of labels -/

section Vector

variable {s : Shape}

/-- The broadcast of a constant is the constant. -/
theorem bcast_const {t : Shape} (dims : Fin s.rank → Fin t.rank) (h : s.BroadcastsInDim t dims) (w : ℕ) (b : BitVec w) :
    broadcastInDim t dims h (constantI s w b) = constantI t w b := rfl

/-- The clamp at one index. -/
theorem clip_at (lab : IVec s 32) (i : s.Idx) :
    minsi (constantI s 32 100#32) (maxsi (constantI s 32 0#32) lab) i = BitVec.ofNat 32 (Cert.Spec.rowOf (lab i)).val :=
  clip_word (lab i)

/-- The clamped vector. -/
theorem clip_vec (lab : IVec s 32) :
    minsi (constantI s 32 100#32) (maxsi (constantI s 32 0#32) lab)
      = fun i => BitVec.ofNat 32 (Cert.Spec.rowOf (lab i)).val :=
  funext fun i => clip_at lab i

/-- The reference's adjustment at one index where the label is non-negative. -/
theorem wrap_at (lab : IVec s 32) (i : s.Idx) (h : 0 ≤ (lab i).toInt) :
    select (cmpi .slt lab (constantI s 32 0#32)) (addi lab (constantI s 32 101#32)) lab i = lab i :=
  wrap_word (lab i) h

/-- The reference's adjustment of a vector of non-negative labels is the vector. -/
theorem wrap_vec (lab : IVec s 32) (h : ∀ i, 0 ≤ (lab i).toInt) :
    select (cmpi .slt lab (constantI s 32 0#32)) (addi lab (constantI s 32 101#32)) lab = lab :=
  funext fun i => wrap_at lab i (h i)

end Vector

/-! ## The two programs' own operations, on the 131072 labels -/

/-- The scalar shape and the labels' shape, as the programs print them. -/
abbrev S_ : Shape := ⟨0, ![]⟩
abbrev S131072 : Shape := ⟨1, ![131072]⟩

/-- The kernel's clamp (the constants 0 and 100 broadcast from scalars), at one index. -/
theorem clip_bcast_at (hb : S_.BroadcastsInDim S131072 (![] : Fin 0 → Fin S131072.rank)) (lab : IVec S131072 32)
    (i : S131072.Idx) :
    minsi (broadcastInDim S131072 ![] hb (id (constantI S_ 32 100#32)))
        (maxsi (broadcastInDim S131072 ![] hb (id (constantI S_ 32 0#32))) lab) i
      = BitVec.ofNat 32 (Cert.Spec.rowOf (lab i)).val :=
  clip_word (lab i)

/-- The kernel's clamped vector. -/
theorem clip_bcast_vec (hb : S_.BroadcastsInDim S131072 (![] : Fin 0 → Fin S131072.rank)) (lab : IVec S131072 32) :
    minsi (broadcastInDim S131072 ![] hb (id (constantI S_ 32 100#32)))
        (maxsi (broadcastInDim S131072 ![] hb (id (constantI S_ 32 0#32))) lab)
      = fun i => BitVec.ofNat 32 (Cert.Spec.rowOf (lab i)).val :=
  funext fun i => clip_bcast_at hb lab i

/-- The reference's adjustment (the constants 0 and 101 broadcast from scalars), at one index where the label is
    non-negative. -/
theorem wrap_bcast_at (hb : S_.BroadcastsInDim S131072 (![] : Fin 0 → Fin S131072.rank)) (lab : IVec S131072 32)
    (i : S131072.Idx) (h : 0 ≤ (lab i).toInt) :
    select (cmpi .slt lab (broadcastInDim S131072 ![] hb (constantI S_ 32 0#32)))
        (addi lab (broadcastInDim S131072 ![] hb (constantI S_ 32 101#32))) lab i = lab i :=
  wrap_word (lab i) h

/-- The reference's adjustment of non-negative labels is the labels. -/
theorem wrap_bcast_vec (hb : S_.BroadcastsInDim S131072 (![] : Fin 0 → Fin S131072.rank)) (lab : IVec S131072 32)
    (h : ∀ i, 0 ≤ (lab i).toInt) :
    select (cmpi .slt lab (broadcastInDim S131072 ![] hb (constantI S_ 32 0#32)))
        (addi lab (broadcastInDim S131072 ![] hb (constantI S_ 32 101#32))) lab = lab :=
  funext fun i => wrap_bcast_at hb lab i (h i)

end Cert.Words
-- ==== Proof.lean ====
/-
  The certificate of the center-loss kernel against its jnp reference, over the extended reals.

  Both programs return the margin term of the centers plus the mean, over the 131072 samples, of the squared distance
  of a sample's embedding to the center its label names. The margin term is the same sixty-odd host operations in both
  programs. The reference gathers the labelled center rows (a negative label is first moved up by 101, the gather
  clamps its start index into [0, 100]); the kernel clips the labels into [0, 100] and gathers by a one-hot matrix
  product, in 64 blocks of 2048 samples, adding each block's squared distances into a running sum that restarts at
  blocks 0 and 32 and is written out after blocks 31 and 63; the host adds the two running sums. Under the
  precondition — finite inputs and labels that are not negative — the wrapped label is the label, the one-hot product
  picks exactly the clamped row, the kernel's second product (the centers minus their own value, zero for finite centers)
  contributes nothing, and the two running sums add up to the sum over all samples because addition of extended reals is
  commutative and associative.

  The three frames: each kernel program is run through the library's launch theorem for a pipelined region followed
  by host operations (the scratch cell carried between grid points in the region's invariant); the reference is its
  generated run. The one rewrite of the idealization (a narrowing to bf16 widened back is the identity at the ideal
  instance) is the rule's own statement.
-/
import proofs.«429582_j39891656245569_3_alg».proof.Defs
import proofs.«429582_j39891656245569_3_alg».proof.Proof.Gen.Kernel
import proofs.«429582_j39891656245569_3_alg».proof.Proof.Gen.KernelIdeal
import proofs.«429582_j39891656245569_3_alg».proof.Proof.Gen.ReferenceIdeal
import proofs.«429582_j39891656245569_3_alg».proof.Proof.Gen.Pre_finite_inputs
import proofs.«429582_j39891656245569_3_alg».proof.Proof.K.Frame
import proofs.«429582_j39891656245569_3_alg».proof.Proof.KI.Invariant
import proofs.«429582_j39891656245569_3_alg».proof.Proof.KI.Final
import proofs.«429582_j39891656245569_3_alg».proof.Proof.KI.Tail
import proofs.«429582_j39891656245569_3_alg».proof.Proof.RefRun
import proofs.«429582_j39891656245569_3_alg».proof.Proof.RefValue
import proofs.«429582_j39891656245569_3_alg».proof.Proof.MarginEq
import proofs.«429582_j39891656245569_3_alg».proof.Proof.PreDecode
import proofs.«429582_j39891656245569_3_alg».proof.Proof.Words
import Idealize.ShloMosaic.Adequacy
import Idealize.ShloMosaic.Init

noncomputable section

namespace Cert.Proof

open Idealize.ShloMosaic Idealize.ShloMosaic.TcCoe Idealize.SL.Sem

/-- The word-level kernel program runs to the end, faults nowhere, and leaves its arguments as launched. -/
theorem frame_k [Cert.Kernel.Facts] [Cert.Pre_finite_inputs.Facts] : Cert.frame_Kernel :=
  fun m ρ _ => Cert.Kernel.Fr.frame m ρ

/-- So does the idealized kernel program. -/
theorem frame_ki [Cert.KernelIdeal.Facts] [Cert.Pre_finite_inputs.Facts] : Cert.frame_KernelIdeal :=
  fun m ρ _ => Cert.KernelIdeal.Fr.frame m ρ

/-- And the reference: its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- The idealization's one rewrite: narrowing the centers to bf16 and widening back is the identity at the ideal instance. -/
theorem preserves : Cert.preserves_Kernel_KernelIdeal :=
  IdealRules.truncf_extf.statement Cert.KernelIdeal.S101x512 .f32 .bf16

/-- From memories that agree on the arguments both idealized programs end with the margin of the centers plus the mean
    squared distance. -/
theorem algebraic [Cert.KernelIdeal.Facts] [Cert.ReferenceIdeal.Facts] [Cert.Pre_finite_inputs.Facts] :
    Cert.algebraic_KernelIdeal_ReferenceIdeal := by
  intro m ρ m' ρ' hpre hagree
  have hdec := fun c => Cert.PreDecode.of_pre _ _ _ (hpre c)
  have hfin : ∀ c i, Cert.KernelIdeal.FrV.cenA m c i ≠ ⊥ ∧ Cert.KernelIdeal.FrV.cenA m c i ≠ ⊤ := fun c => (hdec c).1
  have hlab : ∀ (c : Dev Cert.ReferenceIdeal.nD) i,
      0 ≤ (m' ((c.tc : Thread Cert.ReferenceIdeal.nD Cert.ReferenceIdeal.τ).loc Cert.ReferenceIdeal.main_arg2) i).toInt := by
    intro c i; rw [(hagree c).2.2]; exact (hdec c).2 i
  refine ⟨fun c => Cert.Spec.finalOf (Cert.KernelIdeal.Tail.marginK (Cert.KernelIdeal.FrV.cenA m c))
      (Cert.Spec.total (Cert.KernelIdeal.FrV.embA m c) (Cert.KernelIdeal.FrV.cenA m c) (Cert.KernelIdeal.FrV.labA m c)), ?_, ?_⟩
  · refine (θ_run Cert.KernelIdeal.defs _ _).mono (fun _ h c => ⟨(h c).1.trans ?_, (h c).2⟩)
      (Cert.KernelIdeal.Final.result_of_run m ρ Cert.KernelIdeal.Tail.marginK
        (fun c => Cert.KernelIdeal.Inv.acc m c 31 (by omega)) (fun c => Cert.KernelIdeal.Inv.acc m c 63 (by omega))
        (fun c t ht => by
          have := Cert.KernelIdeal.Inv.out_eq m c (hfin c) t (by omega)
          simpa only [ht] using this)
        (fun c t ht => by
          have := Cert.KernelIdeal.Inv.out_eq m c (hfin c) t (by omega)
          simpa only [ht] using this)
        Cert.KernelIdeal.Tail.tail_eq)
    dsimp only
    rw [Cert.Spec.total_eq_acc]
  · refine (θ_run Cert.ReferenceIdeal.defs _ _).mono (fun _ h c => ⟨(h c).1.trans ?_, (h c).2⟩)
      (Cert.ReferenceIdeal.RefValue.run m' ρ' hlab)
    dsimp only
    rw [(hagree c).1, (hagree c).2.1, (hagree c).2.2, ← Cert.MarginEq.margin_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
